-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S256x784 : Shape := ⟨2, ![256, 784]⟩
abbrev S256 : Shape := ⟨1, ![256]⟩
abbrev S256x256 : Shape := ⟨2, ![256, 256]⟩
abbrev S10x256 : Shape := ⟨2, ![10, 256]⟩
abbrev S10 : Shape := ⟨1, ![10]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S256x784 : S_.BroadcastsInDim S256x784 (![] : Fin 0 → Fin S256x784.rank)
  reducesTo_S256x784_S_d0_1 : S256x784.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10x256 .f32) (main_arg8 : FVec F S10 .f32) (main_v33 : IVec S_ 1) : IVec S_ 1 :=
  let main_v34 : FVec F S10x256 .f32 := Host.absf main_arg7
  let main_cst_12 : FVec F S_ .f32 := constant S_ .f32 0x7F800000#32
  let main_v35 : FVec F S10x256 .f32 := broadcastInDim S10x256 ![] bcast_S_S10x256 main_cst_12
  let main_v36 : IVec S10x256 1 := cmpf .olt main_v34 main_v35
  let main_c_13 : IVec S_ 1 := constantI S_ 1 1#1
  let main_v37 : IVec S_ 1 := (fun x v => Host.reduce IntOp.andi x v reducesTo_S10x256_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S10x256 .f32) (main_arg8 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S32768x784 .f32) (main_arg1 : FVec F S256x784 .f32) (main_arg2 : FVec F S256 .f32) (main_arg3 : FVec F S256x256 .f32) (main_arg4 : FVec F S256 .f32) (main_arg5 : FVec F S256x256 .f32) (main_arg6 : FVec F S256 .f32) (main_arg7 : FVec F S10x256 .f32) (main_arg8 : FVec F S10 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S256x784 .f32 := Host.absf main_arg1
  let main_cst_0 : FVec F S_ .f32 := constant S_ .f32 0x7F800000#32
  let main_v5 : FVec F S256x784 .f32 := broadcastInDim S256x784 ![] bcast_S_S256x784 main_cst_0
  let main_v6 : IVec S256x784 1 := cmpf .olt main_v4 main_v5
  let main_c_1 : IVec S_ 1 := constantI S_ 1 1#1
  let main_v7 : IVec S_ 1 := (fun x v => Host.reduce IntOp.andi x v reducesTo_S256x784_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S32768x784 : Shape := ⟨2, ![32768, 784]⟩
abbrev S256x784 : Shape := ⟨2, ![256, 784]⟩
abbrev S256 : Shape := ⟨1, ![256]⟩
abbrev S256x256 : Shape := ⟨2, ![256, 256]⟩
abbrev S10x256 : Shape := ⟨2, ![10, 256]⟩
abbrev S10 : Shape := ⟨1, ![10]⟩
abbrev S1x256 : Shape := ⟨2, ![1, 256]⟩
abbrev S1x10 : Shape := ⟨2, ![1, 10]⟩
abbrev S32768x10 : Shape := ⟨2, ![32768, 10]⟩
abbrev S2x784x256 : Shape := ⟨3, ![2, 784, 256]⟩
abbrev S2x256x256 : Shape := ⟨3, ![2, 256, 256]⟩
abbrev S2x256x10 : Shape := ⟨3, ![2, 256, 10]⟩
abbrev S1024x784 : Shape := ⟨2, ![1024, 784]⟩
abbrev S1024x10 : Shape := ⟨2, ![1024, 10]⟩
abbrev S1x784x256 : Shape := ⟨3, ![1, 784, 256]⟩
abbrev S1x256x256 : Shape := ⟨3, ![1, 256, 256]⟩
abbrev S1x256x10 : Shape := ⟨3, ![1, 256, 10]⟩
abbrev S784x256 : Shape := ⟨2, ![784, 256]⟩
abbrev S256x10 : Shape := ⟨2, ![256, 10]⟩
abbrev S1024x256 : Shape := ⟨2, ![1024, 256]⟩
abbrev S_ : Shape := ⟨0, ![]⟩

abbrev nBuf : Space → Nat
  | .hbm => 26
  | .vmem => 20
  | .smem => 0
  | _ => 0

abbrev bufTy : (tb : Table) → Fin (tcTables nBuf tb) → BufTy
  | .hbm, ⟨0, _⟩ => ⟨S32768x784, .f32⟩
  | .hbm, ⟨1, _⟩ => ⟨S256x784, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S10x256, .f32⟩
  | .hbm, ⟨8, _⟩ => ⟨S10, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x10, .f32⟩
  | .hbm, ⟨13, _⟩ => ⟨S32768x10, .f32⟩
  | .hbm, ⟨14, _⟩ => ⟨S2x784x256, .f32⟩
  | .hbm, ⟨15, _⟩ => ⟨S2x256x256, .f32⟩
  | .hbm, ⟨16, _⟩ => ⟨S2x256x256, .f32⟩
  | .hbm, ⟨17, _⟩ => ⟨S2x256x10, .f32⟩
  | .hbm, ⟨18, _⟩ => ⟨S_, .f32⟩
  | .hbm, ⟨19, _⟩ => ⟨S784x256, .f32⟩
  | .hbm, ⟨20, _⟩ => ⟨S_, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S_, .f32⟩
  | .hbm, ⟨25, _⟩ => ⟨S256x10, .f32⟩
  | .local _ .vmem, ⟨0, _⟩ => ⟨S1024x784, .f32⟩
  | .local _ .vmem, ⟨1, _⟩ => ⟨S1024x784, .f32⟩
  | .local _ .vmem, ⟨2, _⟩ => ⟨S256x784, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S10x256, .f32⟩
  | .local _ .vmem, ⟨9, _⟩ => ⟨S1x10, .f32⟩
  | .local _ .vmem, ⟨10, _⟩ => ⟨S1024x10, .f32⟩
  | .local _ .vmem, ⟨11, _⟩ => ⟨S1024x10, .f32⟩
  | .local _ .vmem, ⟨12, _⟩ => ⟨S1x784x256, .f32⟩
  | .local _ .vmem, ⟨13, _⟩ => ⟨S1x784x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x10, .f32⟩
  | .local _ .vmem, ⟨19, _⟩ => ⟨S1x256x10, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S10x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x784x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x10 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  shapeCasts_S256_S1x256 : S256.ShapeCasts S1x256
  shapeCasts_S10_S1x10 : S10.ShapeCasts S1x10
  inb_S1x784x256_S1x784x256_0_0_0 : ∀ a, (![0, 0, 0] : Fin 3 → Nat) a + S1x784x256.size a ≤ S1x784x256.size a
  h_S1x784x256 : 0 < S1x784x256.numel
  shapeCasts_S1x784x256_S784x256 : S1x784x256.ShapeCasts S784x256
  shapeCasts_S784x256_S1x784x256 : S784x256.ShapeCasts S1x784x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x10_S1x256x10_0_0_0 : ∀ a, (![0, 0, 0] : Fin 3 → Nat) a + S1x256x10.size a ≤ S1x256x10.size a
  h_S1x256x10 : 0 < S1x256x10.numel
  shapeCasts_S1x256x10_S256x10 : S1x256x10.ShapeCasts S256x10
  shapeCasts_S256x10_S1x256x10 : S256x10.ShapeCasts S1x256x10
  inb_S1024x784_S1024x784_0_0 : ∀ a, (![0, 0] : Fin 2 → Nat) a + S1024x784.size a ≤ S1024x784.size a
  h_S1024x784 : 0 < S1024x784.numel
  natLt_1_32 : 1 < 32
  bitsLt_bf16_f32 : FTy.bits .bf16 < FTy.bits .f32
  inb_S256x784_S256x784_0_0 : ∀ a, (![0, 0] : Fin 2 → Nat) a + S256x784.size a ≤ S256x784.size a
  h_S256x784 : 0 < S256x784.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S10x256_S10x256_0_0 : ∀ a, (![0, 0] : Fin 2 → Nat) a + S10x256.size a ≤ S10x256.size a
  h_S10x256 : 0 < S10x256.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  reducesTo_S2x784x256_S784x256_d0 : S2x784x256.ReducesTo [0] S784x256
  h_S_ : 0 < S_.numel
  reducesTo_S2x256x256_S256x256_d0 : S2x256x256.ReducesTo [0] S256x256
  reducesTo_S2x256x10_S256x10_d0 : S2x256x10.ReducesTo [0] S256x10
  dot_S1024x784_S256x784_S1024x256_1_1_0_0_n_n_wf : DotDims.WF S1024x784 S256x784 S1024x256 [1] [1] [0] [0] [] []
  dot_S1024x784_S1024x256_S784x256_0_0_1_1_n_n_wf : DotDims.WF S1024x784 S1024x256 S784x256 [0] [0] [1] [1] [] []
  dot_S1024x256_S256x256_S1024x256_1_1_0_0_n_n_wf : DotDims.WF S1024x256 S256x256 S1024x256 [1] [1] [0] [0] [] []
  dot_S1024x256_S1024x256_S256x256_0_0_1_1_n_n_wf : DotDims.WF S1024x256 S1024x256 S256x256 [0] [0] [1] [1] [] []
  dot_S1024x256_S10x256_S1024x10_1_1_0_0_n_n_wf : DotDims.WF S1024x256 S10x256 S1024x10 [1] [1] [0] [0] [] []
  dot_S1024x256_S1024x10_S256x10_0_0_1_1_n_n_wf : DotDims.WF S1024x256 S1024x10 S256x10 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S32768x784.size a
  hwx0_0 : ∀ i : grid0.Coords, EltTy.bits .f32 = 32 ∨ (Rect.block (s := S32768x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x784.size a ≤ S256x784.size a
  hwx0_1 : ∀ i : grid0.Coords, EltTy.bits .f32 = 32 ∨ (Rect.block (s := S256x784) S256x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x256.size a ≤ S10x256.size a
  hwx0_7 : ∀ i : grid0.Coords, EltTy.bits .f32 = 32 ∨ (Rect.block (s := S10x256) S10x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x10.size a ≤ S32768x10.size a
  hwx0_9 : ∀ i : grid0.Coords, EltTy.bits .f32 = 32 ∨ (Rect.block (s := S32768x10) S1024x10.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x784x256.size a ≤ S2x784x256.size a
  hwx0_10 : ∀ i : grid0.Coords, EltTy.bits .f32 = 32 ∨ (Rect.block (s := S2x784x256) S1x784x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x256.size a ≤ S2x256x256.size a
  hwx0_11 : ∀ i : grid0.Coords, EltTy.bits .f32 = 32 ∨ (Rect.block (s := S2x256x256) S1x256x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x256.size a ≤ S2x256x256.size a
  hwx0_12 : ∀ i : grid0.Coords, EltTy.bits .f32 = 32 ∨ (Rect.block (s := S2x256x256) S1x256x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256x10.size a ≤ S2x256x10.size a
  hwx0_13 : ∀ i : grid0.Coords, EltTy.bits .f32 = 32 ∨ (Rect.block (s := S2x256x10) S1x256x10.size (cc0_transform_13 i) (hinb0_13 i)).WholeWords (EltTy.packing .f32)

variable [Facts₀]

def dot_S1024x784_S256x784_S1024x256_1_1_0_0_n_n : DotDims S1024x784 S256x784 S1024x256 where
  lhsContracting := [1]
  rhsContracting := [1]
  lhsNonContracting := [0]
  rhsNonContracting := [0]
  lhsBatch := []
  rhsBatch := []
  wf := dot_S1024x784_S256x784_S1024x256_1_1_0_0_n_n_wf
def dot_S1024x784_S1024x256_S784x256_0_0_1_1_n_n : DotDims S1024x784 S1024x256 S784x256 where
  lhsContracting := [0]
  rhsContracting := [0]
  lhsNonContracting := [1]
  rhsNonContracting := [1]
  lhsBatch := []
  rhsBatch := []
  wf := dot_S1024x784_S1024x256_S784x256_0_0_1_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf
def dot_S1024x256_S10x256_S1024x10_1_1_0_0_n_n : DotDims S1024x256 S10x256 S1024x10 where
  lhsContracting := [1]
  rhsContracting := [1]
  lhsNonContracting := [0]
  rhsNonContracting := [0]
  lhsBatch := []
  rhsBatch := []
  wf := dot_S1024x256_S10x256_S1024x10_1_1_0_0_n_n_wf
def dot_S1024x256_S1024x10_S256x10_0_0_1_1_n_n : DotDims S1024x256 S1024x10 S256x10 where
  lhsContracting := [0]
  rhsContracting := [0]
  lhsNonContracting := [1]
  rhsNonContracting := [1]
  lhsBatch := []
  rhsBatch := []
  wf := dot_S1024x256_S1024x10_S256x10_0_0_1_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S1024x10.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S1x784x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S1x256x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_3) S1x256x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_4) S1x256x10.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32768x784 : Shape := ⟨2, ![32768, 784]⟩
abbrev S256x784 : Shape := ⟨2, ![256, 784]⟩
abbrev S256 : Shape := ⟨1, ![256]⟩
abbrev S256x256 : Shape := ⟨2, ![256, 256]⟩
abbrev S10x256 : Shape := ⟨2, ![10, 256]⟩
abbrev S10 : Shape := ⟨1, ![10]⟩
abbrev S_ : Shape := ⟨0, ![]⟩
abbrev S784x256 : Shape := ⟨2, ![784, 256]⟩
abbrev S32768x256 : Shape := ⟨2, ![32768, 256]⟩
abbrev S1x256 : Shape := ⟨2, ![1, 256]⟩
abbrev S784x32768 : Shape := ⟨2, ![784, 32768]⟩
abbrev S256x32768 : Shape := ⟨2, ![256, 32768]⟩
abbrev S256x10 : Shape := ⟨2, ![256, 10]⟩
abbrev S32768x10 : Shape := ⟨2, ![32768, 10]⟩
abbrev S1x10 : Shape := ⟨2, ![1, 10]⟩

abbrev nBuf : Space → Nat
  | .hbm => 66
  | .vmem => 0
  | .smem => 0
  | _ => 0

abbrev bufTy : (tb : Table) → Fin (tcTables nBuf tb) → BufTy
  | .hbm, ⟨0, _⟩ => ⟨S32768x784, .f32⟩
  | .hbm, ⟨1, _⟩ => ⟨S256x784, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S10x256, .f32⟩
  | .hbm, ⟨8, _⟩ => ⟨S10, .f32⟩
  | .hbm, ⟨9, _⟩ => ⟨S_, .f32⟩
  | .hbm, ⟨10, _⟩ => ⟨S32768x784, .f32⟩
  | .hbm, ⟨11, _⟩ => ⟨S32768x784, .i1⟩
  | .hbm, ⟨12, _⟩ => ⟨S32768x784, .f32⟩
  | .hbm, ⟨13, _⟩ => ⟨S784x256, .f32⟩
  | .hbm, ⟨14, _⟩ => ⟨S32768x256, .f32⟩
  | .hbm, ⟨15, _⟩ => ⟨S1x256, .f32⟩
  | .hbm, ⟨16, _⟩ => ⟨S32768x256, .f32⟩
  | .hbm, ⟨17, _⟩ => ⟨S32768x256, .f32⟩
  | .hbm, ⟨18, _⟩ => ⟨S_, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .i1⟩
  | .hbm, ⟨24, _⟩ => ⟨S32768x256, .f32⟩
  | .hbm, ⟨25, _⟩ => ⟨S784x32768, .f32⟩
  | .hbm, ⟨26, _⟩ => ⟨S784x256, .f32⟩
  | .hbm, ⟨27, _⟩ => ⟨S256x256, .f32⟩
  | .hbm, ⟨28, _⟩ => ⟨S32768x256, .f32⟩
  | .hbm, ⟨29, _⟩ => ⟨S1x256, .f32⟩
  | .hbm, ⟨30, _⟩ => ⟨S32768x256, .f32⟩
  | .hbm, ⟨31, _⟩ => ⟨S32768x256, .f32⟩
  | .hbm, ⟨32, _⟩ => ⟨S_, .f32⟩
  | .hbm, ⟨33, _⟩ => ⟨S32768x256, .f32⟩
  | .hbm, ⟨34, _⟩ => ⟨S32768x256, .f32⟩
  | .hbm, ⟨35, _⟩ => ⟨S_, .f32⟩
  | .hbm, ⟨36, _⟩ => ⟨S32768x256, .f32⟩
  | .hbm, ⟨37, _⟩ => ⟨S32768x256, .i1⟩
  | .hbm, ⟨38, _⟩ => ⟨S32768x256, .f32⟩
  | .hbm, ⟨39, _⟩ => ⟨S256x32768, .f32⟩
  | .hbm, ⟨40, _⟩ => ⟨S256x256, .f32⟩
  | .hbm, ⟨41, _⟩ => ⟨S256x256, .f32⟩
  | .hbm, ⟨42, _⟩ => ⟨S32768x256, .f32⟩
  | .hbm, ⟨43, _⟩ => ⟨S1x256, .f32⟩
  | .hbm, ⟨44, _⟩ => ⟨S32768x256, .f32⟩
  | .hbm, ⟨45, _⟩ => ⟨S32768x256, .f32⟩
  | .hbm, ⟨46, _⟩ => ⟨S_, .f32⟩
  | .hbm, ⟨47, _⟩ => ⟨S32768x256, .f32⟩
  | .hbm, ⟨48, _⟩ => ⟨S32768x256, .f32⟩
  | .hbm, ⟨49, _⟩ => ⟨S_, .f32⟩
  | .hbm, ⟨50, _⟩ => ⟨S32768x256, .f32⟩
  | .hbm, ⟨51, _⟩ => ⟨S32768x256, .i1⟩
  | .hbm, ⟨52, _⟩ => ⟨S32768x256, .f32⟩
  | .hbm, ⟨53, _⟩ => ⟨S256x32768, .f32⟩
  | .hbm, ⟨54, _⟩ => ⟨S256x256, .f32⟩
  | .hbm, ⟨55, _⟩ => ⟨S256x10, .f32⟩
  | .hbm, ⟨56, _⟩ => ⟨S32768x10, .f32⟩
  | .hbm, ⟨57, _⟩ => ⟨S1x10, .f32⟩
  | .hbm, ⟨58, _⟩ => ⟨S32768x10, .f32⟩
  | .hbm, ⟨59, _⟩ => ⟨S32768x10, .f32⟩
  | .hbm, ⟨60, _⟩ => ⟨S_, .f32⟩
  | .hbm, ⟨61, _⟩ => ⟨S32768x10, .f32⟩
  | .hbm, ⟨62, _⟩ => ⟨S32768x10, .i1⟩
  | .hbm, ⟨63, _⟩ => ⟨S32768x10, .f32⟩
  | .hbm, ⟨64, _⟩ => ⟨S256x32768, .f32⟩
  | .hbm, ⟨65, _⟩ => ⟨S256x10, .f32⟩
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call2_cst : Ref sig .tc := ⟨.hbm, 46, rfl⟩
abbrev main_call2_v0 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S_S32768x784 : S_.BroadcastsInDim S32768x784 (![] : Fin 0 → Fin S32768x784.rank)
  transposes_S256x784_S784x256_1_0 : S256x784.Transposes [1, 0] S784x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S32768x784_S784x32768_1_0 : S32768x784.Transposes [1, 0] S784x32768
  transposes_S256x256_S256x256_1_0 : S256x256.Transposes [1, 0] S256x256
  transposes_S32768x256_S256x32768_1_0 : S32768x256.Transposes [1, 0] S256x32768
  transposes_S10x256_S256x10_1_0 : S10x256.Transposes [1, 0] S256x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  bcast_S_S32768x10 : S_.BroadcastsInDim S32768x10 (![] : Fin 0 → Fin S32768x10.rank)
  dot_S32768x784_S784x256_S32768x256_1_0_0_1_n_n_wf : DotDims.WF S32768x784 S784x256 S32768x256 [1] [0] [0] [1] [] []
  dot_S784x32768_S32768x256_S784x256_1_0_0_1_n_n_wf : DotDims.WF S784x32768 S32768x256 S784x256 [1] [0] [0] [1] [] []
  dot_S32768x256_S256x256_S32768x256_1_0_0_1_n_n_wf : DotDims.WF S32768x256 S256x256 S32768x256 [1] [0] [0] [1] [] []
  dot_S256x32768_S32768x256_S256x256_1_0_0_1_n_n_wf : DotDims.WF S256x32768 S32768x256 S256x256 [1] [0] [0] [1] [] []
  dot_S32768x256_S256x10_S32768x10_1_0_0_1_n_n_wf : DotDims.WF S32768x256 S256x10 S32768x10 [1] [0] [0] [1] [] []
  dot_S256x32768_S32768x10_S256x10_1_0_0_1_n_n_wf : DotDims.WF S256x32768 S32768x10 S256x10 [1] [0] [0] [1] [] []

variable [Facts₀]

def dot_S32768x784_S784x256_S32768x256_1_0_0_1_n_n : DotDims S32768x784 S784x256 S32768x256 where
  lhsContracting := [1]
  rhsContracting := [0]
  lhsNonContracting := [0]
  rhsNonContracting := [1]
  lhsBatch := []
  rhsBatch := []
  wf := dot_S32768x784_S784x256_S32768x256_1_0_0_1_n_n_wf
def dot_S784x32768_S32768x256_S784x256_1_0_0_1_n_n : DotDims S784x32768 S32768x256 S784x256 where
  lhsContracting := [1]
  rhsContracting := [0]
  lhsNonContracting := [0]
  rhsNonContracting := [1]
  lhsBatch := []
  rhsBatch := []
  wf := dot_S784x32768_S32768x256_S784x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S256x32768_S32768x256_S256x256_1_0_0_1_n_n : DotDims S256x32768 S32768x256 S256x256 where
  lhsContracting := [1]
  rhsContracting := [0]
  lhsNonContracting := [0]
  rhsNonContracting := [1]
  lhsBatch := []
  rhsBatch := []
  wf := dot_S256x32768_S32768x256_S256x256_1_0_0_1_n_n_wf
def dot_S32768x256_S256x10_S32768x10_1_0_0_1_n_n : DotDims S32768x256 S256x10 S32768x10 where
  lhsContracting := [1]
  rhsContracting := [0]
  lhsNonContracting := [0]
  rhsNonContracting := [1]
  lhsBatch := []
  rhsBatch := []
  wf := dot_S32768x256_S256x10_S32768x10_1_0_0_1_n_n_wf
def dot_S256x32768_S32768x10_S256x10_1_0_0_1_n_n : DotDims S256x32768 S32768x10 S256x10 where
  lhsContracting := [1]
  rhsContracting := [0]
  lhsNonContracting := [0]
  rhsNonContracting := [1]
  lhsBatch := []
  rhsBatch := []
  wf := dot_S256x32768_S32768x10_S256x10_1_0_0_1_n_n_wf

class Facts : Prop extends Facts₀ where

variable [Facts]
-- ==== Proof.PiecesA.lean ====
/-
  What the body leaves in each output's staging buffer at the FIRST point of a core's sweep (the reset is taken), as
  a value at any instance `F`: every output buffer ends covered by ONE whole-block store, so its contents are that
  store's payload — the logits' block, and for each co-activation matrix the update applied to the ZERO block the
  reset has just stored (the body reads its own reset back).
-/
import proofs.«165139_j36704790511730_1_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The logits' block: one store covers the whole block, so the block holds that store's payload, the last layer applied
    to the third layer's activations; each load of an input buffer reads that input's whole contents. -/
theorem out_A_9 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = k0_pay2 (k0_pay16 (k0_pay11 x0 x1 x2) (k0_pay12 x3) x4 x5 x6) x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x784) hz2, View.ld_unit_zero (S := S256x784) hz2, View.ld_unit_zero (S := S1x256) hz2, View.ld_unit_zero (S := S256x256) hz2, View.ld_unit_zero (S := S10x256) hz2, View.ld_unit_zero (S := S1x10) hz2]

/-- The first co-activation matrix (positive inputs against positive first-layer activations, contracted over the
    batch): the reset stores the zero block over the whole block, the update reads it back and stores, again over the
    whole block, what it read plus the count product; the later store covers, so the block holds its payload taken at the
    zero block. -/
theorem out_A_10 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = k0_pay10 x0 x1 x2 (k0_pay4 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero (S := S1x784x256) hz3, View.readCov_unit_zero (S := S1x784x256) _ hz3]
  simp only [View.readAt_eq_ld, harg2.read_unread, harg3.read_unread, harg4.read_unread, View.ld_unit_zero (S := S1024x784) hz2, View.ld_unit_zero (S := S256x784) hz2, View.ld_unit_zero (S := S1x256) hz2]

/-- The second co-activation matrix (first layer against second): as the first, the update's payload taken at the zero
    block the reset has stored. -/
theorem out_A_11 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = k0_pay15 (k0_pay9 x0 x1 x2) (k0_pay11 x0 x1 x2) (k0_pay12 x3) x4 (k0_pay5 (F := F)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, harg4.read_unread, harg5.read_unread, harg6.read_unread, View.ld_unit_zero (S := S1024x784) hz2, View.ld_unit_zero (S := S256x784) hz2, View.ld_unit_zero (S := S1x256) hz2, View.ld_unit_zero (S := S256x256) hz2]

/-- The third co-activation matrix (second layer against third): the update adds the count product to the block as read
    back after the reset, that is to the zero block reshaped to rank 2. -/
theorem out_A_12 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = k0_pay1 (k0_pay18 (k0_pay6 (F := F))) (k0_pay19 (k0_pay11 x0 x1 x2) (k0_pay12 x3) x4 x5 x6) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, harg4.read_unread, harg5.read_unread, harg6.read_unread, harg7.read_unread, harg8.read_unread, View.ld_unit_zero (S := S1024x784) hz2, View.ld_unit_zero (S := S256x784) hz2, View.ld_unit_zero (S := S1x256) hz2, View.ld_unit_zero (S := S256x256) hz2]

/-- The fourth co-activation matrix (third layer against the logits): the update's payload taken at the zero block the
    reset has stored. -/
theorem out_A_13 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = k0_pay3 (k0_pay16 (k0_pay11 x0 x1 x2) (k0_pay12 x3) x4 x5 x6) (k0_pay17 (k0_pay11 x0 x1 x2) (k0_pay12 x3) x4 x5 x6) x7 x8 (k0_pay7 (F := F)) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero (S := S1x256x10) hz3, View.readCov_unit_zero (S := S1x256x10) _ hz3]
  simp only [View.readAt_eq_ld, harg2.read_unread, harg3.read_unread, harg4.read_unread, harg5.read_unread, harg6.read_unread, harg7.read_unread, harg8.read_unread, harg9.read_unread, harg10.read_unread, View.ld_unit_zero (S := S1024x784) hz2, View.ld_unit_zero (S := S256x784) hz2, View.ld_unit_zero (S := S1x256) hz2, View.ld_unit_zero (S := S256x256) hz2, View.ld_unit_zero (S := S10x256) hz2, View.ld_unit_zero (S := S1x10) hz2]

end Cert.KernelIdeal.Piece

end
-- ==== Proof.PiecesB.lean ====
/-
  What the body leaves in each output's staging buffer at a LATER point of a core's sweep (no reset), as a value at
  any instance `F`: one whole-block store per output; the logits' block as before, and for each co-activation matrix
  the update applied to what the buffer held on entry (`xo10 … xo13`: what the point before left).
-/
import proofs.«165139_j36704790511730_1_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2' : (![0, 0] : Fin 2 → Nat) = fun _ => 0 := funext fun a => by fin_cases a <;> rfl
theorem hz3' : (![0, 0, 0] : Fin 3 → Nat) = fun _ => 0 := funext fun a => by fin_cases a <;> rfl

theorem out_B_9 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : ¬cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) (xo10 : Vec F S1x784x256 .f32) (xo11 : Vec F S1x256x256 .f32) (xo12 : Vec F S1x256x256 .f32) (xo13 : Vec F S1x256x10 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 = k0_pay2 (k0_pay16 (k0_pay11 x0 x1 x2) (k0_pay12 x3) x4 x5 x6) x7 x8 := by
  -- The block is covered by its one store, so what is left is that store's payload; each load it depends on goes
  -- through the whole-shape rectangle at zero offsets of an input buffer, hence reads that buffer's contents.
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13)]
  unfold kernelRun0_B
  dsimp only
  sl_unfold_words
  rw [View.canon_unit_zero hz2']
  simp only [View.readAt_eq_ld, harg2.read_unread, harg3.read_unread, harg4.read_unread, harg5.read_unread, harg6.read_unread, harg7.read_unread, harg8.read_unread, harg9.read_unread, harg10.read_unread,
    View.ld_unit_zero (S := S1024x784) hz2', View.ld_unit_zero (S := S256x784) hz2', View.ld_unit_zero (S := S1x256) hz2', View.ld_unit_zero (S := S256x256) hz2', View.ld_unit_zero (S := S10x256) hz2', View.ld_unit_zero (S := S1x10) hz2']

theorem out_B_10 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : ¬cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) (xo10 : Vec F S1x784x256 .f32) (xo11 : Vec F S1x256x256 .f32) (xo12 : Vec F S1x256x256 .f32) (xo13 : Vec F S1x256x10 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 = k0_pay10 x0 x1 x2 xo10 := by
  -- One covering store; its payload reads the inputs' contents and, the buffer not having been written yet at this
  -- point, what the buffer held on entry (`xo10`).
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13)]
  unfold kernelRun0_B
  dsimp only
  sl_unfold_words
  rw [View.canon_unit_zero hz3']
  simp only [View.readAt_eq_ld, harg2.read_unread, harg3.read_unread, harg4.read_unread, harg12.read_unread,
    View.ld_unit_zero (S := S1024x784) hz2', View.ld_unit_zero (S := S256x784) hz2', View.ld_unit_zero (S := S1x256) hz2', View.ld_unit_zero (S := S1x784x256) hz3']

theorem out_B_11 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : ¬cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) (xo10 : Vec F S1x784x256 .f32) (xo11 : Vec F S1x256x256 .f32) (xo12 : Vec F S1x256x256 .f32) (xo13 : Vec F S1x256x10 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 = k0_pay15 (k0_pay9 x0 x1 x2) (k0_pay11 x0 x1 x2) (k0_pay12 x3) x4 xo11 := by
  -- One covering store; its payload reads the inputs' contents and the buffer's contents on entry (`xo11`).
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13)]
  unfold kernelRun0_B
  dsimp only
  sl_unfold_words
  rw [View.canon_unit_zero hz3']
  simp only [View.readAt_eq_ld, harg2.read_unread, harg3.read_unread, harg4.read_unread, harg5.read_unread, harg6.read_unread, harg13.read_unread,
    View.ld_unit_zero (S := S1024x784) hz2', View.ld_unit_zero (S := S256x784) hz2', View.ld_unit_zero (S := S1x256) hz2', View.ld_unit_zero (S := S256x256) hz2', View.ld_unit_zero (S := S1x256x256) hz3']

theorem out_B_12 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : ¬cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) (xo10 : Vec F S1x784x256 .f32) (xo11 : Vec F S1x256x256 .f32) (xo12 : Vec F S1x256x256 .f32) (xo13 : Vec F S1x256x10 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 = k0_pay1 (k0_pay18 xo12) (k0_pay19 (k0_pay11 x0 x1 x2) (k0_pay12 x3) x4 x5 x6) := by
  -- One covering store; its payload is a sum whose first summand is the buffer's contents on entry (`xo12`), read as
  -- a matrix, and whose second is the product over the batch of the second and third hidden layers' activation
  -- masks, computed from the inputs' contents.
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13)]
  unfold kernelRun0_B
  dsimp only
  sl_unfold_words
  rw [View.canon_unit_zero hz3']
  simp only [View.readAt_eq_ld, harg2.read_unread, harg3.read_unread, harg4.read_unread, harg5.read_unread, harg6.read_unread, harg7.read_unread, harg8.read_unread, harg14.read_unread,
    View.ld_unit_zero (S := S1024x784) hz2', View.ld_unit_zero (S := S256x784) hz2', View.ld_unit_zero (S := S1x256) hz2', View.ld_unit_zero (S := S256x256) hz2', View.ld_unit_zero (S := S1x256x256) hz3']

theorem out_B_13 (c : Dev nD) (i : grid0.Coords) (arg2 : Memref sig .tc .vmem S1024x784 .f32) (harg2 : arg2.IsWhole) (arg3 : Memref sig .tc .vmem S256x784 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S10x256 .f32) (harg9 : arg9.IsWhole) (arg10 : Memref sig .tc .vmem S1x10 .f32) (harg10 : arg10.IsWhole) (arg11 : Memref sig .tc .vmem S1024x10 .f32) (harg11 : arg11.IsWhole) (arg12 : Memref sig .tc .vmem S1x784x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x256x10 .f32) (harg15 : arg15.IsWhole) (hc0 : ¬cond0_0 i)
    (x0 : Vec F S1024x784 .f32) (x1 : Vec F S256x784 .f32) (x2 : Vec F S1x256 .f32) (x3 : Vec F S256x256 .f32) (x4 : Vec F S1x256 .f32) (x5 : Vec F S256x256 .f32) (x6 : Vec F S1x256 .f32) (x7 : Vec F S10x256 .f32) (x8 : Vec F S1x10 .f32) (xo10 : Vec F S1x784x256 .f32) (xo11 : Vec F S1x256x256 .f32) (xo12 : Vec F S1x256x256 .f32) (xo13 : Vec F S1x256x10 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 = k0_pay3 (k0_pay16 (k0_pay11 x0 x1 x2) (k0_pay12 x3) x4 x5 x6) (k0_pay17 (k0_pay11 x0 x1 x2) (k0_pay12 x3) x4 x5 x6) x7 x8 xo13 := by
  -- One covering store; its payload reads the inputs' contents and the buffer's contents on entry (`xo13`).
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13)]
  unfold kernelRun0_B
  dsimp only
  sl_unfold_words
  rw [View.canon_unit_zero hz3']
  simp only [View.readAt_eq_ld, harg2.read_unread, harg3.read_unread, harg4.read_unread, harg5.read_unread, harg6.read_unread, harg7.read_unread, harg8.read_unread, harg9.read_unread, harg10.read_unread, harg15.read_unread,
    View.ld_unit_zero (S := S1024x784) hz2', View.ld_unit_zero (S := S256x784) hz2', View.ld_unit_zero (S := S1x256) hz2', View.ld_unit_zero (S := S256x256) hz2', View.ld_unit_zero (S := S10x256) hz2', View.ld_unit_zero (S := S1x10) hz2', View.ld_unit_zero (S := S1x256x10) hz3']

end Cert.KernelIdeal.Piece

end
-- ==== Proof.Mlp.lean ====
/-
  The mathematics both programs compute, over the extended reals: a four-layer perceptron applied row by row,
  the 0/1 indicators of its positive activations, and for each pair of consecutive activation points the matrix
  of co-activation counts  C[i, j] = ∑ᵣ a[r, i] · a'[r, j]  (one term per batch row r).

  Everything is stated over plain functions `Fin R → Fin K → EReal` with the number of rows `R` generic, because
  every quantity but the counts is ROW-LOCAL: row r of a hidden layer depends on row r of the input only. So the
  same definitions describe one 1024-row block of the batch and the whole 32768-row batch, and a block of a hidden
  layer IS the hidden layer of the block (`*_rows` below, all by unfolding).
-/
import Idealize.ShloMosaic.PureOps.Ideal
import Mathlib.Algebra.BigOperators.Fin
import Mathlib.Data.EReal.Basic

noncomputable section

namespace Cert.Mlp

open Idealize.ShloMosaic

variable {R R' K J I : ℕ}

/-- One affine layer: `(x Wᵀ + b)[r, j] = (∑ₖ x[r, k] · W[j, k]) + b[j]`. -/
def lin (x : Fin R → Fin K → EReal) (W : Fin J → Fin K → EReal) (b : Fin J → EReal) (r : Fin R) (j : Fin J) : EReal :=
  (∑ k : Fin K, x r k * W j k) + b j

/-- The rectifier `max(v, 0)`. -/
def relu (v : EReal) : EReal := max v 0

/-- The indicator of `v > 0` as a number: 1 when `0 < v`, else 0 (the comparison bit, read unsigned). -/
def ind (v : EReal) : EReal := (((Ideal.cmp .ogt v 0).toNat : ℝ) : EReal)

/-- A hidden layer: the rectified affine layer. -/
def hid (x : Fin R → Fin K → EReal) (W : Fin J → Fin K → EReal) (b : Fin J → EReal) (r : Fin R) (j : Fin J) : EReal :=
  relu (lin x W b r j)

/-- Co-activation counts of two indicator matrices over the same rows: `C[i, j] = ∑ᵣ a[r, i] · a'[r, j]`. -/
def coact (a : Fin R → Fin I → EReal) (a' : Fin R → Fin J → EReal) (i : Fin I) (j : Fin J) : EReal :=
  ∑ r : Fin R, a r i * a' r j

/-- The network's parameters: weights `W[out, in]` and biases of the four layers (784 → 256 → 256 → 256 → 10). -/
structure Params where
  W1 : Fin 256 → Fin 784 → EReal
  b1 : Fin 256 → EReal
  W2 : Fin 256 → Fin 256 → EReal
  b2 : Fin 256 → EReal
  W3 : Fin 256 → Fin 256 → EReal
  b3 : Fin 256 → EReal
  W4 : Fin 10 → Fin 256 → EReal
  b4 : Fin 10 → EReal

variable (p : Params) (x : Fin R → Fin 784 → EReal)

/-- The three hidden layers and the output layer (no rectifier on the last). -/
def h1 : Fin R → Fin 256 → EReal := hid x p.W1 p.b1
def h2 : Fin R → Fin 256 → EReal := hid (h1 p x) p.W2 p.b2
def h3 : Fin R → Fin 256 → EReal := hid (h2 p x) p.W3 p.b3
def logits : Fin R → Fin 10 → EReal := lin (h3 p x) p.W4 p.b4

/-- The five activation points' indicators: the input, the three hidden layers, the logits. -/
def a0 : Fin R → Fin 784 → EReal := fun r i => ind (x r i)
def a1 : Fin R → Fin 256 → EReal := fun r j => ind (h1 p x r j)
def a2 : Fin R → Fin 256 → EReal := fun r j => ind (h2 p x r j)
def a3 : Fin R → Fin 256 → EReal := fun r j => ind (h3 p x r j)
def a4 : Fin R → Fin 10 → EReal := fun r j => ind (logits p x r j)

/-- The four co-activation matrices over the rows of `x`. -/
def c0 : Fin 784 → Fin 256 → EReal := coact (a0 x) (a1 p x)
def c1 : Fin 256 → Fin 256 → EReal := coact (a1 p x) (a2 p x)
def c2 : Fin 256 → Fin 256 → EReal := coact (a2 p x) (a3 p x)
def c3 : Fin 256 → Fin 10 → EReal := coact (a3 p x) (a4 p x)

/-! ## Row-locality: selecting rows commutes with every layer -/

variable (e : Fin R' → Fin R)

theorem h1_rows : h1 p (fun y => x (e y)) = fun y => h1 p x (e y) := rfl
theorem h2_rows : h2 p (fun y => x (e y)) = fun y => h2 p x (e y) := rfl
theorem h3_rows : h3 p (fun y => x (e y)) = fun y => h3 p x (e y) := rfl
theorem logits_rows : logits p (fun y => x (e y)) = fun y => logits p x (e y) := rfl
theorem a0_rows : a0 (fun y => x (e y)) = fun y => a0 x (e y) := rfl
theorem a1_rows : a1 p (fun y => x (e y)) = fun y => a1 p x (e y) := rfl
theorem a2_rows : a2 p (fun y => x (e y)) = fun y => a2 p x (e y) := rfl
theorem a3_rows : a3 p (fun y => x (e y)) = fun y => a3 p x (e y) := rfl
theorem a4_rows : a4 p (fun y => x (e y)) = fun y => a4 p x (e y) := rfl

end Cert.Mlp

end
-- ==== Proof.Result.lean ====
/-
  The five results as whole-array functions of the nine argument arrays: the logits and the four co-activation
  matrices of `Cert.Mlp`, read off arrays indexed the way the programs index them. Both programs' final arrays are
  stated with THESE terms, so the algebraic claim closes by rewriting the arguments' agreement.
-/
import proofs.«165139_j36704790511730_1_alg».proof.Proof.Mlp
import Idealize.ShloMosaic.Lib.ValueIdx

noncomputable section

namespace Cert.Mlp

open Idealize.ShloMosaic Idealize.ShloMosaic.ValueIdx

/-- A rank-2 array as a function of its two coordinates; a rank-1 array of its one; row 0 of a one-row array. -/
def cur2 {a b : ℕ} (f : (⟨2, ![a, b]⟩ : Shape).Idx → EReal) : Fin a → Fin b → EReal := fun r k => f (ix2 r k)
def cur1 {a : ℕ} (f : (⟨1, ![a]⟩ : Shape).Idx → EReal) : Fin a → EReal := fun r => f (ix1 r)
def row0 {b : ℕ} (f : (⟨2, ![1, b]⟩ : Shape).Idx → EReal) : Fin b → EReal := fun k => f (ix2 0 k)

/-- The nine argument arrays (values at the ideal instance are extended reals). -/
structure Args where
  x  : (⟨2, ![32768, 784]⟩ : Shape).Idx → EReal
  W1 : (⟨2, ![256, 784]⟩ : Shape).Idx → EReal
  b1 : (⟨1, ![256]⟩ : Shape).Idx → EReal
  W2 : (⟨2, ![256, 256]⟩ : Shape).Idx → EReal
  b2 : (⟨1, ![256]⟩ : Shape).Idx → EReal
  W3 : (⟨2, ![256, 256]⟩ : Shape).Idx → EReal
  b3 : (⟨1, ![256]⟩ : Shape).Idx → EReal
  W4 : (⟨2, ![10, 256]⟩ : Shape).Idx → EReal
  b4 : (⟨1, ![10]⟩ : Shape).Idx → EReal

/-- The network's parameters and the batch, read off the arrays. -/
def Args.p (A : Args) : Params :=
  ⟨cur2 A.W1, cur1 A.b1, cur2 A.W2, cur1 A.b2, cur2 A.W3, cur1 A.b3, cur2 A.W4, cur1 A.b4⟩
def Args.X (A : Args) : Fin 32768 → Fin 784 → EReal := cur2 A.x

/-- The results, as arrays. -/
def resLogits (A : Args) : (⟨2, ![32768, 10]⟩ : Shape).Idx → EReal :=
  fun i => logits A.p A.X ⟨(i 0).val, (i 0).isLt⟩ ⟨(i 1).val, (i 1).isLt⟩
def resC0 (A : Args) : (⟨2, ![784, 256]⟩ : Shape).Idx → EReal :=
  fun i => c0 A.p A.X ⟨(i 0).val, (i 0).isLt⟩ ⟨(i 1).val, (i 1).isLt⟩
def resC1 (A : Args) : (⟨2, ![256, 256]⟩ : Shape).Idx → EReal :=
  fun i => c1 A.p A.X ⟨(i 0).val, (i 0).isLt⟩ ⟨(i 1).val, (i 1).isLt⟩
def resC2 (A : Args) : (⟨2, ![256, 256]⟩ : Shape).Idx → EReal :=
  fun i => c2 A.p A.X ⟨(i 0).val, (i 0).isLt⟩ ⟨(i 1).val, (i 1).isLt⟩
def resC3 (A : Args) : (⟨2, ![256, 10]⟩ : Shape).Idx → EReal :=
  fun i => c3 A.p A.X ⟨(i 0).val, (i 0).isLt⟩ ⟨(i 1).val, (i 1).isLt⟩

theorem resLogits_ix (A : Args) (r : Fin 32768) (j : Fin 10) : resLogits A (ix2 r j) = logits A.p A.X r j := rfl
theorem resC0_ix (A : Args) (i : Fin 784) (j : Fin 256) : resC0 A (ix2 i j) = c0 A.p A.X i j := rfl
theorem resC1_ix (A : Args) (i : Fin 256) (j : Fin 256) : resC1 A (ix2 i j) = c1 A.p A.X i j := rfl
theorem resC2_ix (A : Args) (i : Fin 256) (j : Fin 256) : resC2 A (ix2 i j) = c2 A.p A.X i j := rfl
theorem resC3_ix (A : Args) (i : Fin 256) (j : Fin 10) : resC3 A (ix2 i j) = c3 A.p A.X i j := rfl

/-! ## The batch in blocks of 1024 rows -/

/-- Row `y` of block `t` of the batch: row `1024 t + y`. -/
def blockRow (t : Fin 32) (y : Fin 1024) : Fin 32768 := ⟨1024 * t.val + y.val, by have := t.isLt; have := y.isLt; omega⟩

/-- Block `t` of the batch. -/
def Args.Xb (A : Args) (t : Fin 32) : Fin 1024 → Fin 784 → EReal := fun y => A.X (blockRow t y)

end Cert.Mlp

end
-- ==== Proof.BlockLayers.lean ====
/-
  One grid point's arithmetic, layer by layer, at the ideal instance: what the kernel body computes from the blocks it
  loads — a 1024-row block `x0` of the batch and the eight parameter blocks `x1 … x8` — read at an index, IS the
  perceptron of `Cert.Mlp` on that block. At the ideal instance a change of float format is the identity, a matrix
  product into a zero accumulator is the plain sum over the contracted axis, and the 0/1 mask `(v > 0)`, widened to
  32 bits and read as a signed integer, is the indicator `Mlp.ind`.
-/
import proofs.«165139_j36704790511730_1_alg».proof.Proof.Gen.KernelIdeal.Skeleton
import proofs.«165139_j36704790511730_1_alg».proof.Proof.Result
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Cert.KernelIdeal Cert.KernelIdeal.Gen Cert.Mlp Idealize.ShloMosaic Idealize.ShloMosaic.ValueIdx

/-! ## The three matrix products read at an index

Each product contracts axis 1 of both operands (`x Wᵀ`): at output index `(y, j)` and contraction position `k` the
left operand is read at `(y, k)` and the right at `(j, k)`. The four axis lemmas say so coordinate by coordinate; the
sum over the one-axis contraction index is then re-indexed by its one coordinate. -/

private theorem mm1_lhs_0 (i : S1024x256.Idx) (q : dot_S1024x784_S256x784_S1024x256_1_1_0_0_n_n.contr.Idx) :
    (dot_S1024x784_S256x784_S1024x256_1_1_0_0_n_n.lhsIdx i q 0).val = (i 0).val := by
  unfold DotDims.lhsIdx
  rw [dif_neg (show ¬(0 : Fin S1024x784.rank) ∈ dot_S1024x784_S256x784_S1024x256_1_1_0_0_n_n.lhsBatch by decide),
    dif_pos (show (0 : Fin S1024x784.rank) ∈ dot_S1024x784_S256x784_S1024x256_1_1_0_0_n_n.lhsNonContracting by decide)]
  rfl
private theorem mm1_lhs_1 (i : S1024x256.Idx) (q : dot_S1024x784_S256x784_S1024x256_1_1_0_0_n_n.contr.Idx) :
    (dot_S1024x784_S256x784_S1024x256_1_1_0_0_n_n.lhsIdx i q 1).val = (q ⟨0, by decide⟩).val :=
  dot_S1024x784_S256x784_S1024x256_1_1_0_0_n_n.lhsIdx_val_of_single rfl i q
private theorem mm1_rhs_0 (i : S1024x256.Idx) (q : dot_S1024x784_S256x784_S1024x256_1_1_0_0_n_n.contr.Idx) :
    (dot_S1024x784_S256x784_S1024x256_1_1_0_0_n_n.rhsIdx i q 0).val = (i 1).val := by
  unfold DotDims.rhsIdx
  rw [dif_neg (show ¬(0 : Fin S256x784.rank) ∈ dot_S1024x784_S256x784_S1024x256_1_1_0_0_n_n.rhsBatch by decide),
    dif_pos (show (0 : Fin S256x784.rank) ∈ dot_S1024x784_S256x784_S1024x256_1_1_0_0_n_n.rhsNonContracting by decide)]
  rfl
private theorem mm1_rhs_1 (i : S1024x256.Idx) (q : dot_S1024x784_S256x784_S1024x256_1_1_0_0_n_n.contr.Idx) :
    (dot_S1024x784_S256x784_S1024x256_1_1_0_0_n_n.rhsIdx i q 1).val = (q ⟨0, by decide⟩).val :=
  dot_S1024x784_S256x784_S1024x256_1_1_0_0_n_n.rhsIdx_val_of_single rfl i q

/-- The first layer's product. -/
private theorem mm1 (lhs : FVec Ideal S1024x784 .bf16) (rhs : FVec Ideal S256x784 .bf16) (y : Fin 1024) (j : Fin 256) :
    matmul dot_S1024x784_S256x784_S1024x256_1_1_0_0_n_n none lhs rhs (constant S1024x256 .f32 0x00000000#32) (ix2 y j)
      = ∑ k : Fin 784, lhs (ix2 y k) * rhs (ix2 j k) := by
  simp only [matmul]
  rw [Ideal.matmul_constant_zero_apply,
    ← Equiv.sum_comp (ValueIdx.contrEquiv1 dot_S1024x784_S256x784_S1024x256_1_1_0_0_n_n 784 rfl rfl).symm]
  refine Finset.sum_congr rfl fun k _ => ?_
  have hk := ValueIdx.contrEquiv1_symm_val dot_S1024x784_S256x784_S1024x256_1_1_0_0_n_n 784 rfl rfl k
  have el : dot_S1024x784_S256x784_S1024x256_1_1_0_0_n_n.lhsIdx (ix2 y j) ((ValueIdx.contrEquiv1 dot_S1024x784_S256x784_S1024x256_1_1_0_0_n_n 784 rfl rfl).symm k) = ix2 y k :=
    funext fun a => Fin.ext (by
      match a with
      | ⟨0, _⟩ => exact mm1_lhs_0 _ _
      | ⟨1, _⟩ => exact (mm1_lhs_1 _ _).trans hk)
  have er : dot_S1024x784_S256x784_S1024x256_1_1_0_0_n_n.rhsIdx (ix2 y j) ((ValueIdx.contrEquiv1 dot_S1024x784_S256x784_S1024x256_1_1_0_0_n_n 784 rfl rfl).symm k) = ix2 j k :=
    funext fun a => Fin.ext (by
      match a with
      | ⟨0, _⟩ => exact mm1_rhs_0 _ _
      | ⟨1, _⟩ => exact (mm1_rhs_1 _ _).trans hk)
  rw [el, er]

private theorem mm2_lhs_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide),
    dif_pos (show (0 : Fin S1024x256.rank) ∈ dot_S1024x256_S256x256_S1024x256_1_1_0_0_n_n.lhsNonContracting by decide)]
  rfl
private theorem mm2_lhs_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
private theorem mm2_rhs_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide),
    dif_pos (show (0 : Fin S256x256.rank) ∈ dot_S1024x256_S256x256_S1024x256_1_1_0_0_n_n.rhsNonContracting by decide)]
  rfl
private theorem mm2_rhs_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- The second and third layers' product. -/
private theorem mm2 (lhs : FVec Ideal S1024x256 .bf16) (rhs : FVec Ideal S256x256 .bf16) (y : Fin 1024) (j : Fin 256) :
    matmul dot_S1024x256_S256x256_S1024x256_1_1_0_0_n_n none lhs rhs (constant S1024x256 .f32 0x00000000#32) (ix2 y j)
      = ∑ k : Fin 256, lhs (ix2 y k) * rhs (ix2 j k) := by
  simp only [matmul]
  rw [Ideal.matmul_constant_zero_apply,
    ← Equiv.sum_comp (ValueIdx.contrEquiv1 dot_S1024x256_S256x256_S1024x256_1_1_0_0_n_n 256 rfl rfl).symm]
  refine Finset.sum_congr rfl fun k _ => ?_
  have hk := ValueIdx.contrEquiv1_symm_val dot_S1024x256_S256x256_S1024x256_1_1_0_0_n_n 256 rfl rfl k
  have el : dot_S1024x256_S256x256_S1024x256_1_1_0_0_n_n.lhsIdx (ix2 y j) ((ValueIdx.contrEquiv1 dot_S1024x256_S256x256_S1024x256_1_1_0_0_n_n 256 rfl rfl).symm k) = ix2 y k :=
    funext fun a => Fin.ext (by
      match a with
      | ⟨0, _⟩ => exact mm2_lhs_0 _ _
      | ⟨1, _⟩ => exact (mm2_lhs_1 _ _).trans hk)
  have er : dot_S1024x256_S256x256_S1024x256_1_1_0_0_n_n.rhsIdx (ix2 y j) ((ValueIdx.contrEquiv1 dot_S1024x256_S256x256_S1024x256_1_1_0_0_n_n 256 rfl rfl).symm k) = ix2 j k :=
    funext fun a => Fin.ext (by
      match a with
      | ⟨0, _⟩ => exact mm2_rhs_0 _ _
      | ⟨1, _⟩ => exact (mm2_rhs_1 _ _).trans hk)
  rw [el, er]

private theorem mm3_lhs_0 (i : S1024x10.Idx) (q : dot_S1024x256_S10x256_S1024x10_1_1_0_0_n_n.contr.Idx) :
    (dot_S1024x256_S10x256_S1024x10_1_1_0_0_n_n.lhsIdx i q 0).val = (i 0).val := by
  unfold DotDims.lhsIdx
  rw [dif_neg (show ¬(0 : Fin S1024x256.rank) ∈ dot_S1024x256_S10x256_S1024x10_1_1_0_0_n_n.lhsBatch by decide),
    dif_pos (show (0 : Fin S1024x256.rank) ∈ dot_S1024x256_S10x256_S1024x10_1_1_0_0_n_n.lhsNonContracting by decide)]
  rfl
private theorem mm3_lhs_1 (i : S1024x10.Idx) (q : dot_S1024x256_S10x256_S1024x10_1_1_0_0_n_n.contr.Idx) :
    (dot_S1024x256_S10x256_S1024x10_1_1_0_0_n_n.lhsIdx i q 1).val = (q ⟨0, by decide⟩).val :=
  dot_S1024x256_S10x256_S1024x10_1_1_0_0_n_n.lhsIdx_val_of_single rfl i q
private theorem mm3_rhs_0 (i : S1024x10.Idx) (q : dot_S1024x256_S10x256_S1024x10_1_1_0_0_n_n.contr.Idx) :
    (dot_S1024x256_S10x256_S1024x10_1_1_0_0_n_n.rhsIdx i q 0).val = (i 1).val := by
  unfold DotDims.rhsIdx
  rw [dif_neg (show ¬(0 : Fin S10x256.rank) ∈ dot_S1024x256_S10x256_S1024x10_1_1_0_0_n_n.rhsBatch by decide),
    dif_pos (show (0 : Fin S10x256.rank) ∈ dot_S1024x256_S10x256_S1024x10_1_1_0_0_n_n.rhsNonContracting by decide)]
  rfl
private theorem mm3_rhs_1 (i : S1024x10.Idx) (q : dot_S1024x256_S10x256_S1024x10_1_1_0_0_n_n.contr.Idx) :
    (dot_S1024x256_S10x256_S1024x10_1_1_0_0_n_n.rhsIdx i q 1).val = (q ⟨0, by decide⟩).val :=
  dot_S1024x256_S10x256_S1024x10_1_1_0_0_n_n.rhsIdx_val_of_single rfl i q

/-- The output layer's product. -/
private theorem mm3 (lhs : FVec Ideal S1024x256 .bf16) (rhs : FVec Ideal S10x256 .bf16) (y : Fin 1024) (j : Fin 10) :
    matmul dot_S1024x256_S10x256_S1024x10_1_1_0_0_n_n none lhs rhs (constant S1024x10 .f32 0x00000000#32) (ix2 y j)
      = ∑ k : Fin 256, lhs (ix2 y k) * rhs (ix2 j k) := by
  simp only [matmul]
  rw [Ideal.matmul_constant_zero_apply,
    ← Equiv.sum_comp (ValueIdx.contrEquiv1 dot_S1024x256_S10x256_S1024x10_1_1_0_0_n_n 256 rfl rfl).symm]
  refine Finset.sum_congr rfl fun k _ => ?_
  have hk := ValueIdx.contrEquiv1_symm_val dot_S1024x256_S10x256_S1024x10_1_1_0_0_n_n 256 rfl rfl k
  have el : dot_S1024x256_S10x256_S1024x10_1_1_0_0_n_n.lhsIdx (ix2 y j) ((ValueIdx.contrEquiv1 dot_S1024x256_S10x256_S1024x10_1_1_0_0_n_n 256 rfl rfl).symm k) = ix2 y k :=
    funext fun a => Fin.ext (by
      match a with
      | ⟨0, _⟩ => exact mm3_lhs_0 _ _
      | ⟨1, _⟩ => exact (mm3_lhs_1 _ _).trans hk)
  have er : dot_S1024x256_S10x256_S1024x10_1_1_0_0_n_n.rhsIdx (ix2 y j) ((ValueIdx.contrEquiv1 dot_S1024x256_S10x256_S1024x10_1_1_0_0_n_n 256 rfl rfl).symm k) = ix2 j k :=
    funext fun a => Fin.ext (by
      match a with
      | ⟨0, _⟩ => exact mm3_rhs_0 _ _
      | ⟨1, _⟩ => exact (mm3_rhs_1 _ _).trans hk)
  rw [el, er]

/-! ## The pointwise steps read at an index -/

/-- The one-bit comparison result, widened to 32 bits and read as a signed integer, is the bit read as a natural
    number: both are 0 or 1. -/
private theorem bit_real (b : BitVec 1) : (((b.setWidth 32).toInt : ℝ) : EReal) = ((b.toNat : ℝ) : EReal) := by
  rcases BitVec.eq_zero_or_eq_one b with h | h <;> subst h <;> simp

/-- The mask `(v > 0)` of an array, widened, converted to a float and narrowed, read at an index: the indicator. -/
private theorem mask_read {S : Shape} (v : FVec Ideal S .f32) (i : S.Idx) :
    (truncf .bf16 (sitofp (F := Ideal) .f32 (extui 32 (cmpf .ogt v (broadcast S (Scalar.ofBits (F := Ideal) .f32 0x00000000#32)))
      natLt_1_32)) bitsLt_bf16_f32 : FVec Ideal S .bf16) i = ind (v i) := by
  show (((((Ideal.cmp .ogt (v i) (Ideal.ofBits .f32 0x00000000#32)).setWidth 32).toInt : ℝ) : EReal)) = ind (v i)
  rw [Ideal.ofBits_zero_f32, bit_real]
  rfl

/-- The bias row, broadcast over the rows and added to a product, read at an index. -/
private theorem bias_read {M N : ℕ} (m : FVec Ideal ⟨2, ![M, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (y : Fin M) (j : Fin N) :
    addf m (broadcastTo ⟨2, ![M, N]⟩ (shapeCast ⟨2, ![1, N]⟩ b hc) hb) (ix2 y j) = m (ix2 y j) + row0 b j := by
  rw [addf_apply, shapeCast_self, broadcastTo_1b_ab_apply]
  rfl

/-- The same, then rectified against the zero splat. -/
private theorem relu_bias_read {M N : ℕ} (m : FVec Ideal ⟨2, ![M, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (y : Fin M) (j : Fin N) :
    maximumf (addf m (broadcastTo ⟨2, ![M, N]⟩ (shapeCast ⟨2, ![1, N]⟩ b hc) hb))
        (broadcast ⟨2, ![M, N]⟩ (Scalar.ofBits (F := Ideal) .f32 0x00000000#32)) (ix2 y j)
      = relu (m (ix2 y j) + row0 b j) := by
  rw [maximumf_apply, bias_read, broadcast_apply]
  show max _ (Ideal.ofBits .f32 0x00000000#32) = _
  rw [Ideal.ofBits_zero_f32]
  rfl

/-! ## The payloads over generic inputs -/

/-- A hidden layer from f32 blocks (the first layer's shape). -/
private theorem pay8_read (v3 : FVec Ideal S1024x784 .f32) (v10 : FVec Ideal S256x784 .f32) (v12 : FVec Ideal S1x256 .f32)
    (y : Fin 1024) (j : Fin 256) :
    k0_pay8 (F := Ideal) v3 v10 v12 (ix2 y j) = hid (cur2 v3) (cur2 v10) (row0 v12) y j := by
  unfold k0_pay8
  refine (relu_bias_read _ v12 _ _ y j).trans ?_
  rw [mm1]
  rfl

/-- Narrowing the first hidden layer changes nothing. -/
private theorem pay11_read (v3 : FVec Ideal S1024x784 .f32) (v10 : FVec Ideal S256x784 .f32) (v12 : FVec Ideal S1x256 .f32)
    (i : S1024x256.Idx) :
    k0_pay11 (F := Ideal) v3 v10 v12 i = k0_pay8 (F := Ideal) v3 v10 v12 i := rfl

/-- Narrowing a weight block changes nothing. -/
private theorem pay12_read (v32 : FVec Ideal S256x256 .f32) (i : S256x256.Idx) : k0_pay12 (F := Ideal) v32 i = v32 i := rfl

private theorem pay9_read (v3 : FVec Ideal S1024x784 .f32) (v10 : FVec Ideal S256x784 .f32) (v12 : FVec Ideal S1x256 .f32)
    (i : S1024x256.Idx) :
    k0_pay9 (F := Ideal) v3 v10 v12 i = ind (k0_pay8 (F := Ideal) v3 v10 v12 i) := by
  unfold k0_pay9
  exact mask_read _ i

/-- A hidden layer from already narrowed operands. -/
private theorem pay13_read (v31 : FVec Ideal S1024x256 .bf16) (v33 : FVec Ideal S256x256 .bf16) (v34 : FVec Ideal S1x256 .f32)
    (y : Fin 1024) (j : Fin 256) :
    k0_pay13 (F := Ideal) v31 v33 v34 (ix2 y j) = hid (cur2 v31) (cur2 v33) (row0 v34) y j := by
  unfold k0_pay13
  refine (relu_bias_read _ v34 _ _ y j).trans ?_
  rw [mm2]
  rfl

private theorem pay14_read (v31 : FVec Ideal S1024x256 .bf16) (v33 : FVec Ideal S256x256 .bf16) (v34 : FVec Ideal S1x256 .f32)
    (i : S1024x256.Idx) :
    k0_pay14 (F := Ideal) v31 v33 v34 i = ind (k0_pay13 (F := Ideal) v31 v33 v34 i) := by
  unfold k0_pay14
  exact mask_read _ i

/-- The next hidden layer, over the previous one. -/
private theorem pay16_read (v31 : FVec Ideal S1024x256 .bf16) (v33 : FVec Ideal S256x256 .bf16) (v34 : FVec Ideal S1x256 .f32)
    (v54 : FVec Ideal S256x256 .f32) (v56 : FVec Ideal S1x256 .f32) (y : Fin 1024) (j : Fin 256) :
    k0_pay16 (F := Ideal) v31 v33 v34 v54 v56 (ix2 y j)
      = hid (cur2 (k0_pay13 (F := Ideal) v31 v33 v34)) (cur2 v54) (row0 v56) y j := by
  unfold k0_pay16
  refine (relu_bias_read _ v56 _ _ y j).trans ?_
  rw [mm2]
  rfl

private theorem pay17_read (v31 : FVec Ideal S1024x256 .bf16) (v33 : FVec Ideal S256x256 .bf16) (v34 : FVec Ideal S1x256 .f32)
    (v54 : FVec Ideal S256x256 .f32) (v56 : FVec Ideal S1x256 .f32) (i : S1024x256.Idx) :
    k0_pay17 (F := Ideal) v31 v33 v34 v54 v56 i = ind (k0_pay16 (F := Ideal) v31 v33 v34 v54 v56 i) := by
  unfold k0_pay17
  exact mask_read _ i

/-- The affine output layer (no rectifier). -/
private theorem pay2_read (v62 : FVec Ideal S1024x256 .f32) (v76 : FVec Ideal S10x256 .f32) (v78 : FVec Ideal S1x10 .f32)
    (y : Fin 1024) (j : Fin 10) :
    k0_pay2 (F := Ideal) v62 v76 v78 (ix2 y j) = lin (cur2 v62) (cur2 v76) (row0 v78) y j := by
  unfold k0_pay2
  refine (bias_read _ v78 _ _ y j).trans ?_
  rw [mm3]
  rfl

/-! ## The block's layers -/

/-- The parameters read off the eight parameter blocks (weights as loaded, biases as one-row arrays). -/
def bp (x1 : FVec Ideal S256x784 .f32) (x2 : FVec Ideal S1x256 .f32) (x3 : FVec Ideal S256x256 .f32)
    (x4 : FVec Ideal S1x256 .f32) (x5 : FVec Ideal S256x256 .f32) (x6 : FVec Ideal S1x256 .f32)
    (x7 : FVec Ideal S10x256 .f32) (x8 : FVec Ideal S1x10 .f32) : Params :=
  ⟨cur2 x1, row0 x2, cur2 x3, row0 x4, cur2 x5, row0 x6, cur2 x7, row0 x8⟩

variable (x0 : FVec Ideal S1024x784 .f32) (x1 : FVec Ideal S256x784 .f32) (x2 : FVec Ideal S1x256 .f32)
  (x3 : FVec Ideal S256x256 .f32) (x4 : FVec Ideal S1x256 .f32) (x5 : FVec Ideal S256x256 .f32)
  (x6 : FVec Ideal S1x256 .f32) (x7 : FVec Ideal S10x256 .f32) (x8 : FVec Ideal S1x10 .f32)

/-- The first hidden layer of the block (kept in f32, and again narrowed for the next product: the same numbers). -/
theorem blk_h1 (y : Fin 1024) (j : Fin 256) :
    k0_pay8 (F := Ideal) x0 x1 x2 (ix2 y j) = h1 (bp x1 x2 x3 x4 x5 x6 x7 x8) (cur2 x0) y j := by
  exact pay8_read x0 x1 x2 y j
theorem blk_h1' (y : Fin 1024) (j : Fin 256) :
    k0_pay11 (F := Ideal) x0 x1 x2 (ix2 y j) = h1 (bp x1 x2 x3 x4 x5 x6 x7 x8) (cur2 x0) y j := by
  exact (pay11_read x0 x1 x2 (ix2 y j)).trans (blk_h1 x0 x1 x2 x3 x4 x5 x6 x7 x8 y j)
/-- Its indicator. -/
theorem blk_a1 (y : Fin 1024) (j : Fin 256) :
    k0_pay9 (F := Ideal) x0 x1 x2 (ix2 y j) = a1 (bp x1 x2 x3 x4 x5 x6 x7 x8) (cur2 x0) y j := by
  exact (pay9_read x0 x1 x2 (ix2 y j)).trans (congrArg ind (blk_h1 x0 x1 x2 x3 x4 x5 x6 x7 x8 y j))
/-- The narrowed first hidden layer, as a function of row and column, is the perceptron's. -/
private theorem cur_h1 : cur2 (k0_pay11 (F := Ideal) x0 x1 x2) = h1 (bp x1 x2 x3 x4 x5 x6 x7 x8) (cur2 x0) :=
  funext fun y => funext fun k => blk_h1' x0 x1 x2 x3 x4 x5 x6 x7 x8 y k
/-- The second hidden layer and its indicator. -/
theorem blk_h2 (y : Fin 1024) (j : Fin 256) :
    k0_pay13 (F := Ideal) (k0_pay11 x0 x1 x2) (k0_pay12 x3) x4 (ix2 y j) = h2 (bp x1 x2 x3 x4 x5 x6 x7 x8) (cur2 x0) y j := by
  refine (pay13_read _ _ x4 y j).trans ?_
  rw [cur_h1 x0 x1 x2 x3 x4 x5 x6 x7 x8]
  rfl
theorem blk_a2 (y : Fin 1024) (j : Fin 256) :
    k0_pay14 (F := Ideal) (k0_pay11 x0 x1 x2) (k0_pay12 x3) x4 (ix2 y j) = a2 (bp x1 x2 x3 x4 x5 x6 x7 x8) (cur2 x0) y j := by
  exact (pay14_read _ _ x4 (ix2 y j)).trans (congrArg ind (blk_h2 x0 x1 x2 x3 x4 x5 x6 x7 x8 y j))
/-- The second hidden layer, as a function of row and column, is the perceptron's. -/
private theorem cur_h2 :
    cur2 (k0_pay13 (F := Ideal) (k0_pay11 x0 x1 x2) (k0_pay12 x3) x4) = h2 (bp x1 x2 x3 x4 x5 x6 x7 x8) (cur2 x0) :=
  funext fun y => funext fun k => blk_h2 x0 x1 x2 x3 x4 x5 x6 x7 x8 y k
/-- The third hidden layer and its indicator. -/
theorem blk_h3 (y : Fin 1024) (j : Fin 256) :
    k0_pay16 (F := Ideal) (k0_pay11 x0 x1 x2) (k0_pay12 x3) x4 x5 x6 (ix2 y j) = h3 (bp x1 x2 x3 x4 x5 x6 x7 x8) (cur2 x0) y j := by
  refine (pay16_read _ _ x4 x5 x6 y j).trans ?_
  rw [cur_h2 x0 x1 x2 x3 x4 x5 x6 x7 x8]
  rfl
theorem blk_a3 (y : Fin 1024) (j : Fin 256) :
    k0_pay17 (F := Ideal) (k0_pay11 x0 x1 x2) (k0_pay12 x3) x4 x5 x6 (ix2 y j) = a3 (bp x1 x2 x3 x4 x5 x6 x7 x8) (cur2 x0) y j := by
  exact (pay17_read _ _ x4 x5 x6 (ix2 y j)).trans (congrArg ind (blk_h3 x0 x1 x2 x3 x4 x5 x6 x7 x8 y j))
/-- The third hidden layer, as a function of row and column, is the perceptron's. -/
private theorem cur_h3 :
    cur2 (k0_pay16 (F := Ideal) (k0_pay11 x0 x1 x2) (k0_pay12 x3) x4 x5 x6) = h3 (bp x1 x2 x3 x4 x5 x6 x7 x8) (cur2 x0) :=
  funext fun y => funext fun k => blk_h3 x0 x1 x2 x3 x4 x5 x6 x7 x8 y k
/-- The block of logits the body stores, and its indicator. -/
theorem blk_logits (y : Fin 1024) (j : Fin 10) :
    k0_pay2 (F := Ideal) (k0_pay16 (k0_pay11 x0 x1 x2) (k0_pay12 x3) x4 x5 x6) x7 x8 (ix2 y j)
      = logits (bp x1 x2 x3 x4 x5 x6 x7 x8) (cur2 x0) y j := by
  refine (pay2_read _ x7 x8 y j).trans ?_
  rw [cur_h3 x0 x1 x2 x3 x4 x5 x6 x7 x8]
  rfl

end Cert.KernelIdeal.Blk

end
-- ==== Proof.BlockCounts.lean ====
/-
  One grid point's contribution to the four co-activation matrices, at the ideal instance: each update the body
  stores is the matrix it loaded plus the block's co-activation counts `∑_y a[y, i] · a'[y, j]` over the 1024 rows
  of the block (a matrix product contracting the row axis of both operands, into a zero accumulator); the reset
  stores zeros.
-/
import proofs.«165139_j36704790511730_1_alg».proof.Proof.BlockLayers

noncomputable section

namespace Cert.KernelIdeal.Blk

open Cert.KernelIdeal Cert.KernelIdeal.Gen Cert.Mlp Idealize.ShloMosaic Idealize.ShloMosaic.ValueIdx

/-! ## A product contracting the row axis of both operands

For dimension numbers `[0], [0]` the output element `(i, j)` pairs the operands' elements `(y, i)` and `(y, j)`:
on each operand axis 0 is the contracted coordinate and axis 1 the output's own coordinate. Into a zero accumulator
the product is therefore the plain sum `∑_y lhs[y, i] · rhs[y, j]` over the 1024 rows. One group of lemmas per
triple of shapes (784 × 256, 256 × 256 and 256 × 10 outputs). -/

/-- Outputs 784 × 256 (input × first hidden layer). -/
private theorem d0_lhs_0 (o : S784x256.Idx) (q : dot_S1024x784_S1024x256_S784x256_0_0_1_1_n_n.contr.Idx) :
    (dot_S1024x784_S1024x256_S784x256_0_0_1_1_n_n.lhsIdx o q 0).val = (q ⟨0, by decide⟩).val :=
  dot_S1024x784_S1024x256_S784x256_0_0_1_1_n_n.lhsIdx_val_of_single rfl o q
private theorem d0_lhs_1 (o : S784x256.Idx) (q : dot_S1024x784_S1024x256_S784x256_0_0_1_1_n_n.contr.Idx) :
    (dot_S1024x784_S1024x256_S784x256_0_0_1_1_n_n.lhsIdx o q 1).val = (o 0).val := by
  unfold DotDims.lhsIdx
  rw [dif_neg (show ¬(1 : Fin S1024x784.rank) ∈ dot_S1024x784_S1024x256_S784x256_0_0_1_1_n_n.lhsBatch by decide), dif_pos (show (1 : Fin S1024x784.rank) ∈ dot_S1024x784_S1024x256_S784x256_0_0_1_1_n_n.lhsNonContracting by decide)]
  rfl
private theorem d0_rhs_0 (o : S784x256.Idx) (q : dot_S1024x784_S1024x256_S784x256_0_0_1_1_n_n.contr.Idx) :
    (dot_S1024x784_S1024x256_S784x256_0_0_1_1_n_n.rhsIdx o q 0).val = (q ⟨0, by decide⟩).val :=
  dot_S1024x784_S1024x256_S784x256_0_0_1_1_n_n.rhsIdx_val_of_single rfl o q
private theorem d0_rhs_1 (o : S784x256.Idx) (q : dot_S1024x784_S1024x256_S784x256_0_0_1_1_n_n.contr.Idx) :
    (dot_S1024x784_S1024x256_S784x256_0_0_1_1_n_n.rhsIdx o q 1).val = (o 1).val := by
  unfold DotDims.rhsIdx
  rw [dif_neg (show ¬(1 : Fin S1024x256.rank) ∈ dot_S1024x784_S1024x256_S784x256_0_0_1_1_n_n.rhsBatch by decide), dif_pos (show (1 : Fin S1024x256.rank) ∈ dot_S1024x784_S1024x256_S784x256_0_0_1_1_n_n.rhsNonContracting by decide)]
  rfl
private theorem d0_apply (lhs : FVec Ideal S1024x784 .bf16) (rhs : FVec Ideal S1024x256 .bf16) (i : Fin 784) (j : Fin 256) :
    matmul dot_S1024x784_S1024x256_S784x256_0_0_1_1_n_n none lhs rhs (constant S784x256 .f32 0x00000000#32) (ix2 i j)
      = ∑ y : Fin 1024, lhs (ix2 y i) * rhs (ix2 y j) := by
  refine (Ideal.matmul_constant_zero_apply dot_S1024x784_S1024x256_S784x256_0_0_1_1_n_n none lhs rhs (ix2 i j)).trans ?_
  rw [← Equiv.sum_comp (contrEquiv1 dot_S1024x784_S1024x256_S784x256_0_0_1_1_n_n 1024 rfl rfl).symm]
  refine Finset.sum_congr rfl fun k _ => ?_
  have hk := contrEquiv1_symm_val dot_S1024x784_S1024x256_S784x256_0_0_1_1_n_n 1024 rfl rfl k
  have el : dot_S1024x784_S1024x256_S784x256_0_0_1_1_n_n.lhsIdx (ix2 i j) ((contrEquiv1 dot_S1024x784_S1024x256_S784x256_0_0_1_1_n_n 1024 rfl rfl).symm k) = ix2 k i := funext fun a => Fin.ext (by
    match a with
    | ⟨0, _⟩ => exact (d0_lhs_0 _ _).trans hk
    | ⟨1, _⟩ => exact d0_lhs_1 _ _)
  have er : dot_S1024x784_S1024x256_S784x256_0_0_1_1_n_n.rhsIdx (ix2 i j) ((contrEquiv1 dot_S1024x784_S1024x256_S784x256_0_0_1_1_n_n 1024 rfl rfl).symm k) = ix2 k j := funext fun a => Fin.ext (by
    match a with
    | ⟨0, _⟩ => exact (d0_rhs_0 _ _).trans hk
    | ⟨1, _⟩ => exact d0_rhs_1 _ _)
  rw [el, er]

/-- Outputs 256 × 256 (two hidden layers). -/
private theorem d1_lhs_0 (o : S256x256.Idx) (q : dot_S1024x256_S1024x256_S256x256_0_0_1_1_n_n.contr.Idx) :
    (dot_S1024x256_S1024x256_S256x256_0_0_1_1_n_n.lhsIdx o q 0).val = (q ⟨0, by decide⟩).val :=
  dot_S1024x256_S1024x256_S256x256_0_0_1_1_n_n.lhsIdx_val_of_single rfl o q
private theorem d1_lhs_1 (o : S256x256.Idx) (q : dot_S1024x256_S1024x256_S256x256_0_0_1_1_n_n.contr.Idx) :
    (dot_S1024x256_S1024x256_S256x256_0_0_1_1_n_n.lhsIdx o q 1).val = (o 0).val := by
  unfold DotDims.lhsIdx
  rw [dif_neg (show ¬(1 : Fin S1024x256.rank) ∈ dot_S1024x256_S1024x256_S256x256_0_0_1_1_n_n.lhsBatch by decide), dif_pos (show (1 : Fin S1024x256.rank) ∈ dot_S1024x256_S1024x256_S256x256_0_0_1_1_n_n.lhsNonContracting by decide)]
  rfl
private theorem d1_rhs_0 (o : S256x256.Idx) (q : dot_S1024x256_S1024x256_S256x256_0_0_1_1_n_n.contr.Idx) :
    (dot_S1024x256_S1024x256_S256x256_0_0_1_1_n_n.rhsIdx o q 0).val = (q ⟨0, by decide⟩).val :=
  dot_S1024x256_S1024x256_S256x256_0_0_1_1_n_n.rhsIdx_val_of_single rfl o q
private theorem d1_rhs_1 (o : S256x256.Idx) (q : dot_S1024x256_S1024x256_S256x256_0_0_1_1_n_n.contr.Idx) :
    (dot_S1024x256_S1024x256_S256x256_0_0_1_1_n_n.rhsIdx o q 1).val = (o 1).val := by
  unfold DotDims.rhsIdx
  rw [dif_neg (show ¬(1 : Fin S1024x256.rank) ∈ dot_S1024x256_S1024x256_S256x256_0_0_1_1_n_n.rhsBatch by decide), dif_pos (show (1 : Fin S1024x256.rank) ∈ dot_S1024x256_S1024x256_S256x256_0_0_1_1_n_n.rhsNonContracting by decide)]
  rfl
private theorem d1_apply (lhs : FVec Ideal S1024x256 .bf16) (rhs : FVec Ideal S1024x256 .bf16) (i : Fin 256) (j : Fin 256) :
    matmul dot_S1024x256_S1024x256_S256x256_0_0_1_1_n_n none lhs rhs (constant S256x256 .f32 0x00000000#32) (ix2 i j)
      = ∑ y : Fin 1024, lhs (ix2 y i) * rhs (ix2 y j) := by
  refine (Ideal.matmul_constant_zero_apply dot_S1024x256_S1024x256_S256x256_0_0_1_1_n_n none lhs rhs (ix2 i j)).trans ?_
  rw [← Equiv.sum_comp (contrEquiv1 dot_S1024x256_S1024x256_S256x256_0_0_1_1_n_n 1024 rfl rfl).symm]
  refine Finset.sum_congr rfl fun k _ => ?_
  have hk := contrEquiv1_symm_val dot_S1024x256_S1024x256_S256x256_0_0_1_1_n_n 1024 rfl rfl k
  have el : dot_S1024x256_S1024x256_S256x256_0_0_1_1_n_n.lhsIdx (ix2 i j) ((contrEquiv1 dot_S1024x256_S1024x256_S256x256_0_0_1_1_n_n 1024 rfl rfl).symm k) = ix2 k i := funext fun a => Fin.ext (by
    match a with
    | ⟨0, _⟩ => exact (d1_lhs_0 _ _).trans hk
    | ⟨1, _⟩ => exact d1_lhs_1 _ _)
  have er : dot_S1024x256_S1024x256_S256x256_0_0_1_1_n_n.rhsIdx (ix2 i j) ((contrEquiv1 dot_S1024x256_S1024x256_S256x256_0_0_1_1_n_n 1024 rfl rfl).symm k) = ix2 k j := funext fun a => Fin.ext (by
    match a with
    | ⟨0, _⟩ => exact (d1_rhs_0 _ _).trans hk
    | ⟨1, _⟩ => exact d1_rhs_1 _ _)
  rw [el, er]

/-- Outputs 256 × 10 (third hidden layer × logits). -/
private theorem d3_lhs_0 (o : S256x10.Idx) (q : dot_S1024x256_S1024x10_S256x10_0_0_1_1_n_n.contr.Idx) :
    (dot_S1024x256_S1024x10_S256x10_0_0_1_1_n_n.lhsIdx o q 0).val = (q ⟨0, by decide⟩).val :=
  dot_S1024x256_S1024x10_S256x10_0_0_1_1_n_n.lhsIdx_val_of_single rfl o q
private theorem d3_lhs_1 (o : S256x10.Idx) (q : dot_S1024x256_S1024x10_S256x10_0_0_1_1_n_n.contr.Idx) :
    (dot_S1024x256_S1024x10_S256x10_0_0_1_1_n_n.lhsIdx o q 1).val = (o 0).val := by
  unfold DotDims.lhsIdx
  rw [dif_neg (show ¬(1 : Fin S1024x256.rank) ∈ dot_S1024x256_S1024x10_S256x10_0_0_1_1_n_n.lhsBatch by decide), dif_pos (show (1 : Fin S1024x256.rank) ∈ dot_S1024x256_S1024x10_S256x10_0_0_1_1_n_n.lhsNonContracting by decide)]
  rfl
private theorem d3_rhs_0 (o : S256x10.Idx) (q : dot_S1024x256_S1024x10_S256x10_0_0_1_1_n_n.contr.Idx) :
    (dot_S1024x256_S1024x10_S256x10_0_0_1_1_n_n.rhsIdx o q 0).val = (q ⟨0, by decide⟩).val :=
  dot_S1024x256_S1024x10_S256x10_0_0_1_1_n_n.rhsIdx_val_of_single rfl o q
private theorem d3_rhs_1 (o : S256x10.Idx) (q : dot_S1024x256_S1024x10_S256x10_0_0_1_1_n_n.contr.Idx) :
    (dot_S1024x256_S1024x10_S256x10_0_0_1_1_n_n.rhsIdx o q 1).val = (o 1).val := by
  unfold DotDims.rhsIdx
  rw [dif_neg (show ¬(1 : Fin S1024x10.rank) ∈ dot_S1024x256_S1024x10_S256x10_0_0_1_1_n_n.rhsBatch by decide), dif_pos (show (1 : Fin S1024x10.rank) ∈ dot_S1024x256_S1024x10_S256x10_0_0_1_1_n_n.rhsNonContracting by decide)]
  rfl
private theorem d3_apply (lhs : FVec Ideal S1024x256 .bf16) (rhs : FVec Ideal S1024x10 .bf16) (i : Fin 256) (j : Fin 10) :
    matmul dot_S1024x256_S1024x10_S256x10_0_0_1_1_n_n none lhs rhs (constant S256x10 .f32 0x00000000#32) (ix2 i j)
      = ∑ y : Fin 1024, lhs (ix2 y i) * rhs (ix2 y j) := by
  refine (Ideal.matmul_constant_zero_apply dot_S1024x256_S1024x10_S256x10_0_0_1_1_n_n none lhs rhs (ix2 i j)).trans ?_
  rw [← Equiv.sum_comp (contrEquiv1 dot_S1024x256_S1024x10_S256x10_0_0_1_1_n_n 1024 rfl rfl).symm]
  refine Finset.sum_congr rfl fun k _ => ?_
  have hk := contrEquiv1_symm_val dot_S1024x256_S1024x10_S256x10_0_0_1_1_n_n 1024 rfl rfl k
  have el : dot_S1024x256_S1024x10_S256x10_0_0_1_1_n_n.lhsIdx (ix2 i j) ((contrEquiv1 dot_S1024x256_S1024x10_S256x10_0_0_1_1_n_n 1024 rfl rfl).symm k) = ix2 k i := funext fun a => Fin.ext (by
    match a with
    | ⟨0, _⟩ => exact (d3_lhs_0 _ _).trans hk
    | ⟨1, _⟩ => exact d3_lhs_1 _ _)
  have er : dot_S1024x256_S1024x10_S256x10_0_0_1_1_n_n.rhsIdx (ix2 i j) ((contrEquiv1 dot_S1024x256_S1024x10_S256x10_0_0_1_1_n_n 1024 rfl rfl).symm k) = ix2 k j := funext fun a => Fin.ext (by
    match a with
    | ⟨0, _⟩ => exact (d3_rhs_0 _ _).trans hk
    | ⟨1, _⟩ => exact d3_rhs_1 _ _)
  rw [el, er]

/-! ## The 0/1 mask as a number

A one-bit comparison result widened to 32 bits and read as a signed integer is the bit read unsigned (0 or 1: the
sign bit of the widened word is clear), and a change of float format does not move it; so the mask `(v > 0)` the
body builds is `Mlp.ind v`. -/

private theorem ind_word (b : BitVec 1) : (((b.setWidth 32).toInt : ℝ) : EReal) = ((b.toNat : ℝ) : EReal) := by
  rcases BitVec.eq_zero_or_eq_one b with h | h <;> subst h <;> simp

private theorem ind_read {s : Shape} (v : FVec Ideal s .f32) (idx : s.Idx) :
    (truncf .bf16 (sitofp .f32 (extui 32 (cmpf .ogt v (broadcast s (Scalar.ofBits (F := Ideal) .f32 0x00000000#32))) natLt_1_32)) bitsLt_bf16_f32
      : FVec Ideal s .bf16) idx = ind (v idx) := by
  show ((((Ideal.cmp .ogt (v idx) (Ideal.ofBits .f32 0x00000000#32)).setWidth 32).toInt : ℝ) : EReal) = _
  rw [Ideal.ofBits_zero_f32, ind_word]
  rfl

/-! ## Each stored value read at an index, over generic operands

A leading unit axis added or dropped does not move an element; an update is the loaded matrix plus the product. -/

private theorem pay10_read (v3 : FVec Ideal S1024x784 .f32) (v10 : FVec Ideal S256x784 .f32) (v12 : FVec Ideal S1x256 .f32)
    (v24 : FVec Ideal S1x784x256 .f32) (i : Fin 784) (j : Fin 256) :
    k0_pay10 (F := Ideal) v3 v10 v12 v24 (ix3 (0 : Fin 1) i j)
      = v24 (ix3 (0 : Fin 1) i j) + ∑ y : Fin 1024, ind (v3 (ix2 y i)) * k0_pay9 (F := Ideal) v3 v10 v12 (ix2 y j) := by
  unfold k0_pay10
  refine (shapeCast_ab_1ab_apply _ _ _ _ _).trans ?_
  refine congrArg₂ (· + ·) (shapeCast_1ab_ab_apply _ _ _ _) ?_
  refine (d0_apply _ _ i j).trans ?_
  refine Finset.sum_congr rfl fun y _ => ?_
  exact congrArg (· * _) (ind_read v3 (ix2 y i))

private theorem pay15_read (v23 v31 : FVec Ideal S1024x256 .bf16) (v33 : FVec Ideal S256x256 .bf16) (v34 : FVec Ideal S1x256 .f32)
    (v46 : FVec Ideal S1x256x256 .f32) (i : Fin 256) (j : Fin 256) :
    k0_pay15 (F := Ideal) v23 v31 v33 v34 v46 (ix3 (0 : Fin 1) i j)
      = v46 (ix3 (0 : Fin 1) i j) + ∑ y : Fin 1024, v23 (ix2 y i) * k0_pay14 (F := Ideal) v31 v33 v34 (ix2 y j) := by
  unfold k0_pay15
  refine (shapeCast_ab_1ab_apply _ _ _ _ _).trans ?_
  exact congrArg₂ (· + ·) (shapeCast_1ab_ab_apply _ _ _ _) (d1_apply _ _ i j)

private theorem pay19_read (v31 : FVec Ideal S1024x256 .bf16) (v33 : FVec Ideal S256x256 .bf16) (v34 : FVec Ideal S1x256 .f32)
    (v54 : FVec Ideal S256x256 .f32) (v56 : FVec Ideal S1x256 .f32) (i : Fin 256) (j : Fin 256) :
    k0_pay19 (F := Ideal) v31 v33 v34 v54 v56 (ix2 i j)
      = ∑ y : Fin 1024, k0_pay14 (F := Ideal) v31 v33 v34 (ix2 y i) * k0_pay17 (F := Ideal) v31 v33 v34 v54 v56 (ix2 y j) := by
  unfold k0_pay19
  exact d1_apply _ _ i j

private theorem pay18_read (v68 : FVec Ideal S1x256x256 .f32) (i : Fin 256) (j : Fin 256) :
    k0_pay18 (F := Ideal) v68 (ix2 i j) = v68 (ix3 (0 : Fin 1) i j) := by
  unfold k0_pay18
  exact shapeCast_1ab_ab_apply _ _ _ _

private theorem pay1_read (v69 v70 : FVec Ideal S256x256 .f32) (i : Fin 256) (j : Fin 256) :
    k0_pay1 (F := Ideal) v69 v70 (ix3 (0 : Fin 1) i j) = v69 (ix2 i j) + v70 (ix2 i j) := by
  unfold k0_pay1
  exact shapeCast_ab_1ab_apply _ _ _ _ _

private theorem pay3_read (v62 : FVec Ideal S1024x256 .f32) (v67 : FVec Ideal S1024x256 .bf16) (v76 : FVec Ideal S10x256 .f32)
    (v78 : FVec Ideal S1x10 .f32) (v88 : FVec Ideal S1x256x10 .f32) (i : Fin 256) (j : Fin 10) :
    k0_pay3 (F := Ideal) v62 v67 v76 v78 v88 (ix3 (0 : Fin 1) i j)
      = v88 (ix3 (0 : Fin 1) i j) + ∑ y : Fin 1024, v67 (ix2 y i) * ind (k0_pay2 (F := Ideal) v62 v76 v78 (ix2 y j)) := by
  unfold k0_pay3
  refine (shapeCast_ab_1ab_apply _ _ _ _ _).trans ?_
  refine congrArg₂ (· + ·) (shapeCast_1ab_ab_apply _ _ _ _) ?_
  refine (d3_apply _ _ i j).trans ?_
  refine Finset.sum_congr rfl fun y _ => ?_
  exact congrArg (_ * ·) (ind_read (k0_pay2 (F := Ideal) v62 v76 v78) (ix2 y j))

/-- A zero splat with a unit axis added reads `0` everywhere. -/
private theorem zero_read {a b : ℕ} (h : (⟨2, ![a, b]⟩ : Shape).ShapeCasts ⟨3, ![1, a, b]⟩) (i : Fin a) (j : Fin b) :
    shapeCast ⟨3, ![1, a, b]⟩ (broadcast ⟨2, ![a, b]⟩ (Scalar.ofBits (F := Ideal) .f32 0x00000000#32)) h (ix3 (0 : Fin 1) i j) = 0 :=
  (shapeCast_ab_1ab_apply _ _ _ _ _).trans Ideal.ofBits_zero_f32

/-! ## The block's stores -/

variable (x0 : FVec Ideal S1024x784 .f32) (x1 : FVec Ideal S256x784 .f32) (x2 : FVec Ideal S1x256 .f32)
  (x3 : FVec Ideal S256x256 .f32) (x4 : FVec Ideal S1x256 .f32) (x5 : FVec Ideal S256x256 .f32)
  (x6 : FVec Ideal S1x256 .f32) (x7 : FVec Ideal S10x256 .f32) (x8 : FVec Ideal S1x10 .f32)

/-- The reset stores zeros. -/
theorem blk_zero0 (i : Fin 784) (j : Fin 256) : (k0_pay4 (F := Ideal)) (ix3 (0 : Fin 1) i j) = 0 := by
  unfold k0_pay4
  exact zero_read _ i j
theorem blk_zero1 (i : Fin 256) (j : Fin 256) : (k0_pay5 (F := Ideal)) (ix3 (0 : Fin 1) i j) = 0 := by
  unfold k0_pay5
  exact zero_read _ i j
theorem blk_zero2 (i : Fin 256) (j : Fin 256) : (k0_pay6 (F := Ideal)) (ix3 (0 : Fin 1) i j) = 0 := by
  unfold k0_pay6
  exact zero_read _ i j
theorem blk_zero3 (i : Fin 256) (j : Fin 10) : (k0_pay7 (F := Ideal)) (ix3 (0 : Fin 1) i j) = 0 := by
  unfold k0_pay7
  exact zero_read _ i j

/-- Input × first hidden layer. -/
theorem blk_c0 (acc : FVec Ideal S1x784x256 .f32) (i : Fin 784) (j : Fin 256) :
    k0_pay10 (F := Ideal) x0 x1 x2 acc (ix3 (0 : Fin 1) i j)
      = acc (ix3 (0 : Fin 1) i j) + c0 (bp x1 x2 x3 x4 x5 x6 x7 x8) (cur2 x0) i j := by
  refine (pay10_read x0 x1 x2 acc i j).trans (congrArg (acc (ix3 (0 : Fin 1) i j) + ·) ?_)
  show _ = ∑ y : Fin 1024, a0 (cur2 x0) y i * a1 (bp x1 x2 x3 x4 x5 x6 x7 x8) (cur2 x0) y j
  refine Finset.sum_congr rfl fun y _ => ?_
  rw [blk_a1 x0 x1 x2 x3 x4 x5 x6 x7 x8 y j]
  rfl
/-- First × second hidden layer. -/
theorem blk_c1 (acc : FVec Ideal S1x256x256 .f32) (i : Fin 256) (j : Fin 256) :
    k0_pay15 (F := Ideal) (k0_pay9 x0 x1 x2) (k0_pay11 x0 x1 x2) (k0_pay12 x3) x4 acc (ix3 (0 : Fin 1) i j)
      = acc (ix3 (0 : Fin 1) i j) + c1 (bp x1 x2 x3 x4 x5 x6 x7 x8) (cur2 x0) i j := by
  refine (pay15_read _ _ _ _ acc i j).trans (congrArg (acc (ix3 (0 : Fin 1) i j) + ·) ?_)
  show _ = ∑ y : Fin 1024, a1 (bp x1 x2 x3 x4 x5 x6 x7 x8) (cur2 x0) y i * a2 (bp x1 x2 x3 x4 x5 x6 x7 x8) (cur2 x0) y j
  refine Finset.sum_congr rfl fun y _ => ?_
  rw [blk_a1 x0 x1 x2 x3 x4 x5 x6 x7 x8 y i, blk_a2 x0 x1 x2 x3 x4 x5 x6 x7 x8 y j]
/-- Second × third hidden layer. -/
theorem blk_c2 (acc : FVec Ideal S1x256x256 .f32) (i : Fin 256) (j : Fin 256) :
    k0_pay1 (F := Ideal) (k0_pay18 acc) (k0_pay19 (k0_pay11 x0 x1 x2) (k0_pay12 x3) x4 x5 x6) (ix3 (0 : Fin 1) i j)
      = acc (ix3 (0 : Fin 1) i j) + c2 (bp x1 x2 x3 x4 x5 x6 x7 x8) (cur2 x0) i j := by
  refine (pay1_read _ _ i j).trans (congrArg₂ (· + ·) (pay18_read acc i j) ?_)
  refine (pay19_read _ _ _ _ _ i j).trans ?_
  show _ = ∑ y : Fin 1024, a2 (bp x1 x2 x3 x4 x5 x6 x7 x8) (cur2 x0) y i * a3 (bp x1 x2 x3 x4 x5 x6 x7 x8) (cur2 x0) y j
  refine Finset.sum_congr rfl fun y _ => ?_
  rw [blk_a2 x0 x1 x2 x3 x4 x5 x6 x7 x8 y i, blk_a3 x0 x1 x2 x3 x4 x5 x6 x7 x8 y j]
/-- Third hidden layer × logits. -/
theorem blk_c3 (acc : FVec Ideal S1x256x10 .f32) (i : Fin 256) (j : Fin 10) :
    k0_pay3 (F := Ideal) (k0_pay16 (k0_pay11 x0 x1 x2) (k0_pay12 x3) x4 x5 x6)
        (k0_pay17 (k0_pay11 x0 x1 x2) (k0_pay12 x3) x4 x5 x6) x7 x8 acc (ix3 (0 : Fin 1) i j)
      = acc (ix3 (0 : Fin 1) i j) + c3 (bp x1 x2 x3 x4 x5 x6 x7 x8) (cur2 x0) i j := by
  refine (pay3_read _ _ x7 x8 acc i j).trans (congrArg (acc (ix3 (0 : Fin 1) i j) + ·) ?_)
  show _ = ∑ y : Fin 1024, a3 (bp x1 x2 x3 x4 x5 x6 x7 x8) (cur2 x0) y i * a4 (bp x1 x2 x3 x4 x5 x6 x7 x8) (cur2 x0) y j
  refine Finset.sum_congr rfl fun y _ => ?_
  rw [blk_a3 x0 x1 x2 x3 x4 x5 x6 x7 x8 y i, blk_logits x0 x1 x2 x3 x4 x5 x6 x7 x8 y j]
  rfl

end Cert.KernelIdeal.Blk

end
-- ==== Proof.Blocks.lean ====
/-
  What the kernel's input windows hold at a grid point, read off the arrays the region finds. Grid point `t` (of 32,
  row-major over the 2 × 16 grid) stages block `t` of the batch — rows `1024 t … 1024 t + 1023` —, and every
  parameter window stages its whole array at every point; the biases reach the kernel reshaped to one-row arrays
  by the host, and no host operation before the region touches an argument. So at every point the blocks the body
  loads are block `t` of `x` and the network's parameters.
-/
import proofs.«165139_j36704790511730_1_alg».proof.Proof.Gen.KernelIdeal.Frame
import proofs.«165139_j36704790511730_1_alg».proof.Proof.Result
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Cert.Mlp
open Idealize.ShloMosaic Idealize.ShloMosaic.TcCoe Idealize.ShloMosaic.ValueIdx Idealize.SL.Sem

variable (m : (ℓ : Loc nD τ sig) → Buf (Elt Ideal) ℓ)

/-- The nine argument arrays as core `c`'s launch memory holds them. -/
def kargs (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8)⟩

/-- A grid point as a block number. -/
def tt (t : Fin cfg0.N) : Fin 32 := ⟨t.val, lt_of_lt_of_eq t.isLt N_0⟩

/-- The nine input blocks at point `t`, at their literal types. -/
abbrev xblk (c : Dev nD) (t : Fin cfg0.N) : FVec Ideal S1024x784 .f32 := iblk m c 0 t
abbrev p1blk (c : Dev nD) (t : Fin cfg0.N) : FVec Ideal S256x784 .f32 := iblk m c 1 t
abbrev p2blk (c : Dev nD) (t : Fin cfg0.N) : FVec Ideal S1x256 .f32 := iblk m c 2 t
abbrev p3blk (c : Dev nD) (t : Fin cfg0.N) : FVec Ideal S256x256 .f32 := iblk m c 3 t
abbrev p4blk (c : Dev nD) (t : Fin cfg0.N) : FVec Ideal S1x256 .f32 := iblk m c 4 t
abbrev p5blk (c : Dev nD) (t : Fin cfg0.N) : FVec Ideal S256x256 .f32 := iblk m c 5 t
abbrev p6blk (c : Dev nD) (t : Fin cfg0.N) : FVec Ideal S1x256 .f32 := iblk m c 6 t
abbrev p7blk (c : Dev nD) (t : Fin cfg0.N) : FVec Ideal S10x256 .f32 := iblk m c 7 t
abbrev p8blk (c : Dev nD) (t : Fin cfg0.N) : FVec Ideal S1x10 .f32 := iblk m c 8 t

/-! ## Where each window sits

The batch window's index map sends grid point `(i, j)` of the 2 × 16 grid to block `16 i + j` along the rows and
block 0 along the columns: over the row-major numbering of the grid that is block `t`. Every parameter window's index
map is constantly `(0, 0)`. Both are finite statements over the 32 points. -/

private theorem index_w0 : ∀ t : Fin cfg0.N, win0_0.index t 0 = t.val ∧ win0_0.index t 1 = 0 :=
  (by decide +kernel : ∀ t : Fin grid0.N, win0_0.index t 0 = t.val ∧ win0_0.index t 1 = 0)
private theorem index_w1 : ∀ t : Fin cfg0.N, win0_1.index t 0 = 0 ∧ win0_1.index t 1 = 0 :=
  (by decide +kernel : ∀ t : Fin grid0.N, win0_1.index t 0 = 0 ∧ win0_1.index t 1 = 0)
private theorem index_w2 : ∀ t : Fin cfg0.N, win0_2.index t 0 = 0 ∧ win0_2.index t 1 = 0 :=
  (by decide +kernel : ∀ t : Fin grid0.N, win0_2.index t 0 = 0 ∧ win0_2.index t 1 = 0)
private theorem index_w3 : ∀ t : Fin cfg0.N, win0_3.index t 0 = 0 ∧ win0_3.index t 1 = 0 :=
  (by decide +kernel : ∀ t : Fin grid0.N, win0_3.index t 0 = 0 ∧ win0_3.index t 1 = 0)
private theorem index_w4 : ∀ t : Fin cfg0.N, win0_4.index t 0 = 0 ∧ win0_4.index t 1 = 0 :=
  (by decide +kernel : ∀ t : Fin grid0.N, win0_4.index t 0 = 0 ∧ win0_4.index t 1 = 0)
private theorem index_w5 : ∀ t : Fin cfg0.N, win0_5.index t 0 = 0 ∧ win0_5.index t 1 = 0 :=
  (by decide +kernel : ∀ t : Fin grid0.N, win0_5.index t 0 = 0 ∧ win0_5.index t 1 = 0)
private theorem index_w6 : ∀ t : Fin cfg0.N, win0_6.index t 0 = 0 ∧ win0_6.index t 1 = 0 :=
  (by decide +kernel : ∀ t : Fin grid0.N, win0_6.index t 0 = 0 ∧ win0_6.index t 1 = 0)
private theorem index_w7 : ∀ t : Fin cfg0.N, win0_7.index t 0 = 0 ∧ win0_7.index t 1 = 0 :=
  (by decide +kernel : ∀ t : Fin grid0.N, win0_7.index t 0 = 0 ∧ win0_7.index t 1 = 0)
private theorem index_w8 : ∀ t : Fin cfg0.N, win0_8.index t 0 = 0 ∧ win0_8.index t 1 = 0 :=
  (by decide +kernel : ∀ t : Fin grid0.N, win0_8.index t 0 = 0 ∧ win0_8.index t 1 = 0)

/-! ## The biases as the region finds them

Each bias vector `b` of length `n` reaches the region as the one-row array `[1, n]` the host reshapes it to, and no
later host operation before the region writes that array: what the region finds is the reshape of the launched
vector. A reshape keeps row-major positions, so row 0 of it at column `k` is `b k`. -/

private theorem found_main_v0 (c : Dev nD) :
    (V m c main_v0 : S1x256.Idx → EReal) = shapeCast S1x256 (m ((c : Thread nD τ).loc main_arg2)) shapeCasts_S256_S1x256 := by
  dsimp only [Gen.V, Gen.V0]
  simp only [Gen.hostOps0, List.flatten_cons, List.flatten_nil, List.append_nil]
  after_results
  rfl
private theorem found_main_v1 (c : Dev nD) :
    (V m c main_v1 : S1x256.Idx → EReal) = shapeCast S1x256 (m ((c : Thread nD τ).loc main_arg4)) shapeCasts_S256_S1x256 := by
  dsimp only [Gen.V, Gen.V0]
  simp only [Gen.hostOps0, List.flatten_cons, List.flatten_nil, List.append_nil]
  after_results
  rfl
private theorem found_main_v2 (c : Dev nD) :
    (V m c main_v2 : S1x256.Idx → EReal) = shapeCast S1x256 (m ((c : Thread nD τ).loc main_arg6)) shapeCasts_S256_S1x256 := by
  dsimp only [Gen.V, Gen.V0]
  simp only [Gen.hostOps0, List.flatten_cons, List.flatten_nil, List.append_nil]
  after_results
  rfl
private theorem found_main_v3 (c : Dev nD) :
    (V m c main_v3 : S1x10.Idx → EReal) = shapeCast S1x10 (m ((c : Thread nD τ).loc main_arg8)) shapeCasts_S10_S1x10 := by
  dsimp only [Gen.V, Gen.V0]
  simp only [Gen.hostOps0, List.flatten_cons, List.flatten_nil, List.append_nil]
  after_results
  rfl

/-! ## The blocks

A block read at a coordinate `(y, k)` reads the window's array at (block index × block size + `y`, likewise for
`k`). For the batch that is row `1024 t + y`, column `k`; for a parameter, whose one block is the whole array,
it is `(y, k)` itself. -/

/-- The batch block at point `t` is block `t` of `x`. -/
theorem xblk_eq (c : Dev nD) (t : Fin cfg0.N) : cur2 (xblk m c t) = (kargs m c).Xb (tt t) := by
  have hi := index_w0 t
  funext y k
  show xblk m c t (ix2 y k) = m ((c : Thread nD τ).loc main_arg0) (ix2 (blockRow (tt t) y) k)
  unfold xblk iblk
  rw [View.read_apply]
  show V m c main_arg0 _ = _
  rw [V_main_arg0]
  congr 1
  funext a
  apply Fin.ext
  match a with
  | ⟨0, _⟩ => show win0_0.index t 0 * 1024 + 1 * y.val = 1024 * t.val + y.val; rw [hi.1]; omega
  | ⟨1, _⟩ => show win0_0.index t 1 * 784 + 1 * k.val = k.val; rw [hi.2]; omega
/-- The parameter blocks are the parameters. -/
theorem p1blk_eq (c : Dev nD) (t : Fin cfg0.N) : cur2 (p1blk m c t) = (kargs m c).p.W1 := by
  have hi := index_w1 t
  funext y k
  show p1blk m c t (ix2 y k) = m ((c : Thread nD τ).loc main_arg1) (ix2 y k)
  unfold p1blk iblk
  rw [View.read_apply]
  show V m c main_arg1 _ = _
  rw [V_main_arg1]
  congr 1
  funext a
  apply Fin.ext
  match a with
  | ⟨0, _⟩ => show win0_1.index t 0 * 256 + 1 * y.val = y.val; rw [hi.1]; omega
  | ⟨1, _⟩ => show win0_1.index t 1 * 784 + 1 * k.val = k.val; rw [hi.2]; omega
theorem p2blk_eq (c : Dev nD) (t : Fin cfg0.N) : row0 (p2blk m c t) = (kargs m c).p.b1 := by
  have hi := index_w2 t
  funext k
  show p2blk m c t (ix2 0 k) = m ((c : Thread nD τ).loc main_arg2) (ix1 k)
  unfold p2blk iblk
  rw [View.read_apply]
  show (V m c main_v0 : S1x256.Idx → EReal) _ = _
  rw [found_main_v0]
  refine Eq.trans ?_ (shapeCast_a_1a_apply (m ((c : Thread nD τ).loc main_arg2)) shapeCasts_S256_S1x256 0 k)
  congr 1
  funext a
  apply Fin.ext
  match a with
  | ⟨0, _⟩ => show win0_2.index t 0 * 1 + 1 * 0 = 0; rw [hi.1]
  | ⟨1, _⟩ => show win0_2.index t 1 * 256 + 1 * k.val = k.val; rw [hi.2]; omega
theorem p3blk_eq (c : Dev nD) (t : Fin cfg0.N) : cur2 (p3blk m c t) = (kargs m c).p.W2 := by
  have hi := index_w3 t
  funext y k
  show p3blk m c t (ix2 y k) = m ((c : Thread nD τ).loc main_arg3) (ix2 y k)
  unfold p3blk iblk
  rw [View.read_apply]
  show V m c main_arg3 _ = _
  rw [V_main_arg3]
  congr 1
  funext a
  apply Fin.ext
  match a with
  | ⟨0, _⟩ => show win0_3.index t 0 * 256 + 1 * y.val = y.val; rw [hi.1]; omega
  | ⟨1, _⟩ => show win0_3.index t 1 * 256 + 1 * k.val = k.val; rw [hi.2]; omega
theorem p4blk_eq (c : Dev nD) (t : Fin cfg0.N) : row0 (p4blk m c t) = (kargs m c).p.b2 := by
  have hi := index_w4 t
  funext k
  show p4blk m c t (ix2 0 k) = m ((c : Thread nD τ).loc main_arg4) (ix1 k)
  unfold p4blk iblk
  rw [View.read_apply]
  show (V m c main_v1 : S1x256.Idx → EReal) _ = _
  rw [found_main_v1]
  refine Eq.trans ?_ (shapeCast_a_1a_apply (m ((c : Thread nD τ).loc main_arg4)) shapeCasts_S256_S1x256 0 k)
  congr 1
  funext a
  apply Fin.ext
  match a with
  | ⟨0, _⟩ => show win0_4.index t 0 * 1 + 1 * 0 = 0; rw [hi.1]
  | ⟨1, _⟩ => show win0_4.index t 1 * 256 + 1 * k.val = k.val; rw [hi.2]; omega
theorem p5blk_eq (c : Dev nD) (t : Fin cfg0.N) : cur2 (p5blk m c t) = (kargs m c).p.W3 := by
  have hi := index_w5 t
  funext y k
  show p5blk m c t (ix2 y k) = m ((c : Thread nD τ).loc main_arg5) (ix2 y k)
  unfold p5blk iblk
  rw [View.read_apply]
  show V m c main_arg5 _ = _
  rw [V_main_arg5]
  congr 1
  funext a
  apply Fin.ext
  match a with
  | ⟨0, _⟩ => show win0_5.index t 0 * 256 + 1 * y.val = y.val; rw [hi.1]; omega
  | ⟨1, _⟩ => show win0_5.index t 1 * 256 + 1 * k.val = k.val; rw [hi.2]; omega
theorem p6blk_eq (c : Dev nD) (t : Fin cfg0.N) : row0 (p6blk m c t) = (kargs m c).p.b3 := by
  have hi := index_w6 t
  funext k
  show p6blk m c t (ix2 0 k) = m ((c : Thread nD τ).loc main_arg6) (ix1 k)
  unfold p6blk iblk
  rw [View.read_apply]
  show (V m c main_v2 : S1x256.Idx → EReal) _ = _
  rw [found_main_v2]
  refine Eq.trans ?_ (shapeCast_a_1a_apply (m ((c : Thread nD τ).loc main_arg6)) shapeCasts_S256_S1x256 0 k)
  congr 1
  funext a
  apply Fin.ext
  match a with
  | ⟨0, _⟩ => show win0_6.index t 0 * 1 + 1 * 0 = 0; rw [hi.1]
  | ⟨1, _⟩ => show win0_6.index t 1 * 256 + 1 * k.val = k.val; rw [hi.2]; omega
theorem p7blk_eq (c : Dev nD) (t : Fin cfg0.N) : cur2 (p7blk m c t) = (kargs m c).p.W4 := by
  have hi := index_w7 t
  funext y k
  show p7blk m c t (ix2 y k) = m ((c : Thread nD τ).loc main_arg7) (ix2 y k)
  unfold p7blk iblk
  rw [View.read_apply]
  show V m c main_arg7 _ = _
  rw [V_main_arg7]
  congr 1
  funext a
  apply Fin.ext
  match a with
  | ⟨0, _⟩ => show win0_7.index t 0 * 10 + 1 * y.val = y.val; rw [hi.1]; omega
  | ⟨1, _⟩ => show win0_7.index t 1 * 256 + 1 * k.val = k.val; rw [hi.2]; omega
theorem p8blk_eq (c : Dev nD) (t : Fin cfg0.N) : row0 (p8blk m c t) = (kargs m c).p.b4 := by
  have hi := index_w8 t
  funext k
  show p8blk m c t (ix2 0 k) = m ((c : Thread nD τ).loc main_arg8) (ix1 k)
  unfold p8blk iblk
  rw [View.read_apply]
  show (V m c main_v3 : S1x10.Idx → EReal) _ = _
  rw [found_main_v3]
  refine Eq.trans ?_ (shapeCast_a_1a_apply (m ((c : Thread nD τ).loc main_arg8)) shapeCasts_S10_S1x10 0 k)
  congr 1
  funext a
  apply Fin.ext
  match a with
  | ⟨0, _⟩ => show win0_8.index t 0 * 1 + 1 * 0 = 0; rw [hi.1]
  | ⟨1, _⟩ => show win0_8.index t 1 * 10 + 1 * k.val = k.val; rw [hi.2]; omega

end Cert.KernelIdeal.Blocks

end
-- ==== Proof.LibSums.lean ====
/-
  Two facts about finite sums in a commutative monoid, used to join a sum accumulated block by block to one sum
  over all rows.

  (1) A running total that is RESET every 16 steps: if `out n = 0 + S n` at the steps `n ≡ 0 (mod 16)` and
      `out (n+1) = out n + S (n+1)` at the others, then `out n` is the sum of `S` over the steps from the last
      reset up to `n`.
  (2) Regrouping `32768 = 2 · 16 · 1024`: a sum over all rows is the sum over the two halves, the sixteen blocks
      of a half and the 1024 rows of a block, row `1024 (16 c + j) + y`.
-/
import Mathlib.Algebra.BigOperators.Fin
import Mathlib.Algebra.BigOperators.Intervals
import Mathlib.Algebra.Order.BigOperators.Group.Finset
import Mathlib.Data.EReal.Basic

noncomputable section

namespace Cert.LibSums

variable {M : Type*} [AddCommMonoid M]

/-- (1), with the bound `n < N` carried the way a grid's points carry it. -/
theorem reset_sum {ι : Type*} (N : ℕ) (out : (n : ℕ) → n < N → ι → M) (S : ℕ → ι → M)
    (h0 : ∀ (n : ℕ) (h : n < N), n % 16 = 0 → ∀ i, out n h i = 0 + S n i)
    (hs : ∀ (n : ℕ) (h : n + 1 < N), ¬(n + 1) % 16 = 0 →
      ∀ i, out (n + 1) h i = out n (Nat.lt_of_succ_lt h) i + S (n + 1) i) :
    ∀ (n : ℕ) (h : n < N) (i : ι), out n h i = ∑ t ∈ Finset.Ico (16 * (n / 16)) (n + 1), S t i := by
  intro n
  induction n with
  | zero =>
    -- the first step is a reset: the interval is the singleton {0}
    intro h i
    rw [h0 0 h (by norm_num) i]
    simp
  | succ n ih =>
    intro h i
    by_cases hm : (n + 1) % 16 = 0
    · -- a reset step: the last reset is n + 1 itself, the interval is the singleton {n + 1}
      rw [h0 (n + 1) h hm i]
      have e : 16 * ((n + 1) / 16) = n + 1 := by omega
      rw [e]
      simp
    · -- an ordinary step: the last reset is unchanged and the interval grows by its top element
      rw [hs n h hm i, ih (Nat.lt_of_succ_lt h) i]
      have e : (n + 1) / 16 = n / 16 := by omega
      rw [e, Finset.sum_Ico_succ_top (show 16 * (n / 16) ≤ n + 1 by omega)]

/-- The sixteen steps of half `c`, as a sum over `Fin 16`. -/
theorem sum_Ico_half (S : ℕ → M) (c : ℕ) :
    ∑ t ∈ Finset.Ico (16 * ((16 * c + 15) / 16)) (16 * c + 15 + 1), S t = ∑ j : Fin 16, S (16 * c + j.val) := by
  have e : (16 * c + 15) / 16 = c := by omega
  have e' : 16 * c + 15 + 1 - 16 * c = 16 := by omega
  rw [e, Finset.sum_Ico_eq_sum_range, e', Finset.sum_range]

/-- Row `1024 (16 c + j) + y` as a bijection between the triples `(c, j, y)` and the rows; the inverse reads the
half, the block and the row of the block off by division and remainder. -/
private def rowEquiv : Fin 2 × Fin 16 × Fin 1024 ≃ Fin 32768 where
  toFun p := ⟨1024 * (16 * p.1.val + p.2.1.val) + p.2.2.val, by
    have := p.1.isLt; have := p.2.1.isLt; have := p.2.2.isLt; omega⟩
  invFun r := (⟨r.val / 16384, by have := r.isLt; omega⟩, ⟨r.val / 1024 % 16, by omega⟩,
    ⟨r.val % 1024, by omega⟩)
  left_inv p := by
    obtain ⟨c, j, y⟩ := p
    have := c.isLt; have := j.isLt; have := y.isLt
    refine Prod.ext (Fin.ext ?_) (Prod.ext (Fin.ext ?_) (Fin.ext ?_)) <;> simp only [] <;> omega
  right_inv r := by
    have := r.isLt
    refine Fin.ext ?_
    simp only []
    omega

/-- (2). -/
theorem sum_rows_regroup (f : Fin 32768 → M) :
    ∑ r : Fin 32768, f r
      = ∑ c : Fin 2, ∑ j : Fin 16, ∑ y : Fin 1024,
          f ⟨1024 * (16 * c.val + j.val) + y.val, by have := c.isLt; have := j.isLt; have := y.isLt; omega⟩ := by
  rw [← Fintype.sum_equiv rowEquiv (fun p => f (rowEquiv p)) f (fun _ => rfl)]
  rw [Fintype.sum_prod_type]
  refine Finset.sum_congr rfl fun c _ => ?_
  rw [Fintype.sum_prod_type]
  rfl

end Cert.LibSums

end
-- ==== Proof.Law.lean ====
/-
  Each co-activation matrix over the whole batch is the sum, over the two halves of the batch and the sixteen
  1024-row blocks of a half, of the block's own co-activation matrix: the counts are sums over rows, rows split as
  `r = 1024 (16 c + j) + y`, and every indicator is row-local. `blkC⋆ A t` is block `t`'s matrix (zero for `t ≥ 32`,
  so that it is a total function of the step number), `part⋆ A` the two halves' partial sums as one [2, ·, ·] array.
-/
import proofs.«165139_j36704790511730_1_alg».proof.Proof.Result
import proofs.«165139_j36704790511730_1_alg».proof.Proof.LibSums

noncomputable section

namespace Cert.Mlp

open Idealize.ShloMosaic Idealize.ShloMosaic.ValueIdx

def blkC0 (A : Args) (t : ℕ) (i : Fin 784) (j : Fin 256) : EReal := if h : t < 32 then c0 A.p (A.Xb ⟨t, h⟩) i j else 0
def blkC1 (A : Args) (t : ℕ) (i : Fin 256) (j : Fin 256) : EReal := if h : t < 32 then c1 A.p (A.Xb ⟨t, h⟩) i j else 0
def blkC2 (A : Args) (t : ℕ) (i : Fin 256) (j : Fin 256) : EReal := if h : t < 32 then c2 A.p (A.Xb ⟨t, h⟩) i j else 0
def blkC3 (A : Args) (t : ℕ) (i : Fin 256) (j : Fin 10) : EReal := if h : t < 32 then c3 A.p (A.Xb ⟨t, h⟩) i j else 0

/-- The two halves' partial sums, as arrays [2, rows, cols]: entry (c, i, j) sums the sixteen blocks of half c. -/
def part0 (A : Args) : (⟨3, ![2, 784, 256]⟩ : Shape).Idx → EReal :=
  fun i => ∑ jj : Fin 16, blkC0 A (16 * (i 0).val + jj.val) ⟨(i 1).val, (i 1).isLt⟩ ⟨(i 2).val, (i 2).isLt⟩
def part1 (A : Args) : (⟨3, ![2, 256, 256]⟩ : Shape).Idx → EReal :=
  fun i => ∑ jj : Fin 16, blkC1 A (16 * (i 0).val + jj.val) ⟨(i 1).val, (i 1).isLt⟩ ⟨(i 2).val, (i 2).isLt⟩
def part2 (A : Args) : (⟨3, ![2, 256, 256]⟩ : Shape).Idx → EReal :=
  fun i => ∑ jj : Fin 16, blkC2 A (16 * (i 0).val + jj.val) ⟨(i 1).val, (i 1).isLt⟩ ⟨(i 2).val, (i 2).isLt⟩
def part3 (A : Args) : (⟨3, ![2, 256, 10]⟩ : Shape).Idx → EReal :=
  fun i => ∑ jj : Fin 16, blkC3 A (16 * (i 0).val + jj.val) ⟨(i 1).val, (i 1).isLt⟩ ⟨(i 2).val, (i 2).isLt⟩

theorem part0_ix (A : Args) (c : Fin 2) (i : Fin 784) (j : Fin 256) :
    part0 A (ix3 c i j) = ∑ jj : Fin 16, blkC0 A (16 * c.val + jj.val) i j := rfl
theorem part1_ix (A : Args) (c : Fin 2) (i : Fin 256) (j : Fin 256) :
    part1 A (ix3 c i j) = ∑ jj : Fin 16, blkC1 A (16 * c.val + jj.val) i j := rfl
theorem part2_ix (A : Args) (c : Fin 2) (i : Fin 256) (j : Fin 256) :
    part2 A (ix3 c i j) = ∑ jj : Fin 16, blkC2 A (16 * c.val + jj.val) i j := rfl
theorem part3_ix (A : Args) (c : Fin 2) (i : Fin 256) (j : Fin 10) :
    part3 A (ix3 c i j) = ∑ jj : Fin 16, blkC3 A (16 * c.val + jj.val) i j := rfl

/-- A co-activation matrix over all rows is the sum of the blocks' matrices. -/
theorem coact_split {I J : ℕ} (a : Fin 32768 → Fin I → EReal) (a' : Fin 32768 → Fin J → EReal) (i : Fin I) (j : Fin J) :
    coact a a' i j = ∑ c : Fin 2, ∑ jj : Fin 16,
      coact (fun y => a (blockRow ⟨16 * c.val + jj.val, by have := c.isLt; have := jj.isLt; omega⟩ y))
        (fun y => a' (blockRow ⟨16 * c.val + jj.val, by have := c.isLt; have := jj.isLt; omega⟩ y)) i j := by
  unfold coact
  rw [LibSums.sum_rows_regroup (fun r => a r i * a' r j)]
  rfl

theorem c0_split (A : Args) (i : Fin 784) (j : Fin 256) :
    c0 A.p A.X i j = ∑ c : Fin 2, ∑ jj : Fin 16, blkC0 A (16 * c.val + jj.val) i j := by
  unfold c0
  rw [coact_split]
  refine Finset.sum_congr rfl fun c _ => Finset.sum_congr rfl fun jj _ => ?_
  have h : 16 * c.val + jj.val < 32 := by have := c.isLt; have := jj.isLt; omega
  unfold blkC0
  rw [dif_pos h]
  rfl
theorem c1_split (A : Args) (i : Fin 256) (j : Fin 256) :
    c1 A.p A.X i j = ∑ c : Fin 2, ∑ jj : Fin 16, blkC1 A (16 * c.val + jj.val) i j := by
  unfold c1
  rw [coact_split]
  refine Finset.sum_congr rfl fun c _ => Finset.sum_congr rfl fun jj _ => ?_
  have h : 16 * c.val + jj.val < 32 := by have := c.isLt; have := jj.isLt; omega
  unfold blkC1
  rw [dif_pos h]
  rfl
theorem c2_split (A : Args) (i : Fin 256) (j : Fin 256) :
    c2 A.p A.X i j = ∑ c : Fin 2, ∑ jj : Fin 16, blkC2 A (16 * c.val + jj.val) i j := by
  unfold c2
  rw [coact_split]
  refine Finset.sum_congr rfl fun c _ => Finset.sum_congr rfl fun jj _ => ?_
  have h : 16 * c.val + jj.val < 32 := by have := c.isLt; have := jj.isLt; omega
  unfold blkC2
  rw [dif_pos h]
  rfl
theorem c3_split (A : Args) (i : Fin 256) (j : Fin 10) :
    c3 A.p A.X i j = ∑ c : Fin 2, ∑ jj : Fin 16, blkC3 A (16 * c.val + jj.val) i j := by
  unfold c3
  rw [coact_split]
  refine Finset.sum_congr rfl fun c _ => Finset.sum_congr rfl fun jj _ => ?_
  have h : 16 * c.val + jj.val < 32 := by have := c.isLt; have := jj.isLt; omega
  unfold blkC3
  rw [dif_pos h]
  rfl

end Cert.Mlp

end
-- ==== Proof.Invariant.lean ====
/-
  What the five output staging buffers hold after the body at each grid point, at the ideal instance.
  The logits buffer holds the logits of the point's block of rows. Each co-activation buffer holds a RUNNING SUM:
  the first point of a core's sweep (points 0 and 16) stores the zero matrix and adds its block's counts to it, every
  later point adds its block's counts to what the point before left; so after point `n` the buffer holds the sum of
  the blocks' co-activation matrices from the last reset, `16 ⌊n/16⌋`, up to `n`.
-/
import proofs.«165139_j36704790511730_1_alg».proof.Proof.PiecesA
import proofs.«165139_j36704790511730_1_alg».proof.Proof.PiecesB
import proofs.«165139_j36704790511730_1_alg».proof.Proof.BlockCounts
import proofs.«165139_j36704790511730_1_alg».proof.Proof.Blocks
import proofs.«165139_j36704790511730_1_alg».proof.Proof.Law

noncomputable section

namespace Cert.KernelIdeal.Inv

open Cert.KernelIdeal Cert.KernelIdeal.Gen Cert.KernelIdeal.Blocks Cert.Mlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- What the four co-activation buffers held on entry to point `t`: what the point before left. -/
abbrev prev (c : Dev nD) (t : Fin cfg0.N) :=
  outsAt0 m c (t.val - 1) (Nat.lt_of_le_of_lt (Nat.sub_le _ _) t.isLt)

/-- The parameters the body reads at any point are the network's. -/
theorem hbp (c : Dev nD) (t : Fin cfg0.N) :
    Blk.bp (p1blk m c t) (p2blk m c t) (p3blk m c t) (p4blk m c t) (p5blk m c t) (p6blk m c t) (p7blk m c t) (p8blk m c t)
      = (kargs m c).p := by
  unfold Blk.bp
  rw [p1blk_eq, p2blk_eq, p3blk_eq, p4blk_eq, p5blk_eq, p6blk_eq, p7blk_eq, p8blk_eq]

/-- Block `t`'s co-activation matrices, by its step number. -/
theorem blk_of (c : Dev nD) (t : Fin cfg0.N) :
    (c0 (kargs m c).p ((kargs m c).Xb (tt t)) = blkC0 (kargs m c) t.val)
    ∧ (c1 (kargs m c).p ((kargs m c).Xb (tt t)) = blkC1 (kargs m c) t.val)
    ∧ (c2 (kargs m c).p ((kargs m c).Xb (tt t)) = blkC2 (kargs m c) t.val)
    ∧ (c3 (kargs m c).p ((kargs m c).Xb (tt t)) = blkC3 (kargs m c) t.val) := by
  have h : t.val < 32 := (tt t).isLt
  refine ⟨?_, ?_, ?_, ?_⟩ <;> funext i j
  · unfold blkC0; rw [dif_pos h]; rfl
  · unfold blkC1; rw [dif_pos h]; rfl
  · unfold blkC2; rw [dif_pos h]; rfl
  · unfold blkC3; rw [dif_pos h]; rfl

/-! ## Each buffer after a point, as a payload of the point's blocks -/

theorem A9 (c : Dev nD) (t : Fin cfg0.N) (h0 : t.val % 16 = 0) :
    (outsAt0 m c t.val t.isLt).1 = k0_pay2 (F := Ideal) (k0_pay16 (k0_pay11 (xblk m c t) (p1blk m c t) (p2blk m c t)) (k0_pay12 (p3blk m c t)) (p4blk m c t) (p5blk m c t) (p6blk m c t)) (p7blk m c t) (p8blk m c t) := by
  rw [outsAt0_A m c t h0]; dsimp only
  exact Piece.out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (xblk m c t) (p1blk m c t) (p2blk m c t) (p3blk m c t) (p4blk m c t) (p5blk m c t) (p6blk m c t) (p7blk m c t) (p8blk m c t)

theorem B9 (c : Dev nD) (t : Fin cfg0.N) (h0 : ¬t.val % 16 = 0) :
    (outsAt0 m c t.val t.isLt).1 = k0_pay2 (F := Ideal) (k0_pay16 (k0_pay11 (xblk m c t) (p1blk m c t) (p2blk m c t)) (k0_pay12 (p3blk m c t)) (p4blk m c t) (p5blk m c t) (p6blk m c t)) (p7blk m c t) (p8blk m c t) := by
  rw [outsAt0_B m c t h0]; dsimp only
  exact Piece.out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (xblk m c t) (p1blk m c t) (p2blk m c t) (p3blk m c t) (p4blk m c t) (p5blk m c t) (p6blk m c t) (p7blk m c t) (p8blk m c t) (prev m c t).2.1 (prev m c t).2.2.1 (prev m c t).2.2.2.1 (prev m c t).2.2.2.2

theorem A10 (c : Dev nD) (t : Fin cfg0.N) (h0 : t.val % 16 = 0) :
    (outsAt0 m c t.val t.isLt).2.1 = k0_pay10 (F := Ideal) (xblk m c t) (p1blk m c t) (p2blk m c t) (k0_pay4 (F := Ideal)) := by
  rw [outsAt0_A m c t h0]; dsimp only
  exact Piece.out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (xblk m c t) (p1blk m c t) (p2blk m c t) (p3blk m c t) (p4blk m c t) (p5blk m c t) (p6blk m c t) (p7blk m c t) (p8blk m c t)

theorem B10 (c : Dev nD) (t : Fin cfg0.N) (h0 : ¬t.val % 16 = 0) :
    (outsAt0 m c t.val t.isLt).2.1 = k0_pay10 (F := Ideal) (xblk m c t) (p1blk m c t) (p2blk m c t) (prev m c t).2.1 := by
  rw [outsAt0_B m c t h0]; dsimp only
  exact Piece.out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (xblk m c t) (p1blk m c t) (p2blk m c t) (p3blk m c t) (p4blk m c t) (p5blk m c t) (p6blk m c t) (p7blk m c t) (p8blk m c t) (prev m c t).2.1 (prev m c t).2.2.1 (prev m c t).2.2.2.1 (prev m c t).2.2.2.2

theorem A11 (c : Dev nD) (t : Fin cfg0.N) (h0 : t.val % 16 = 0) :
    (outsAt0 m c t.val t.isLt).2.2.1 = k0_pay15 (F := Ideal) (k0_pay9 (xblk m c t) (p1blk m c t) (p2blk m c t)) (k0_pay11 (xblk m c t) (p1blk m c t) (p2blk m c t)) (k0_pay12 (p3blk m c t)) (p4blk m c t) (k0_pay5 (F := Ideal)) := by
  rw [outsAt0_A m c t h0]; dsimp only
  exact Piece.out_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (xblk m c t) (p1blk m c t) (p2blk m c t) (p3blk m c t) (p4blk m c t) (p5blk m c t) (p6blk m c t) (p7blk m c t) (p8blk m c t)

theorem B11 (c : Dev nD) (t : Fin cfg0.N) (h0 : ¬t.val % 16 = 0) :
    (outsAt0 m c t.val t.isLt).2.2.1 = k0_pay15 (F := Ideal) (k0_pay9 (xblk m c t) (p1blk m c t) (p2blk m c t)) (k0_pay11 (xblk m c t) (p1blk m c t) (p2blk m c t)) (k0_pay12 (p3blk m c t)) (p4blk m c t) (prev m c t).2.2.1 := by
  rw [outsAt0_B m c t h0]; dsimp only
  exact Piece.out_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (xblk m c t) (p1blk m c t) (p2blk m c t) (p3blk m c t) (p4blk m c t) (p5blk m c t) (p6blk m c t) (p7blk m c t) (p8blk m c t) (prev m c t).2.1 (prev m c t).2.2.1 (prev m c t).2.2.2.1 (prev m c t).2.2.2.2

theorem A12 (c : Dev nD) (t : Fin cfg0.N) (h0 : t.val % 16 = 0) :
    (outsAt0 m c t.val t.isLt).2.2.2.1 = k0_pay1 (F := Ideal) (k0_pay18 (k0_pay6 (F := Ideal))) (k0_pay19 (k0_pay11 (xblk m c t) (p1blk m c t) (p2blk m c t)) (k0_pay12 (p3blk m c t)) (p4blk m c t) (p5blk m c t) (p6blk m c t)) := by
  rw [outsAt0_A m c t h0]; dsimp only
  exact Piece.out_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (xblk m c t) (p1blk m c t) (p2blk m c t) (p3blk m c t) (p4blk m c t) (p5blk m c t) (p6blk m c t) (p7blk m c t) (p8blk m c t)

theorem B12 (c : Dev nD) (t : Fin cfg0.N) (h0 : ¬t.val % 16 = 0) :
    (outsAt0 m c t.val t.isLt).2.2.2.1 = k0_pay1 (F := Ideal) (k0_pay18 (prev m c t).2.2.2.1) (k0_pay19 (k0_pay11 (xblk m c t) (p1blk m c t) (p2blk m c t)) (k0_pay12 (p3blk m c t)) (p4blk m c t) (p5blk m c t) (p6blk m c t)) := by
  rw [outsAt0_B m c t h0]; dsimp only
  exact Piece.out_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (xblk m c t) (p1blk m c t) (p2blk m c t) (p3blk m c t) (p4blk m c t) (p5blk m c t) (p6blk m c t) (p7blk m c t) (p8blk m c t) (prev m c t).2.1 (prev m c t).2.2.1 (prev m c t).2.2.2.1 (prev m c t).2.2.2.2

theorem A13 (c : Dev nD) (t : Fin cfg0.N) (h0 : t.val % 16 = 0) :
    (outsAt0 m c t.val t.isLt).2.2.2.2 = k0_pay3 (F := Ideal) (k0_pay16 (k0_pay11 (xblk m c t) (p1blk m c t) (p2blk m c t)) (k0_pay12 (p3blk m c t)) (p4blk m c t) (p5blk m c t) (p6blk m c t)) (k0_pay17 (k0_pay11 (xblk m c t) (p1blk m c t) (p2blk m c t)) (k0_pay12 (p3blk m c t)) (p4blk m c t) (p5blk m c t) (p6blk m c t)) (p7blk m c t) (p8blk m c t) (k0_pay7 (F := Ideal)) := by
  rw [outsAt0_A m c t h0]; dsimp only
  exact Piece.out_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (xblk m c t) (p1blk m c t) (p2blk m c t) (p3blk m c t) (p4blk m c t) (p5blk m c t) (p6blk m c t) (p7blk m c t) (p8blk m c t)

theorem B13 (c : Dev nD) (t : Fin cfg0.N) (h0 : ¬t.val % 16 = 0) :
    (outsAt0 m c t.val t.isLt).2.2.2.2 = k0_pay3 (F := Ideal) (k0_pay16 (k0_pay11 (xblk m c t) (p1blk m c t) (p2blk m c t)) (k0_pay12 (p3blk m c t)) (p4blk m c t) (p5blk m c t) (p6blk m c t)) (k0_pay17 (k0_pay11 (xblk m c t) (p1blk m c t) (p2blk m c t)) (k0_pay12 (p3blk m c t)) (p4blk m c t) (p5blk m c t) (p6blk m c t)) (p7blk m c t) (p8blk m c t) (prev m c t).2.2.2.2 := by
  rw [outsAt0_B m c t h0]; dsimp only
  exact Piece.out_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (xblk m c t) (p1blk m c t) (p2blk m c t) (p3blk m c t) (p4blk m c t) (p5blk m c t) (p6blk m c t) (p7blk m c t) (p8blk m c t) (prev m c t).2.1 (prev m c t).2.2.1 (prev m c t).2.2.2.1 (prev m c t).2.2.2.2

/-! ## The logits buffer -/

/-- The logits buffer after point `t`: the logits of rows `1024 t + y`. -/
theorem logits_at (c : Dev nD) (t : Fin cfg0.N) (y : Fin 1024) (j : Fin 10) :
    (outsAt0 m c t.val t.isLt).1 (ix2 y j) = logits (kargs m c).p (kargs m c).X (blockRow (tt t) y) j := by
  have e : (outsAt0 m c t.val t.isLt).1 = k0_pay2 (F := Ideal) (k0_pay16 (k0_pay11 (xblk m c t) (p1blk m c t) (p2blk m c t)) (k0_pay12 (p3blk m c t)) (p4blk m c t) (p5blk m c t) (p6blk m c t)) (p7blk m c t) (p8blk m c t) := by
    by_cases h0 : t.val % 16 = 0
    · exact A9 m c t h0
    · exact B9 m c t h0
  rw [e]
  refine (Blk.blk_logits (xblk m c t) (p1blk m c t) (p2blk m c t) (p3blk m c t) (p4blk m c t) (p5blk m c t) (p6blk m c t) (p7blk m c t) (p8blk m c t) y j).trans ?_
  rw [hbp m c t, xblk_eq m c t]
  rfl

/-! ## The co-activation buffers: one step -/

/-- Window 10 at a first point of a sweep: zero plus the block's matrix. -/
theorem stepA10 (c : Dev nD) (t : Fin cfg0.N) (h0 : t.val % 16 = 0) (i : Fin 784) (j : Fin 256) :
    (outsAt0 m c t.val t.isLt).2.1 (ix3 (0 : Fin 1) i j) = 0 + blkC0 (kargs m c) t.val i j := by
  rw [A10 m c t h0]
  refine (Blk.blk_c0 (xblk m c t) (p1blk m c t) (p2blk m c t) (p3blk m c t) (p4blk m c t) (p5blk m c t) (p6blk m c t) (p7blk m c t) (p8blk m c t) (k0_pay4 (F := Ideal)) i j).trans ?_
  rw [Blk.blk_zero0, hbp m c t, xblk_eq m c t, (blk_of m c t).1]

/-- Window 10 at a later point: what the point before left plus the block's matrix. -/
theorem stepB10 (c : Dev nD) (t : Fin cfg0.N) (h0 : ¬t.val % 16 = 0) (i : Fin 784) (j : Fin 256) :
    (outsAt0 m c t.val t.isLt).2.1 (ix3 (0 : Fin 1) i j)
      = (prev m c t).2.1 (ix3 (0 : Fin 1) i j) + blkC0 (kargs m c) t.val i j := by
  rw [B10 m c t h0]
  refine (Blk.blk_c0 (xblk m c t) (p1blk m c t) (p2blk m c t) (p3blk m c t) (p4blk m c t) (p5blk m c t) (p6blk m c t) (p7blk m c t) (p8blk m c t) (prev m c t).2.1 i j).trans ?_
  rw [hbp m c t, xblk_eq m c t, (blk_of m c t).1]

/-- Window 11 at a first point of a sweep: zero plus the block's matrix. -/
theorem stepA11 (c : Dev nD) (t : Fin cfg0.N) (h0 : t.val % 16 = 0) (i : Fin 256) (j : Fin 256) :
    (outsAt0 m c t.val t.isLt).2.2.1 (ix3 (0 : Fin 1) i j) = 0 + blkC1 (kargs m c) t.val i j := by
  rw [A11 m c t h0]
  refine (Blk.blk_c1 (xblk m c t) (p1blk m c t) (p2blk m c t) (p3blk m c t) (p4blk m c t) (p5blk m c t) (p6blk m c t) (p7blk m c t) (p8blk m c t) (k0_pay5 (F := Ideal)) i j).trans ?_
  rw [Blk.blk_zero1, hbp m c t, xblk_eq m c t, (blk_of m c t).2.1]

/-- Window 11 at a later point: what the point before left plus the block's matrix. -/
theorem stepB11 (c : Dev nD) (t : Fin cfg0.N) (h0 : ¬t.val % 16 = 0) (i : Fin 256) (j : Fin 256) :
    (outsAt0 m c t.val t.isLt).2.2.1 (ix3 (0 : Fin 1) i j)
      = (prev m c t).2.2.1 (ix3 (0 : Fin 1) i j) + blkC1 (kargs m c) t.val i j := by
  rw [B11 m c t h0]
  refine (Blk.blk_c1 (xblk m c t) (p1blk m c t) (p2blk m c t) (p3blk m c t) (p4blk m c t) (p5blk m c t) (p6blk m c t) (p7blk m c t) (p8blk m c t) (prev m c t).2.2.1 i j).trans ?_
  rw [hbp m c t, xblk_eq m c t, (blk_of m c t).2.1]

/-- Window 12 at a first point of a sweep: zero plus the block's matrix. -/
theorem stepA12 (c : Dev nD) (t : Fin cfg0.N) (h0 : t.val % 16 = 0) (i : Fin 256) (j : Fin 256) :
    (outsAt0 m c t.val t.isLt).2.2.2.1 (ix3 (0 : Fin 1) i j) = 0 + blkC2 (kargs m c) t.val i j := by
  rw [A12 m c t h0]
  refine (Blk.blk_c2 (xblk m c t) (p1blk m c t) (p2blk m c t) (p3blk m c t) (p4blk m c t) (p5blk m c t) (p6blk m c t) (p7blk m c t) (p8blk m c t) (k0_pay6 (F := Ideal)) i j).trans ?_
  rw [Blk.blk_zero2, hbp m c t, xblk_eq m c t, (blk_of m c t).2.2.1]

/-- Window 12 at a later point: what the point before left plus the block's matrix. -/
theorem stepB12 (c : Dev nD) (t : Fin cfg0.N) (h0 : ¬t.val % 16 = 0) (i : Fin 256) (j : Fin 256) :
    (outsAt0 m c t.val t.isLt).2.2.2.1 (ix3 (0 : Fin 1) i j)
      = (prev m c t).2.2.2.1 (ix3 (0 : Fin 1) i j) + blkC2 (kargs m c) t.val i j := by
  rw [B12 m c t h0]
  refine (Blk.blk_c2 (xblk m c t) (p1blk m c t) (p2blk m c t) (p3blk m c t) (p4blk m c t) (p5blk m c t) (p6blk m c t) (p7blk m c t) (p8blk m c t) (prev m c t).2.2.2.1 i j).trans ?_
  rw [hbp m c t, xblk_eq m c t, (blk_of m c t).2.2.1]

/-- Window 13 at a first point of a sweep: zero plus the block's matrix. -/
theorem stepA13 (c : Dev nD) (t : Fin cfg0.N) (h0 : t.val % 16 = 0) (i : Fin 256) (j : Fin 10) :
    (outsAt0 m c t.val t.isLt).2.2.2.2 (ix3 (0 : Fin 1) i j) = 0 + blkC3 (kargs m c) t.val i j := by
  rw [A13 m c t h0]
  refine (Blk.blk_c3 (xblk m c t) (p1blk m c t) (p2blk m c t) (p3blk m c t) (p4blk m c t) (p5blk m c t) (p6blk m c t) (p7blk m c t) (p8blk m c t) (k0_pay7 (F := Ideal)) i j).trans ?_
  rw [Blk.blk_zero3, hbp m c t, xblk_eq m c t, (blk_of m c t).2.2.2]

/-- Window 13 at a later point: what the point before left plus the block's matrix. -/
theorem stepB13 (c : Dev nD) (t : Fin cfg0.N) (h0 : ¬t.val % 16 = 0) (i : Fin 256) (j : Fin 10) :
    (outsAt0 m c t.val t.isLt).2.2.2.2 (ix3 (0 : Fin 1) i j)
      = (prev m c t).2.2.2.2 (ix3 (0 : Fin 1) i j) + blkC3 (kargs m c) t.val i j := by
  rw [B13 m c t h0]
  refine (Blk.blk_c3 (xblk m c t) (p1blk m c t) (p2blk m c t) (p3blk m c t) (p4blk m c t) (p5blk m c t) (p6blk m c t) (p7blk m c t) (p8blk m c t) (prev m c t).2.2.2.2 i j).trans ?_
  rw [hbp m c t, xblk_eq m c t, (blk_of m c t).2.2.2]

/-! ## The co-activation buffers: the running sums -/

theorem c0_at (c : Dev nD) (n : ℕ) (h : n < cfg0.N) (i : Fin 784) (j : Fin 256) :
    (outsAt0 m c n h).2.1 (ix3 (0 : Fin 1) i j) = ∑ t ∈ Finset.Ico (16 * (n / 16)) (n + 1), blkC0 (kargs m c) t i j :=
  LibSums.reset_sum (ι := Fin 784 × Fin 256) cfg0.N
    (fun n h ij => (outsAt0 m c n h).2.1 (ix3 (0 : Fin 1) ij.1 ij.2)) (fun t ij => blkC0 (kargs m c) t ij.1 ij.2)
    (fun n h h0 ij => stepA10 m c ⟨n, h⟩ h0 ij.1 ij.2)
    (fun n h h0 ij => stepB10 m c ⟨n + 1, h⟩ h0 ij.1 ij.2) n h (i, j)

theorem c1_at (c : Dev nD) (n : ℕ) (h : n < cfg0.N) (i : Fin 256) (j : Fin 256) :
    (outsAt0 m c n h).2.2.1 (ix3 (0 : Fin 1) i j) = ∑ t ∈ Finset.Ico (16 * (n / 16)) (n + 1), blkC1 (kargs m c) t i j :=
  LibSums.reset_sum (ι := Fin 256 × Fin 256) cfg0.N
    (fun n h ij => (outsAt0 m c n h).2.2.1 (ix3 (0 : Fin 1) ij.1 ij.2)) (fun t ij => blkC1 (kargs m c) t ij.1 ij.2)
    (fun n h h0 ij => stepA11 m c ⟨n, h⟩ h0 ij.1 ij.2)
    (fun n h h0 ij => stepB11 m c ⟨n + 1, h⟩ h0 ij.1 ij.2) n h (i, j)

theorem c2_at (c : Dev nD) (n : ℕ) (h : n < cfg0.N) (i : Fin 256) (j : Fin 256) :
    (outsAt0 m c n h).2.2.2.1 (ix3 (0 : Fin 1) i j) = ∑ t ∈ Finset.Ico (16 * (n / 16)) (n + 1), blkC2 (kargs m c) t i j :=
  LibSums.reset_sum (ι := Fin 256 × Fin 256) cfg0.N
    (fun n h ij => (outsAt0 m c n h).2.2.2.1 (ix3 (0 : Fin 1) ij.1 ij.2)) (fun t ij => blkC2 (kargs m c) t ij.1 ij.2)
    (fun n h h0 ij => stepA12 m c ⟨n, h⟩ h0 ij.1 ij.2)
    (fun n h h0 ij => stepB12 m c ⟨n + 1, h⟩ h0 ij.1 ij.2) n h (i, j)

theorem c3_at (c : Dev nD) (n : ℕ) (h : n < cfg0.N) (i : Fin 256) (j : Fin 10) :
    (outsAt0 m c n h).2.2.2.2 (ix3 (0 : Fin 1) i j) = ∑ t ∈ Finset.Ico (16 * (n / 16)) (n + 1), blkC3 (kargs m c) t i j :=
  LibSums.reset_sum (ι := Fin 256 × Fin 10) cfg0.N
    (fun n h ij => (outsAt0 m c n h).2.2.2.2 (ix3 (0 : Fin 1) ij.1 ij.2)) (fun t ij => blkC3 (kargs m c) t ij.1 ij.2)
    (fun n h h0 ij => stepA13 m c ⟨n, h⟩ h0 ij.1 ij.2)
    (fun n h h0 ij => stepB13 m c ⟨n + 1, h⟩ h0 ij.1 ij.2) n h (i, j)

end Cert.KernelIdeal.Inv

end
-- ==== Proof.Final.lean ====
/-
  The five arrays the region leaves. The logits array [32768, 10] is written back block by block, point `t` writing
  rows `1024 t … 1024 t + 1023`: every row is covered, and each block is the restriction of the one whole-array
  function `resLogits`. Each co-activation array [2, ·, ·] is written back twice, after the last point of each core's
  sweep (points 15 and 31), point `16 c + 15` writing slab `c` with the running sum of the sweep's sixteen blocks:
  the array ends as the two halves' partial sums `part⋆`.
-/
import proofs.«165139_j36704790511730_1_alg».proof.Proof.Invariant
import Idealize.ShloMosaic.Lib.Pipeline.Value

noncomputable section

namespace Cert.KernelIdeal.Final

open Cert.KernelIdeal Cert.KernelIdeal.Gen Cert.KernelIdeal.Blocks Cert.Mlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Window 9: the logits, one block of 1024 rows per point -/

theorem idx9 : ∀ t : Fin cfg0.N, win0_9.index t (0 : Fin 2) = t.val ∧ win0_9.index t (1 : Fin 2) = 0 :=
  (by decide +kernel : ∀ t : Fin grid0.N, _)

/-- The logits buffer at any index of the block. -/
theorem logits_at' (c : Dev nD) (t : Fin cfg0.N) (j : S1024x10.Idx) :
    (outsAt0 m c t.val t.isLt).1 j
      = logits (kargs m c).p (kargs m c).X (blockRow (tt t) ⟨(j 0).val, (j 0).isLt⟩) ⟨(j 1).val, (j 1).isLt⟩ :=
  (congrArg (outsAt0 m c t.val t.isLt).1 (eq_ix2 j)).trans
    (Inv.logits_at m c t ⟨(j 0).val, (j 0).isLt⟩ ⟨(j 1).val, (j 1).isLt⟩)

/-- What point `t` writes back is block `t` of the logits array. -/
theorem flushed9 (c : Dev nD) (t : Fin cfg0.N) (hf : (cfg0.win 9).flush t = true) :
    (dats m 0 c).flushed 9 t = ((cfg0.win 9).blk t).view.read (Elt Ideal) (resLogits (kargs m c)) := by
  have hN : t.val < 32 := (tt t).isLt
  obtain ⟨e0, e1⟩ := idx9 t
  show (cfg0.win 9).cut (grid0.coords t) ((dats m 0 c).after 9 t) = _
  rw [after0_9]
  funext j
  show (outsAt0 m c t.val t.isLt).1 j = resLogits (kargs m c) (((cfg0.win 9).blk t).view.emb j)
  refine (logits_at' m c t j).trans ?_
  have h0 : (j 0).val < 1024 := (j 0).isLt
  have h1 : (j 1).val < 10 := (j 1).isLt
  have q0 : blockRow (tt t) ⟨(j 0).val, (j 0).isLt⟩ = (⟨((((cfg0.win 9).blk t).view.emb j) 0).val, ((((cfg0.win 9).blk t).view.emb j) 0).isLt⟩ : Fin 32768) := Fin.ext (by
    show 1024 * t.val + (j 0).val = win0_9.index t (0 : Fin 2) * 1024 + 1 * (j 0).val
    rw [e0]; omega)
  have q1 : (⟨(j 1).val, (j 1).isLt⟩ : Fin 10) = ⟨((((cfg0.win 9).blk t).view.emb j) 1).val, ((((cfg0.win 9).blk t).view.emb j) 1).isLt⟩ := Fin.ext (by
    show (j 1).val = win0_9.index t (1 : Fin 2) * 10 + 1 * (j 1).val
    rw [e1]; omega)
  rw [q0, q1]
  rfl

/-- Every row of the logits array lies in the block of the point that holds it. -/
theorem cover9 (i : S32768x10.Idx) :
    ∃ t : Fin cfg0.N, (cfg0.win 9).flush t = true ∧ i ∈ ((cfg0.win 9).blk t).view.set := by
  have hi0 : (i 0).val < 32768 := (i 0).isLt
  have hi1 : (i 1).val < 10 := (i 1).isLt
  have hlt : (i 0).val / 1024 < cfg0.N := lt_of_lt_of_eq (by omega) N_0.symm
  obtain ⟨e0, e1⟩ := idx9 ⟨(i 0).val / 1024, hlt⟩
  refine ⟨⟨(i 0).val / 1024, hlt⟩, flush0_9 _, ?_⟩
  show i ∈ ((View.whole main_v4_0).slice (win0_9.rect ⟨(i 0).val / 1024, hlt⟩)).set
  rw [View.set_slice_whole, Rect.mem_set_unit]
  intro a
  match a with
  | ⟨0, _⟩ =>
    show win0_9.index ⟨(i 0).val / 1024, hlt⟩ (0 : Fin 2) * 1024 ≤ (i 0).val
      ∧ (i 0).val < win0_9.index ⟨(i 0).val / 1024, hlt⟩ (0 : Fin 2) * 1024 + 1024
    rw [e0]; dsimp only; omega
  | ⟨1, _⟩ =>
    show win0_9.index ⟨(i 0).val / 1024, hlt⟩ (1 : Fin 2) * 10 ≤ (i 1).val
      ∧ (i 1).val < win0_9.index ⟨(i 0).val / 1024, hlt⟩ (1 : Fin 2) * 10 + 10
    rw [e1]; omega

theorem final9 (c : Dev nD) : (dats m 0 c).arrAt 9 cfg0.N = resLogits (kargs m c) :=
  (dats m 0 c).arrAt_eq_of_cover 9 (resLogits (kargs m c)) (fun t hf => flushed9 m c t hf) (cover9)

/-! ## Window 10: co-activation matrix 0, one slab per core -/

theorem idx10 : ∀ t : Fin cfg0.N, win0_10.index t (0 : Fin 3) = t.val / 16 ∧ win0_10.index t (1 : Fin 3) = 0
    ∧ win0_10.index t (2 : Fin 3) = 0 :=
  (by decide +kernel : ∀ t : Fin grid0.N, _)

/-- The running sum at any index of the one-slab block (its leading coordinate is 0). -/
theorem c0_at' (c : Dev nD) (n : ℕ) (h : n < cfg0.N) (j : S1x784x256.Idx) :
    (outsAt0 m c n h).2.1 j = ∑ s ∈ Finset.Ico (16 * (n / 16)) (n + 1),
      blkC0 (kargs m c) s ⟨(j 1).val, (j 1).isLt⟩ ⟨(j 2).val, (j 2).isLt⟩ := by
  have e : j = ix3 (0 : Fin 1) (⟨(j 1).val, (j 1).isLt⟩ : Fin 784) (⟨(j 2).val, (j 2).isLt⟩ : Fin 256) := by
    funext d
    match d with
    | ⟨0, _⟩ => exact Fin.ext (by show (j 0).val = 0; have h0 : (j 0).val < 1 := (j 0).isLt; omega)
    | ⟨1, _⟩ => rfl
    | ⟨2, _⟩ => rfl
  exact (congrArg (outsAt0 m c n h).2.1 e).trans (Inv.c0_at m c n h _ _)

/-- What the last point of a core's sweep writes back is slab `t / 16` of the partial sums. -/
theorem flushed10 (c : Dev nD) (t : Fin cfg0.N) (hf : (cfg0.win 10).flush t = true) :
    (dats m 0 c).flushed 10 t = ((cfg0.win 10).blk t).view.read (Elt Ideal) (part0 (kargs m c)) := by
  have h15 : t.val % 16 = 15 := (flush0_10 t).mp hf
  have hN : t.val < 32 := (tt t).isLt
  obtain ⟨e0, e1, e2⟩ := idx10 t
  show (cfg0.win 10).cut (grid0.coords t) ((dats m 0 c).after 10 t) = _
  rw [after0_10]
  funext j
  show (outsAt0 m c t.val t.isLt).2.1 j = part0 (kargs m c) (((cfg0.win 10).blk t).view.emb j)
  refine (c0_at' m c t.val t.isLt j).trans ?_
  have h0 : (j 0).val < 1 := (j 0).isLt
  have h1 : (j 1).val < 784 := (j 1).isLt
  have h2 : (j 2).val < 256 := (j 2).isLt
  have ht : t.val = 16 * (t.val / 16) + 15 := by omega
  have hs := LibSums.sum_Ico_half (fun s => blkC0 (kargs m c) s ⟨(j 1).val, (j 1).isLt⟩ ⟨(j 2).val, (j 2).isLt⟩) (t.val / 16)
  rw [← ht] at hs
  refine hs.trans ?_
  have q0 : ((((cfg0.win 10).blk t).view.emb j) 0).val = t.val / 16 := by
    show win0_10.index t (0 : Fin 3) * 1 + 1 * (j 0).val = t.val / 16
    rw [e0]; omega
  have q1 : (⟨((((cfg0.win 10).blk t).view.emb j) 1).val, ((((cfg0.win 10).blk t).view.emb j) 1).isLt⟩ : Fin 784) = ⟨(j 1).val, (j 1).isLt⟩ := Fin.ext (by
    show win0_10.index t (1 : Fin 3) * 784 + 1 * (j 1).val = (j 1).val
    rw [e1]; omega)
  have q2 : (⟨((((cfg0.win 10).blk t).view.emb j) 2).val, ((((cfg0.win 10).blk t).view.emb j) 2).isLt⟩ : Fin 256) = ⟨(j 2).val, (j 2).isLt⟩ := Fin.ext (by
    show win0_10.index t (2 : Fin 3) * 256 + 1 * (j 2).val = (j 2).val
    rw [e2]; omega)
  show _ = ∑ jj : Fin 16, blkC0 (kargs m c) (16 * ((((cfg0.win 10).blk t).view.emb j) 0).val + jj.val)
    ⟨((((cfg0.win 10).blk t).view.emb j) 1).val, ((((cfg0.win 10).blk t).view.emb j) 1).isLt⟩ ⟨((((cfg0.win 10).blk t).view.emb j) 2).val, ((((cfg0.win 10).blk t).view.emb j) 2).isLt⟩
  rw [q0, q1, q2]

/-- Every index of the [2, 784, 256] array lies in the slab the last point of its core's sweep writes back. -/
theorem cover10 (i : S2x784x256.Idx) :
    ∃ t : Fin cfg0.N, (cfg0.win 10).flush t = true ∧ i ∈ ((cfg0.win 10).blk t).view.set := by
  have hi0 : (i 0).val < 2 := (i 0).isLt
  have hi1 : (i 1).val < 784 := (i 1).isLt
  have hi2 : (i 2).val < 256 := (i 2).isLt
  have hlt : 16 * (i 0).val + 15 < cfg0.N := lt_of_lt_of_eq (by omega) N_0.symm
  obtain ⟨e0, e1, e2⟩ := idx10 ⟨16 * (i 0).val + 15, hlt⟩
  refine ⟨⟨16 * (i 0).val + 15, hlt⟩, (flush0_10 _).mpr (by dsimp only; omega), ?_⟩
  show i ∈ ((View.whole main_v4_1).slice (win0_10.rect ⟨16 * (i 0).val + 15, hlt⟩)).set
  rw [View.set_slice_whole, Rect.mem_set_unit]
  intro a
  match a with
  | ⟨0, _⟩ =>
    show win0_10.index ⟨16 * (i 0).val + 15, hlt⟩ (0 : Fin 3) * 1 ≤ (i 0).val
      ∧ (i 0).val < win0_10.index ⟨16 * (i 0).val + 15, hlt⟩ (0 : Fin 3) * 1 + 1
    rw [e0]; dsimp only; omega
  | ⟨1, _⟩ =>
    show win0_10.index ⟨16 * (i 0).val + 15, hlt⟩ (1 : Fin 3) * 784 ≤ (i 1).val
      ∧ (i 1).val < win0_10.index ⟨16 * (i 0).val + 15, hlt⟩ (1 : Fin 3) * 784 + 784
    rw [e1]; omega
  | ⟨2, _⟩ =>
    show win0_10.index ⟨16 * (i 0).val + 15, hlt⟩ (2 : Fin 3) * 256 ≤ (i 2).val
      ∧ (i 2).val < win0_10.index ⟨16 * (i 0).val + 15, hlt⟩ (2 : Fin 3) * 256 + 256
    rw [e2]; omega

theorem final10 (c : Dev nD) : (dats m 0 c).arrAt 10 cfg0.N = part0 (kargs m c) :=
  (dats m 0 c).arrAt_eq_of_cover 10 (part0 (kargs m c)) (fun t hf => flushed10 m c t hf) (cover10)

/-! ## Window 11: co-activation matrix 1, one slab per core -/

theorem idx11 : ∀ t : Fin cfg0.N, win0_11.index t (0 : Fin 3) = t.val / 16 ∧ win0_11.index t (1 : Fin 3) = 0
    ∧ win0_11.index t (2 : Fin 3) = 0 :=
  (by decide +kernel : ∀ t : Fin grid0.N, _)

/-- The running sum at any index of the one-slab block (its leading coordinate is 0). -/
theorem c1_at' (c : Dev nD) (n : ℕ) (h : n < cfg0.N) (j : S1x256x256.Idx) :
    (outsAt0 m c n h).2.2.1 j = ∑ s ∈ Finset.Ico (16 * (n / 16)) (n + 1),
      blkC1 (kargs m c) s ⟨(j 1).val, (j 1).isLt⟩ ⟨(j 2).val, (j 2).isLt⟩ := by
  have e : j = ix3 (0 : Fin 1) (⟨(j 1).val, (j 1).isLt⟩ : Fin 256) (⟨(j 2).val, (j 2).isLt⟩ : Fin 256) := by
    funext d
    match d with
    | ⟨0, _⟩ => exact Fin.ext (by show (j 0).val = 0; have h0 : (j 0).val < 1 := (j 0).isLt; omega)
    | ⟨1, _⟩ => rfl
    | ⟨2, _⟩ => rfl
  exact (congrArg (outsAt0 m c n h).2.2.1 e).trans (Inv.c1_at m c n h _ _)

/-- What the last point of a core's sweep writes back is slab `t / 16` of the partial sums. -/
theorem flushed11 (c : Dev nD) (t : Fin cfg0.N) (hf : (cfg0.win 11).flush t = true) :
    (dats m 0 c).flushed 11 t = ((cfg0.win 11).blk t).view.read (Elt Ideal) (part1 (kargs m c)) := by
  have h15 : t.val % 16 = 15 := (flush0_11 t).mp hf
  have hN : t.val < 32 := (tt t).isLt
  obtain ⟨e0, e1, e2⟩ := idx11 t
  show (cfg0.win 11).cut (grid0.coords t) ((dats m 0 c).after 11 t) = _
  rw [after0_11]
  funext j
  show (outsAt0 m c t.val t.isLt).2.2.1 j = part1 (kargs m c) (((cfg0.win 11).blk t).view.emb j)
  refine (c1_at' m c t.val t.isLt j).trans ?_
  have h0 : (j 0).val < 1 := (j 0).isLt
  have h1 : (j 1).val < 256 := (j 1).isLt
  have h2 : (j 2).val < 256 := (j 2).isLt
  have ht : t.val = 16 * (t.val / 16) + 15 := by omega
  have hs := LibSums.sum_Ico_half (fun s => blkC1 (kargs m c) s ⟨(j 1).val, (j 1).isLt⟩ ⟨(j 2).val, (j 2).isLt⟩) (t.val / 16)
  rw [← ht] at hs
  refine hs.trans ?_
  have q0 : ((((cfg0.win 11).blk t).view.emb j) 0).val = t.val / 16 := by
    show win0_11.index t (0 : Fin 3) * 1 + 1 * (j 0).val = t.val / 16
    rw [e0]; omega
  have q1 : (⟨((((cfg0.win 11).blk t).view.emb j) 1).val, ((((cfg0.win 11).blk t).view.emb j) 1).isLt⟩ : Fin 256) = ⟨(j 1).val, (j 1).isLt⟩ := Fin.ext (by
    show win0_11.index t (1 : Fin 3) * 256 + 1 * (j 1).val = (j 1).val
    rw [e1]; omega)
  have q2 : (⟨((((cfg0.win 11).blk t).view.emb j) 2).val, ((((cfg0.win 11).blk t).view.emb j) 2).isLt⟩ : Fin 256) = ⟨(j 2).val, (j 2).isLt⟩ := Fin.ext (by
    show win0_11.index t (2 : Fin 3) * 256 + 1 * (j 2).val = (j 2).val
    rw [e2]; omega)
  show _ = ∑ jj : Fin 16, blkC1 (kargs m c) (16 * ((((cfg0.win 11).blk t).view.emb j) 0).val + jj.val)
    ⟨((((cfg0.win 11).blk t).view.emb j) 1).val, ((((cfg0.win 11).blk t).view.emb j) 1).isLt⟩ ⟨((((cfg0.win 11).blk t).view.emb j) 2).val, ((((cfg0.win 11).blk t).view.emb j) 2).isLt⟩
  rw [q0, q1, q2]

/-- Every index of the [2, 256, 256] array lies in the slab the last point of its core's sweep writes back. -/
theorem cover11 (i : S2x256x256.Idx) :
    ∃ t : Fin cfg0.N, (cfg0.win 11).flush t = true ∧ i ∈ ((cfg0.win 11).blk t).view.set := by
  have hi0 : (i 0).val < 2 := (i 0).isLt
  have hi1 : (i 1).val < 256 := (i 1).isLt
  have hi2 : (i 2).val < 256 := (i 2).isLt
  have hlt : 16 * (i 0).val + 15 < cfg0.N := lt_of_lt_of_eq (by omega) N_0.symm
  obtain ⟨e0, e1, e2⟩ := idx11 ⟨16 * (i 0).val + 15, hlt⟩
  refine ⟨⟨16 * (i 0).val + 15, hlt⟩, (flush0_11 _).mpr (by dsimp only; omega), ?_⟩
  show i ∈ ((View.whole main_v4_2).slice (win0_11.rect ⟨16 * (i 0).val + 15, hlt⟩)).set
  rw [View.set_slice_whole, Rect.mem_set_unit]
  intro a
  match a with
  | ⟨0, _⟩ =>
    show win0_11.index ⟨16 * (i 0).val + 15, hlt⟩ (0 : Fin 3) * 1 ≤ (i 0).val
      ∧ (i 0).val < win0_11.index ⟨16 * (i 0).val + 15, hlt⟩ (0 : Fin 3) * 1 + 1
    rw [e0]; dsimp only; omega
  | ⟨1, _⟩ =>
    show win0_11.index ⟨16 * (i 0).val + 15, hlt⟩ (1 : Fin 3) * 256 ≤ (i 1).val
      ∧ (i 1).val < win0_11.index ⟨16 * (i 0).val + 15, hlt⟩ (1 : Fin 3) * 256 + 256
    rw [e1]; omega
  | ⟨2, _⟩ =>
    show win0_11.index ⟨16 * (i 0).val + 15, hlt⟩ (2 : Fin 3) * 256 ≤ (i 2).val
      ∧ (i 2).val < win0_11.index ⟨16 * (i 0).val + 15, hlt⟩ (2 : Fin 3) * 256 + 256
    rw [e2]; omega

theorem final11 (c : Dev nD) : (dats m 0 c).arrAt 11 cfg0.N = part1 (kargs m c) :=
  (dats m 0 c).arrAt_eq_of_cover 11 (part1 (kargs m c)) (fun t hf => flushed11 m c t hf) (cover11)

/-! ## Window 12: co-activation matrix 2, one slab per core -/

theorem idx12 : ∀ t : Fin cfg0.N, win0_12.index t (0 : Fin 3) = t.val / 16 ∧ win0_12.index t (1 : Fin 3) = 0
    ∧ win0_12.index t (2 : Fin 3) = 0 :=
  (by decide +kernel : ∀ t : Fin grid0.N, _)

/-- The running sum at any index of the one-slab block (its leading coordinate is 0). -/
theorem c2_at' (c : Dev nD) (n : ℕ) (h : n < cfg0.N) (j : S1x256x256.Idx) :
    (outsAt0 m c n h).2.2.2.1 j = ∑ s ∈ Finset.Ico (16 * (n / 16)) (n + 1),
      blkC2 (kargs m c) s ⟨(j 1).val, (j 1).isLt⟩ ⟨(j 2).val, (j 2).isLt⟩ := by
  have e : j = ix3 (0 : Fin 1) (⟨(j 1).val, (j 1).isLt⟩ : Fin 256) (⟨(j 2).val, (j 2).isLt⟩ : Fin 256) := by
    funext d
    match d with
    | ⟨0, _⟩ => exact Fin.ext (by show (j 0).val = 0; have h0 : (j 0).val < 1 := (j 0).isLt; omega)
    | ⟨1, _⟩ => rfl
    | ⟨2, _⟩ => rfl
  exact (congrArg (outsAt0 m c n h).2.2.2.1 e).trans (Inv.c2_at m c n h _ _)

/-- What the last point of a core's sweep writes back is slab `t / 16` of the partial sums. -/
theorem flushed12 (c : Dev nD) (t : Fin cfg0.N) (hf : (cfg0.win 12).flush t = true) :
    (dats m 0 c).flushed 12 t = ((cfg0.win 12).blk t).view.read (Elt Ideal) (part2 (kargs m c)) := by
  have h15 : t.val % 16 = 15 := (flush0_12 t).mp hf
  have hN : t.val < 32 := (tt t).isLt
  obtain ⟨e0, e1, e2⟩ := idx12 t
  show (cfg0.win 12).cut (grid0.coords t) ((dats m 0 c).after 12 t) = _
  rw [after0_12]
  funext j
  show (outsAt0 m c t.val t.isLt).2.2.2.1 j = part2 (kargs m c) (((cfg0.win 12).blk t).view.emb j)
  refine (c2_at' m c t.val t.isLt j).trans ?_
  have h0 : (j 0).val < 1 := (j 0).isLt
  have h1 : (j 1).val < 256 := (j 1).isLt
  have h2 : (j 2).val < 256 := (j 2).isLt
  have ht : t.val = 16 * (t.val / 16) + 15 := by omega
  have hs := LibSums.sum_Ico_half (fun s => blkC2 (kargs m c) s ⟨(j 1).val, (j 1).isLt⟩ ⟨(j 2).val, (j 2).isLt⟩) (t.val / 16)
  rw [← ht] at hs
  refine hs.trans ?_
  have q0 : ((((cfg0.win 12).blk t).view.emb j) 0).val = t.val / 16 := by
    show win0_12.index t (0 : Fin 3) * 1 + 1 * (j 0).val = t.val / 16
    rw [e0]; omega
  have q1 : (⟨((((cfg0.win 12).blk t).view.emb j) 1).val, ((((cfg0.win 12).blk t).view.emb j) 1).isLt⟩ : Fin 256) = ⟨(j 1).val, (j 1).isLt⟩ := Fin.ext (by
    show win0_12.index t (1 : Fin 3) * 256 + 1 * (j 1).val = (j 1).val
    rw [e1]; omega)
  have q2 : (⟨((((cfg0.win 12).blk t).view.emb j) 2).val, ((((cfg0.win 12).blk t).view.emb j) 2).isLt⟩ : Fin 256) = ⟨(j 2).val, (j 2).isLt⟩ := Fin.ext (by
    show win0_12.index t (2 : Fin 3) * 256 + 1 * (j 2).val = (j 2).val
    rw [e2]; omega)
  show _ = ∑ jj : Fin 16, blkC2 (kargs m c) (16 * ((((cfg0.win 12).blk t).view.emb j) 0).val + jj.val)
    ⟨((((cfg0.win 12).blk t).view.emb j) 1).val, ((((cfg0.win 12).blk t).view.emb j) 1).isLt⟩ ⟨((((cfg0.win 12).blk t).view.emb j) 2).val, ((((cfg0.win 12).blk t).view.emb j) 2).isLt⟩
  rw [q0, q1, q2]

/-- Every index of the [2, 256, 256] array lies in the slab the last point of its core's sweep writes back. -/
theorem cover12 (i : S2x256x256.Idx) :
    ∃ t : Fin cfg0.N, (cfg0.win 12).flush t = true ∧ i ∈ ((cfg0.win 12).blk t).view.set := by
  have hi0 : (i 0).val < 2 := (i 0).isLt
  have hi1 : (i 1).val < 256 := (i 1).isLt
  have hi2 : (i 2).val < 256 := (i 2).isLt
  have hlt : 16 * (i 0).val + 15 < cfg0.N := lt_of_lt_of_eq (by omega) N_0.symm
  obtain ⟨e0, e1, e2⟩ := idx12 ⟨16 * (i 0).val + 15, hlt⟩
  refine ⟨⟨16 * (i 0).val + 15, hlt⟩, (flush0_12 _).mpr (by dsimp only; omega), ?_⟩
  show i ∈ ((View.whole main_v4_3).slice (win0_12.rect ⟨16 * (i 0).val + 15, hlt⟩)).set
  rw [View.set_slice_whole, Rect.mem_set_unit]
  intro a
  match a with
  | ⟨0, _⟩ =>
    show win0_12.index ⟨16 * (i 0).val + 15, hlt⟩ (0 : Fin 3) * 1 ≤ (i 0).val
      ∧ (i 0).val < win0_12.index ⟨16 * (i 0).val + 15, hlt⟩ (0 : Fin 3) * 1 + 1
    rw [e0]; dsimp only; omega
  | ⟨1, _⟩ =>
    show win0_12.index ⟨16 * (i 0).val + 15, hlt⟩ (1 : Fin 3) * 256 ≤ (i 1).val
      ∧ (i 1).val < win0_12.index ⟨16 * (i 0).val + 15, hlt⟩ (1 : Fin 3) * 256 + 256
    rw [e1]; omega
  | ⟨2, _⟩ =>
    show win0_12.index ⟨16 * (i 0).val + 15, hlt⟩ (2 : Fin 3) * 256 ≤ (i 2).val
      ∧ (i 2).val < win0_12.index ⟨16 * (i 0).val + 15, hlt⟩ (2 : Fin 3) * 256 + 256
    rw [e2]; omega

theorem final12 (c : Dev nD) : (dats m 0 c).arrAt 12 cfg0.N = part2 (kargs m c) :=
  (dats m 0 c).arrAt_eq_of_cover 12 (part2 (kargs m c)) (fun t hf => flushed12 m c t hf) (cover12)

/-! ## Window 13: co-activation matrix 3, one slab per core -/

theorem idx13 : ∀ t : Fin cfg0.N, win0_13.index t (0 : Fin 3) = t.val / 16 ∧ win0_13.index t (1 : Fin 3) = 0
    ∧ win0_13.index t (2 : Fin 3) = 0 :=
  (by decide +kernel : ∀ t : Fin grid0.N, _)

/-- The running sum at any index of the one-slab block (its leading coordinate is 0). -/
theorem c3_at' (c : Dev nD) (n : ℕ) (h : n < cfg0.N) (j : S1x256x10.Idx) :
    (outsAt0 m c n h).2.2.2.2 j = ∑ s ∈ Finset.Ico (16 * (n / 16)) (n + 1),
      blkC3 (kargs m c) s ⟨(j 1).val, (j 1).isLt⟩ ⟨(j 2).val, (j 2).isLt⟩ := by
  have e : j = ix3 (0 : Fin 1) (⟨(j 1).val, (j 1).isLt⟩ : Fin 256) (⟨(j 2).val, (j 2).isLt⟩ : Fin 10) := by
    funext d
    match d with
    | ⟨0, _⟩ => exact Fin.ext (by show (j 0).val = 0; have h0 : (j 0).val < 1 := (j 0).isLt; omega)
    | ⟨1, _⟩ => rfl
    | ⟨2, _⟩ => rfl
  exact (congrArg (outsAt0 m c n h).2.2.2.2 e).trans (Inv.c3_at m c n h _ _)

/-- What the last point of a core's sweep writes back is slab `t / 16` of the partial sums. -/
theorem flushed13 (c : Dev nD) (t : Fin cfg0.N) (hf : (cfg0.win 13).flush t = true) :
    (dats m 0 c).flushed 13 t = ((cfg0.win 13).blk t).view.read (Elt Ideal) (part3 (kargs m c)) := by
  have h15 : t.val % 16 = 15 := (flush0_13 t).mp hf
  have hN : t.val < 32 := (tt t).isLt
  obtain ⟨e0, e1, e2⟩ := idx13 t
  show (cfg0.win 13).cut (grid0.coords t) ((dats m 0 c).after 13 t) = _
  rw [after0_13]
  funext j
  show (outsAt0 m c t.val t.isLt).2.2.2.2 j = part3 (kargs m c) (((cfg0.win 13).blk t).view.emb j)
  refine (c3_at' m c t.val t.isLt j).trans ?_
  have h0 : (j 0).val < 1 := (j 0).isLt
  have h1 : (j 1).val < 256 := (j 1).isLt
  have h2 : (j 2).val < 10 := (j 2).isLt
  have ht : t.val = 16 * (t.val / 16) + 15 := by omega
  have hs := LibSums.sum_Ico_half (fun s => blkC3 (kargs m c) s ⟨(j 1).val, (j 1).isLt⟩ ⟨(j 2).val, (j 2).isLt⟩) (t.val / 16)
  rw [← ht] at hs
  refine hs.trans ?_
  have q0 : ((((cfg0.win 13).blk t).view.emb j) 0).val = t.val / 16 := by
    show win0_13.index t (0 : Fin 3) * 1 + 1 * (j 0).val = t.val / 16
    rw [e0]; omega
  have q1 : (⟨((((cfg0.win 13).blk t).view.emb j) 1).val, ((((cfg0.win 13).blk t).view.emb j) 1).isLt⟩ : Fin 256) = ⟨(j 1).val, (j 1).isLt⟩ := Fin.ext (by
    show win0_13.index t (1 : Fin 3) * 256 + 1 * (j 1).val = (j 1).val
    rw [e1]; omega)
  have q2 : (⟨((((cfg0.win 13).blk t).view.emb j) 2).val, ((((cfg0.win 13).blk t).view.emb j) 2).isLt⟩ : Fin 10) = ⟨(j 2).val, (j 2).isLt⟩ := Fin.ext (by
    show win0_13.index t (2 : Fin 3) * 10 + 1 * (j 2).val = (j 2).val
    rw [e2]; omega)
  show _ = ∑ jj : Fin 16, blkC3 (kargs m c) (16 * ((((cfg0.win 13).blk t).view.emb j) 0).val + jj.val)
    ⟨((((cfg0.win 13).blk t).view.emb j) 1).val, ((((cfg0.win 13).blk t).view.emb j) 1).isLt⟩ ⟨((((cfg0.win 13).blk t).view.emb j) 2).val, ((((cfg0.win 13).blk t).view.emb j) 2).isLt⟩
  rw [q0, q1, q2]

/-- Every index of the [2, 256, 10] array lies in the slab the last point of its core's sweep writes back. -/
theorem cover13 (i : S2x256x10.Idx) :
    ∃ t : Fin cfg0.N, (cfg0.win 13).flush t = true ∧ i ∈ ((cfg0.win 13).blk t).view.set := by
  have hi0 : (i 0).val < 2 := (i 0).isLt
  have hi1 : (i 1).val < 256 := (i 1).isLt
  have hi2 : (i 2).val < 10 := (i 2).isLt
  have hlt : 16 * (i 0).val + 15 < cfg0.N := lt_of_lt_of_eq (by omega) N_0.symm
  obtain ⟨e0, e1, e2⟩ := idx13 ⟨16 * (i 0).val + 15, hlt⟩
  refine ⟨⟨16 * (i 0).val + 15, hlt⟩, (flush0_13 _).mpr (by dsimp only; omega), ?_⟩
  show i ∈ ((View.whole main_v4_4).slice (win0_13.rect ⟨16 * (i 0).val + 15, hlt⟩)).set
  rw [View.set_slice_whole, Rect.mem_set_unit]
  intro a
  match a with
  | ⟨0, _⟩ =>
    show win0_13.index ⟨16 * (i 0).val + 15, hlt⟩ (0 : Fin 3) * 1 ≤ (i 0).val
      ∧ (i 0).val < win0_13.index ⟨16 * (i 0).val + 15, hlt⟩ (0 : Fin 3) * 1 + 1
    rw [e0]; dsimp only; omega
  | ⟨1, _⟩ =>
    show win0_13.index ⟨16 * (i 0).val + 15, hlt⟩ (1 : Fin 3) * 256 ≤ (i 1).val
      ∧ (i 1).val < win0_13.index ⟨16 * (i 0).val + 15, hlt⟩ (1 : Fin 3) * 256 + 256
    rw [e1]; omega
  | ⟨2, _⟩ =>
    show win0_13.index ⟨16 * (i 0).val + 15, hlt⟩ (2 : Fin 3) * 10 ≤ (i 2).val
      ∧ (i 2).val < win0_13.index ⟨16 * (i 0).val + 15, hlt⟩ (2 : Fin 3) * 10 + 10
    rw [e2]; omega

theorem final13 (c : Dev nD) : (dats m 0 c).arrAt 13 cfg0.N = part3 (kargs m c) :=
  (dats m 0 c).arrAt_eq_of_cover 13 (part3 (kargs m c)) (fun t hf => flushed13 m c t hf) (cover13)

end Cert.KernelIdeal.Final

end
-- ==== Proof.KernelRun.lean ====
/-
  The idealized kernel's run, read. After the region the host sums each [2, ·, ·] array of partial sums over its
  first axis, from zero: `0 + (half 0 + half 1)`, which is the co-activation matrix over all 32768 rows (the
  regrouping of `Cert.Mlp.c⋆_split`). So every weakly fair execution ends with the logits and the four
  co-activation matrices of the argument arrays, the arguments unchanged.
-/
import proofs.«165139_j36704790511730_1_alg».proof.Proof.Final
import Idealize.ShloMosaic.PureOps.Ideal.Laws
import Idealize.ShloMosaic.Lib.IdealHost
import Idealize.ShloMosaic.Lib.StableHlo.Run

noncomputable section

namespace Cert.KernelIdeal.KRun

open Cert.KernelIdeal Cert.KernelIdeal.Gen Cert.KernelIdeal.Blocks Cert.Mlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- `main_v5`: the two halves of co-activation matrix 0, summed from zero, are the matrix over all rows. -/
theorem tail5 (c : Dev nD) :
    Pipeline.afterTail₀ cfgs (dats m) 0 (V0 m) [hostOps1] c main_v5 = resC0 (kargs m c) := by
  unfold Pipeline.afterTail₀
  show StableHlo.after hostOps1 _ (Proc.devRef .tc main_v5) = _
  after_results
  rw [(Pipeline.withArrays_arr spec0 launch0.win.arr_inj c _ _ 10).trans (Final.final10 m c)]
  funext i
  obtain ⟨a, b, rfl⟩ : ∃ (a : Fin 784) (b : Fin 256), i = ix2 a b := ⟨i 0, i 1, eq_ix2 i⟩
  rw [resC0_ix, c0_split]
  refine (hostReduceAdd_apply _ _ _ _ _).trans ?_
  rw [Ideal.hostReduceAdd_single reducesTo_S2x784x256_S784x256_d0 (by decide : S2x784x256.Reduces [0] S784x256)]
  rw [show constant (F := Ideal) S_ .f32 0x00000000#32 (Shape.Idx.first h_S_) = 0 from Ideal.ofBits_zero_f32, zero_add]
  exact Finset.sum_congr rfl fun k _ => rfl

/-- `main_v6`: the two halves of co-activation matrix 1, summed from zero, are the matrix over all rows. -/
theorem tail6 (c : Dev nD) :
    Pipeline.afterTail₀ cfgs (dats m) 0 (V0 m) [hostOps1] c main_v6 = resC1 (kargs m c) := by
  unfold Pipeline.afterTail₀
  show StableHlo.after hostOps1 _ (Proc.devRef .tc main_v6) = _
  after_results
  rw [(Pipeline.withArrays_arr spec0 launch0.win.arr_inj c _ _ 11).trans (Final.final11 m c)]
  funext i
  obtain ⟨a, b, rfl⟩ : ∃ (a : Fin 256) (b : Fin 256), i = ix2 a b := ⟨i 0, i 1, eq_ix2 i⟩
  rw [resC1_ix, c1_split]
  refine (hostReduceAdd_apply _ _ _ _ _).trans ?_
  rw [Ideal.hostReduceAdd_single reducesTo_S2x256x256_S256x256_d0 (by decide : S2x256x256.Reduces [0] S256x256)]
  rw [show constant (F := Ideal) S_ .f32 0x00000000#32 (Shape.Idx.first h_S_) = 0 from Ideal.ofBits_zero_f32, zero_add]
  exact Finset.sum_congr rfl fun k _ => rfl

/-- `main_v7`: the two halves of co-activation matrix 2, summed from zero, are the matrix over all rows. -/
theorem tail7 (c : Dev nD) :
    Pipeline.afterTail₀ cfgs (dats m) 0 (V0 m) [hostOps1] c main_v7 = resC2 (kargs m c) := by
  unfold Pipeline.afterTail₀
  show StableHlo.after hostOps1 _ (Proc.devRef .tc main_v7) = _
  after_results
  rw [(Pipeline.withArrays_arr spec0 launch0.win.arr_inj c _ _ 12).trans (Final.final12 m c)]
  funext i
  obtain ⟨a, b, rfl⟩ : ∃ (a : Fin 256) (b : Fin 256), i = ix2 a b := ⟨i 0, i 1, eq_ix2 i⟩
  rw [resC2_ix, c2_split]
  refine (hostReduceAdd_apply _ _ _ _ _).trans ?_
  rw [Ideal.hostReduceAdd_single reducesTo_S2x256x256_S256x256_d0 (by decide : S2x256x256.Reduces [0] S256x256)]
  rw [show constant (F := Ideal) S_ .f32 0x00000000#32 (Shape.Idx.first h_S_) = 0 from Ideal.ofBits_zero_f32, zero_add]
  exact Finset.sum_congr rfl fun k _ => rfl

/-- `main_v8`: the two halves of co-activation matrix 3, summed from zero, are the matrix over all rows. -/
theorem tail8 (c : Dev nD) :
    Pipeline.afterTail₀ cfgs (dats m) 0 (V0 m) [hostOps1] c main_v8 = resC3 (kargs m c) := by
  unfold Pipeline.afterTail₀
  show StableHlo.after hostOps1 _ (Proc.devRef .tc main_v8) = _
  after_results
  rw [(Pipeline.withArrays_arr spec0 launch0.win.arr_inj c _ _ 13).trans (Final.final13 m c)]
  funext i
  obtain ⟨a, b, rfl⟩ : ∃ (a : Fin 256) (b : Fin 10), i = ix2 a b := ⟨i 0, i 1, eq_ix2 i⟩
  rw [resC3_ix, c3_split]
  refine (hostReduceAdd_apply _ _ _ _ _).trans ?_
  rw [Ideal.hostReduceAdd_single reducesTo_S2x256x10_S256x10_d0 (by decide : S2x256x10.Reduces [0] S256x10)]
  rw [show constant (F := Ideal) S_ .f32 0x00000000#32 (Shape.Idx.first h_S_) = 0 from Ideal.ofBits_zero_f32, zero_add]
  exact Finset.sum_congr rfl fun k _ => rfl

/-- The run: the logits array is the region's own output; the four matrices are the host's sums; an argument the
    region stages ends as its window's array, which no write-back touches, and a bias, which only the host's
    reshape reads, as launched. -/
theorem run (ρ : Dev nD → PrngReg) :
    θ_run defs (onTc (τ := τ) (main (F := Ideal))) ⟨m, fun _ => 0, ρ⟩ fun r => ∀ c : Dev nD,
      r.2.mem ((c.tc : Thread nD τ).loc main_v4_0) = resLogits (kargs m c)
      ∧ r.2.mem ((c.tc : Thread nD τ).loc main_v5) = resC0 (kargs m c)
      ∧ r.2.mem ((c.tc : Thread nD τ).loc main_v6) = resC1 (kargs m c)
      ∧ r.2.mem ((c.tc : Thread nD τ).loc main_v7) = resC2 (kargs m c)
      ∧ r.2.mem ((c.tc : Thread nD τ).loc main_v8) = resC3 (kargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 9).trans (Final.final9 m c),
      ((h c).2 main_v5 (Pipeline.mem_restRefs_of main_v5 (by decide) (by decide))).trans (tail5 m c),
      ((h c).2 main_v6 (Pipeline.mem_restRefs_of main_v6 (by decide) (by decide))).trans (tail6 m c),
      ((h c).2 main_v7 (Pipeline.mem_restRefs_of main_v7 (by decide) (by decide))).trans (tail7 m c),
      ((h c).2 main_v8 (Pipeline.mem_restRefs_of main_v8 (by decide) (by decide))).trans (tail8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.KernelIdeal.KRun

end
-- ==== Proof.RefValue.lean ====
/-
  The reference's five results, at the ideal instance, are the logits and the co-activation matrices of
  `Cert.Mlp` of its argument arrays: each host operation read at an index is one step of the specification — a
  `dot_general` against a transposed weight matrix is `∑ₖ x[r, k] · W[j, k]`, the two broadcasts of a bias give `b[j]`,
  `maximum(·, 0)` is the rectifier, `convert(compare GT 0)` the indicator, and a `dot_general` of a transposed
  indicator matrix with another is `∑ᵣ a[r, i] · a'[r, j]`.
-/
import proofs.«165139_j36704790511730_1_alg».proof.Proof.Gen.ReferenceIdeal.Read
import proofs.«165139_j36704790511730_1_alg».proof.Proof.Result
import Idealize.ShloMosaic.Lib.ValueIdx
import Idealize.ShloMosaic.PureOps.Ideal.Laws

noncomputable section

namespace Cert.ReferenceIdeal.RefValue

open Cert.ReferenceIdeal Cert.ReferenceIdeal.Read Cert.Mlp Idealize.ShloMosaic Idealize.ShloMosaic.ValueIdx

variable (x0 : (⟨S32768x784, .f32⟩ : BufTy).Contents (Elt Ideal)) (x1 : (⟨S256x784, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S10x256, .f32⟩ : BufTy).Contents (Elt Ideal)) (x8 : (⟨S10, .f32⟩ : BufTy).Contents (Elt Ideal))

/-- The nine argument arrays, gathered. -/
local notation "𝒜" => (Args.mk x0 x1 x2 x3 x4 x5 x6 x7 x8)

/-- The constant of every comparison and rectifier: the all-zero bit pattern is the number 0. -/
private theorem zero_f32 : (FloatOps.ofBits (F := Ideal) .f32 0x00000000#32) = (0 : EReal) := Ideal.ofBits_zero_f32

/-! ## Where each operation reads its operands

  Output element `[r, j]` of a product contracting the left operand's columns with the right operand's rows reads
  `left[r, k]` and `right[k, j]`; element `[a, b]` of a transposed matrix is element `[b, a]` of the matrix; element
  `[r, j]` of a bias broadcast first to one row and then down the rows is `b[j]`. -/

-- layer 1: 784 → 256
private theorem lidx_v4 (r : Fin 32768) (j : Fin 256) (k : Fin 784) : lidx_main_v4 (ix2 r j) k = ix2 r k := by
  funext a; match a with | ⟨0, _⟩ => rfl | ⟨1, _⟩ => rfl
private theorem ridx_v4 (r : Fin 32768) (j : Fin 256) (k : Fin 784) : ridx_main_v4 (ix2 r j) k = ix2 k j := by
  funext a; match a with | ⟨0, _⟩ => rfl | ⟨1, _⟩ => rfl
private theorem idx_v3 (k : Fin 784) (j : Fin 256) : idx_main_v3 (ix2 k j) = ix2 j k := by
  funext a; match a with | ⟨0, _⟩ => rfl | ⟨1, _⟩ => rfl
private theorem idx_v6 (r : Fin 32768) (j : Fin 256) : idx_main_v5 (idx_main_v6 (ix2 r j)) = ix1 j := by
  funext a; match a with | ⟨0, _⟩ => rfl

-- layer 2: 256 → 256
private theorem lidx_v15 (r : Fin 32768) (j : Fin 256) (k : Fin 256) : lidx_main_v15 (ix2 r j) k = ix2 r k := by
  funext a; match a with | ⟨0, _⟩ => rfl | ⟨1, _⟩ => rfl
private theorem ridx_v15 (r : Fin 32768) (j : Fin 256) (k : Fin 256) : ridx_main_v15 (ix2 r j) k = ix2 k j := by
  funext a; match a with | ⟨0, _⟩ => rfl | ⟨1, _⟩ => rfl
private theorem idx_v14 (k : Fin 256) (j : Fin 256) : idx_main_v14 (ix2 k j) = ix2 j k := by
  funext a; match a with | ⟨0, _⟩ => rfl | ⟨1, _⟩ => rfl
private theorem idx_v17 (r : Fin 32768) (j : Fin 256) : idx_main_v16 (idx_main_v17 (ix2 r j)) = ix1 j := by
  funext a; match a with | ⟨0, _⟩ => rfl

-- layer 3: 256 → 256
private theorem lidx_v26 (r : Fin 32768) (j : Fin 256) (k : Fin 256) : lidx_main_v26 (ix2 r j) k = ix2 r k := by
  funext a; match a with | ⟨0, _⟩ => rfl | ⟨1, _⟩ => rfl
private theorem ridx_v26 (r : Fin 32768) (j : Fin 256) (k : Fin 256) : ridx_main_v26 (ix2 r j) k = ix2 k j := by
  funext a; match a with | ⟨0, _⟩ => rfl | ⟨1, _⟩ => rfl
private theorem idx_v25 (k : Fin 256) (j : Fin 256) : idx_main_v25 (ix2 k j) = ix2 j k := by
  funext a; match a with | ⟨0, _⟩ => rfl | ⟨1, _⟩ => rfl
private theorem idx_v28 (r : Fin 32768) (j : Fin 256) : idx_main_v27 (idx_main_v28 (ix2 r j)) = ix1 j := by
  funext a; match a with | ⟨0, _⟩ => rfl

-- layer 4: 256 → 10
private theorem lidx_v37 (r : Fin 32768) (j : Fin 10) (k : Fin 256) : lidx_main_v37 (ix2 r j) k = ix2 r k := by
  funext a; match a with | ⟨0, _⟩ => rfl | ⟨1, _⟩ => rfl
private theorem ridx_v37 (r : Fin 32768) (j : Fin 10) (k : Fin 256) : ridx_main_v37 (ix2 r j) k = ix2 k j := by
  funext a; match a with | ⟨0, _⟩ => rfl | ⟨1, _⟩ => rfl
private theorem idx_v36 (k : Fin 256) (j : Fin 10) : idx_main_v36 (ix2 k j) = ix2 j k := by
  funext a; match a with | ⟨0, _⟩ => rfl | ⟨1, _⟩ => rfl
private theorem idx_v39 (r : Fin 32768) (j : Fin 10) : idx_main_v38 (idx_main_v39 (ix2 r j)) = ix1 j := by
  funext a; match a with | ⟨0, _⟩ => rfl

-- the four products over the batch rows
private theorem lidx_v13 (i : Fin 784) (j : Fin 256) (k : Fin 32768) : lidx_main_v13 (ix2 i j) k = ix2 i k := by
  funext a; match a with | ⟨0, _⟩ => rfl | ⟨1, _⟩ => rfl
private theorem ridx_v13 (i : Fin 784) (j : Fin 256) (k : Fin 32768) : ridx_main_v13 (ix2 i j) k = ix2 k j := by
  funext a; match a with | ⟨0, _⟩ => rfl | ⟨1, _⟩ => rfl
private theorem idx_v12 (i : Fin 784) (k : Fin 32768) : idx_main_v12 (ix2 i k) = ix2 k i := by
  funext a; match a with | ⟨0, _⟩ => rfl | ⟨1, _⟩ => rfl
private theorem lidx_v24 (i : Fin 256) (j : Fin 256) (k : Fin 32768) : lidx_main_v24 (ix2 i j) k = ix2 i k := by
  funext a; match a with | ⟨0, _⟩ => rfl | ⟨1, _⟩ => rfl
private theorem ridx_v24 (i : Fin 256) (j : Fin 256) (k : Fin 32768) : ridx_main_v24 (ix2 i j) k = ix2 k j := by
  funext a; match a with | ⟨0, _⟩ => rfl | ⟨1, _⟩ => rfl
private theorem idx_v23 (i : Fin 256) (k : Fin 32768) : idx_main_v23 (ix2 i k) = ix2 k i := by
  funext a; match a with | ⟨0, _⟩ => rfl | ⟨1, _⟩ => rfl
private theorem lidx_v35 (i : Fin 256) (j : Fin 256) (k : Fin 32768) : lidx_main_v35 (ix2 i j) k = ix2 i k := by
  funext a; match a with | ⟨0, _⟩ => rfl | ⟨1, _⟩ => rfl
private theorem ridx_v35 (i : Fin 256) (j : Fin 256) (k : Fin 32768) : ridx_main_v35 (ix2 i j) k = ix2 k j := by
  funext a; match a with | ⟨0, _⟩ => rfl | ⟨1, _⟩ => rfl
private theorem idx_v34 (i : Fin 256) (k : Fin 32768) : idx_main_v34 (ix2 i k) = ix2 k i := by
  funext a; match a with | ⟨0, _⟩ => rfl | ⟨1, _⟩ => rfl
private theorem lidx_v45 (i : Fin 256) (j : Fin 10) (k : Fin 32768) : lidx_main_v45 (ix2 i j) k = ix2 i k := by
  funext a; match a with | ⟨0, _⟩ => rfl | ⟨1, _⟩ => rfl
private theorem ridx_v45 (i : Fin 256) (j : Fin 10) (k : Fin 32768) : ridx_main_v45 (ix2 i j) k = ix2 k j := by
  funext a; match a with | ⟨0, _⟩ => rfl | ⟨1, _⟩ => rfl
private theorem idx_v44 (i : Fin 256) (k : Fin 32768) : idx_main_v44 (ix2 i k) = ix2 k i := by
  funext a; match a with | ⟨0, _⟩ => rfl | ⟨1, _⟩ => rfl

/-! ## The layers, one element at a time

  Each hidden layer is `max((∑ₖ prev[r, k] · W[j, k]) + b[j], 0)` of the layer before it; the output layer is the same
  without the `max`. -/

private theorem v8_ix (r : Fin 32768) (j : Fin 256) :
    val_main_v8 (F := Ideal) x0 x1 x2 (ix2 r j) = h1 (Args.p 𝒜) (Args.X 𝒜) r j := by
  rw [val_main_v8_apply, val_main_v7_apply, val_main_v4_apply, val_main_v6_apply, val_main_v5_apply,
    val_main_call0_v0_apply, val_main_call0_cst_apply, idx_v6, zero_f32]
  simp only [lidx_v4, ridx_v4, val_main_v3_apply, idx_v3, Ideal.addf_def, Ideal.maximumf_def]
  rfl

private theorem v19_ix (r : Fin 32768) (j : Fin 256) :
    val_main_v19 (F := Ideal) x0 x1 x2 x3 x4 (ix2 r j) = h2 (Args.p 𝒜) (Args.X 𝒜) r j := by
  rw [val_main_v19_apply, val_main_v18_apply, val_main_v15_apply, val_main_v17_apply, val_main_v16_apply,
    val_main_call1_v0_apply, val_main_call1_cst_apply, idx_v17, zero_f32]
  simp only [lidx_v15, ridx_v15, val_main_v14_apply, idx_v14, v8_ix x0 x1 x2 x3 x4 x5 x6 x7 x8, Ideal.addf_def, Ideal.maximumf_def]
  rfl

private theorem v30_ix (r : Fin 32768) (j : Fin 256) :
    val_main_v30 (F := Ideal) x0 x1 x2 x3 x4 x5 x6 (ix2 r j) = h3 (Args.p 𝒜) (Args.X 𝒜) r j := by
  rw [val_main_v30_apply, val_main_v29_apply, val_main_v26_apply, val_main_v28_apply, val_main_v27_apply,
    val_main_call2_v0_apply, val_main_call2_cst_apply, idx_v28, zero_f32]
  simp only [lidx_v26, ridx_v26, val_main_v25_apply, idx_v25, v19_ix x0 x1 x2 x3 x4 x5 x6 x7 x8, Ideal.addf_def, Ideal.maximumf_def]
  rfl

private theorem v40_ix (r : Fin 32768) (j : Fin 10) :
    val_main_v40 (F := Ideal) x0 x1 x2 x3 x4 x5 x6 x7 x8 (ix2 r j) = logits (Args.p 𝒜) (Args.X 𝒜) r j := by
  rw [val_main_v40_apply, val_main_v37_apply, val_main_v39_apply, val_main_v38_apply, idx_v39]
  simp only [lidx_v37, ridx_v37, val_main_v36_apply, idx_v36, v30_ix x0 x1 x2 x3 x4 x5 x6 x7 x8, Ideal.addf_def]
  rfl

/-! ## The indicators: `convert(compare GT 0)` of an activation is 1 where it is positive, else 0 -/

private theorem v2_ix (r : Fin 32768) (i : Fin 784) :
    val_main_v2 (F := Ideal) x0 (ix2 r i) = a0 (Args.X 𝒜) r i := by
  rw [val_main_v2_apply, val_main_v1_apply, val_main_v0_apply, val_main_cst_apply, zero_f32]
  rfl

private theorem v11_ix (r : Fin 32768) (j : Fin 256) :
    val_main_v11 (F := Ideal) x0 x1 x2 (ix2 r j) = a1 (Args.p 𝒜) (Args.X 𝒜) r j := by
  rw [val_main_v11_apply, val_main_v10_apply, val_main_v9_apply, val_main_cst_0_apply, zero_f32, v8_ix x0 x1 x2 x3 x4 x5 x6 x7 x8]
  rfl

private theorem v22_ix (r : Fin 32768) (j : Fin 256) :
    val_main_v22 (F := Ideal) x0 x1 x2 x3 x4 (ix2 r j) = a2 (Args.p 𝒜) (Args.X 𝒜) r j := by
  rw [val_main_v22_apply, val_main_v21_apply, val_main_v20_apply, val_main_cst_1_apply, zero_f32, v19_ix x0 x1 x2 x3 x4 x5 x6 x7 x8]
  rfl

private theorem v33_ix (r : Fin 32768) (j : Fin 256) :
    val_main_v33 (F := Ideal) x0 x1 x2 x3 x4 x5 x6 (ix2 r j) = a3 (Args.p 𝒜) (Args.X 𝒜) r j := by
  rw [val_main_v33_apply, val_main_v32_apply, val_main_v31_apply, val_main_cst_2_apply, zero_f32, v30_ix x0 x1 x2 x3 x4 x5 x6 x7 x8]
  rfl

private theorem v43_ix (r : Fin 32768) (j : Fin 10) :
    val_main_v43 (F := Ideal) x0 x1 x2 x3 x4 x5 x6 x7 x8 (ix2 r j) = a4 (Args.p 𝒜) (Args.X 𝒜) r j := by
  rw [val_main_v43_apply, val_main_v42_apply, val_main_v41_apply, val_main_cst_3_apply, zero_f32, v40_ix x0 x1 x2 x3 x4 x5 x6 x7 x8]
  rfl

/-! ## The co-activation counts: `(aᵀ a')[i, j] = ∑ᵣ a[r, i] · a'[r, j]`, one term per batch row -/

private theorem v13_ix (i : Fin 784) (j : Fin 256) :
    val_main_v13 (F := Ideal) x0 x1 x2 (ix2 i j) = c0 (Args.p 𝒜) (Args.X 𝒜) i j := by
  rw [val_main_v13_apply]
  unfold c0 coact
  refine Finset.sum_congr rfl fun k _ => ?_
  rw [lidx_v13, ridx_v13, val_main_v12_apply, idx_v12, v2_ix x0 x1 x2 x3 x4 x5 x6 x7 x8, v11_ix x0 x1 x2 x3 x4 x5 x6 x7 x8]

private theorem v24_ix (i : Fin 256) (j : Fin 256) :
    val_main_v24 (F := Ideal) x0 x1 x2 x3 x4 (ix2 i j) = c1 (Args.p 𝒜) (Args.X 𝒜) i j := by
  rw [val_main_v24_apply]
  unfold c1 coact
  refine Finset.sum_congr rfl fun k _ => ?_
  rw [lidx_v24, ridx_v24, val_main_v23_apply, idx_v23, v11_ix x0 x1 x2 x3 x4 x5 x6 x7 x8, v22_ix x0 x1 x2 x3 x4 x5 x6 x7 x8]

private theorem v35_ix (i : Fin 256) (j : Fin 256) :
    val_main_v35 (F := Ideal) x0 x1 x2 x3 x4 x5 x6 (ix2 i j) = c2 (Args.p 𝒜) (Args.X 𝒜) i j := by
  rw [val_main_v35_apply]
  unfold c2 coact
  refine Finset.sum_congr rfl fun k _ => ?_
  rw [lidx_v35, ridx_v35, val_main_v34_apply, idx_v34, v22_ix x0 x1 x2 x3 x4 x5 x6 x7 x8, v33_ix x0 x1 x2 x3 x4 x5 x6 x7 x8]

private theorem v45_ix (i : Fin 256) (j : Fin 10) :
    val_main_v45 (F := Ideal) x0 x1 x2 x3 x4 x5 x6 x7 x8 (ix2 i j) = c3 (Args.p 𝒜) (Args.X 𝒜) i j := by
  rw [val_main_v45_apply]
  unfold c3 coact
  refine Finset.sum_congr rfl fun k _ => ?_
  rw [lidx_v45, ridx_v45, val_main_v44_apply, idx_v44, v33_ix x0 x1 x2 x3 x4 x5 x6 x7 x8, v43_ix x0 x1 x2 x3 x4 x5 x6 x7 x8]

/-! ## The five results as whole arrays: every index is a pair of coordinates -/

theorem ref_logits : val_main_v40 (F := Ideal) x0 x1 x2 x3 x4 x5 x6 x7 x8 = resLogits ⟨x0, x1, x2, x3, x4, x5, x6, x7, x8⟩ := by
  funext i
  obtain ⟨r, j, rfl⟩ : ∃ r j, i = ix2 r j := ⟨i 0, i 1, eq_ix2 i⟩
  rw [resLogits_ix]
  exact v40_ix x0 x1 x2 x3 x4 x5 x6 x7 x8 r j
theorem ref_c0 : val_main_v13 (F := Ideal) x0 x1 x2 = resC0 ⟨x0, x1, x2, x3, x4, x5, x6, x7, x8⟩ := by
  funext i
  obtain ⟨a, b, rfl⟩ : ∃ a b, i = ix2 a b := ⟨i 0, i 1, eq_ix2 i⟩
  rw [resC0_ix]
  exact v13_ix x0 x1 x2 x3 x4 x5 x6 x7 x8 a b
theorem ref_c1 : val_main_v24 (F := Ideal) x0 x1 x2 x3 x4 = resC1 ⟨x0, x1, x2, x3, x4, x5, x6, x7, x8⟩ := by
  funext i
  obtain ⟨a, b, rfl⟩ : ∃ a b, i = ix2 a b := ⟨i 0, i 1, eq_ix2 i⟩
  rw [resC1_ix]
  exact v24_ix x0 x1 x2 x3 x4 x5 x6 x7 x8 a b
theorem ref_c2 : val_main_v35 (F := Ideal) x0 x1 x2 x3 x4 x5 x6 = resC2 ⟨x0, x1, x2, x3, x4, x5, x6, x7, x8⟩ := by
  funext i
  obtain ⟨a, b, rfl⟩ : ∃ a b, i = ix2 a b := ⟨i 0, i 1, eq_ix2 i⟩
  rw [resC2_ix]
  exact v35_ix x0 x1 x2 x3 x4 x5 x6 x7 x8 a b
theorem ref_c3 : val_main_v45 (F := Ideal) x0 x1 x2 x3 x4 x5 x6 x7 x8 = resC3 ⟨x0, x1, x2, x3, x4, x5, x6, x7, x8⟩ := by
  funext i
  obtain ⟨a, b, rfl⟩ : ∃ a b, i = ix2 a b := ⟨i 0, i 1, eq_ix2 i⟩
  rw [resC3_ix]
  exact v45_ix x0 x1 x2 x3 x4 x5 x6 x7 x8 a b

end Cert.ReferenceIdeal.RefValue

end
-- ==== Proof.lean ====
/-
  The certificate of a four-layer perceptron kernel with co-activation counts against its jnp reference.

  THE MATHEMATICS. Both programs compute, from a batch `x` of 32768 rows and the weights and biases of four layers,
  the logits  h₃ W₄ᵀ + b₄  of the perceptron  hₖ = max(hₖ₋₁ Wₖᵀ + bₖ, 0)  and, for the five activation points
  (input, three hidden layers, logits), the four matrices of co-activation counts  C[i, j] = ∑ᵣ [a[r,i] > 0]·[a'[r,j] > 0]
  between consecutive points (`Proof/Mlp.lean`). The kernel narrows its operands to bf16 before each matrix product,
  which at the ideal instance changes no value; it walks the batch in 32 blocks of 1024 rows on a 2 × 16 grid,
  writes each block's logits, and keeps each core's sixteen blocks' counts as a running sum that the first point of
  a sweep resets (`Proof/Invariant.lean`, from the blocks' arithmetic in `Proof/BlockLayers.lean` and
  `Proof/BlockCounts.lean` and the reading of the stored pieces in `Proof/PiecesA.lean`, `Proof/PiecesB.lean`); the
  two cores' partial sums (`Proof/Final.lean`) are added on the host (`Proof/KernelRun.lean`). The reference does the
  same arithmetic on the whole batch at once (`Proof/RefValue.lean`). The one law that joins the two sides is the
  regrouping of a sum over 32768 rows as a sum over 2 halves × 16 blocks × 1024 rows (`Proof/LibSums.lean`,
  `Proof/Law.lean`): only commutativity and associativity of addition and `0 + v = v` on the extended reals, so the
  finiteness of the inputs is never used.

  THE CLAIMS. The two kernels' frames are the generated frame certificates; the reference's frame is its generated run
  with the results dropped; the idealization rewrote no operation, so `preserves` is trivial; and `algebraic` states
  both runs with the same five result functions of the arguments (`Cert.Mlp.resLogits`, `resC0 … resC3`).
-/
import proofs.«165139_j36704790511730_1_alg».proof.Defs
import proofs.«165139_j36704790511730_1_alg».proof.Proof.Gen.Kernel
import proofs.«165139_j36704790511730_1_alg».proof.Proof.Gen.Kernel.Frame
import proofs.«165139_j36704790511730_1_alg».proof.Proof.Gen.KernelIdeal
import proofs.«165139_j36704790511730_1_alg».proof.Proof.Gen.KernelIdeal.Frame
import proofs.«165139_j36704790511730_1_alg».proof.Proof.Gen.ReferenceIdeal
import proofs.«165139_j36704790511730_1_alg».proof.Proof.Gen.Pre_finite_inputs
import proofs.«165139_j36704790511730_1_alg».proof.Proof.Gen.ReferenceIdeal.Run
import proofs.«165139_j36704790511730_1_alg».proof.Proof.Gen.ReferenceIdeal.Read
import proofs.«165139_j36704790511730_1_alg».proof.Proof.KernelRun
import proofs.«165139_j36704790511730_1_alg».proof.Proof.RefValue
import Idealize.ShloMosaic.Adequacy
import Idealize.ShloMosaic.Init

noncomputable section

namespace Cert.Proof

open Idealize.ShloMosaic Idealize.SL.Sem Cert.Mlp

theorem frame_k : Cert.frame_Kernel := fun m ρ _ => Cert.Kernel.Gen.frame m ρ

theorem frame_ki : Cert.frame_KernelIdeal := fun m ρ _ => Cert.KernelIdeal.Gen.frame m ρ

/-- The reference's run leaves its arguments unchanged: its generated run, the five results dropped. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

/-- The idealization rewrote no operation. -/
theorem preserves : Cert.preserves_Kernel_KernelIdeal := trivial

/-- Both runs end with the logits and the four co-activation matrices of the arguments, which agree. -/
theorem algebraic : Cert.algebraic_KernelIdeal_ReferenceIdeal := by
  intro m ρ m' ρ' _ hagree
  refine ⟨fun c => resLogits (Cert.KernelIdeal.Blocks.kargs m c), fun c => resC0 (Cert.KernelIdeal.Blocks.kargs m c),
    fun c => resC1 (Cert.KernelIdeal.Blocks.kargs m c), fun c => resC2 (Cert.KernelIdeal.Blocks.kargs m c),
    fun c => resC3 (Cert.KernelIdeal.Blocks.kargs m c), Cert.KernelIdeal.KRun.run m ρ, ?_⟩
  refine (θ_run Cert.ReferenceIdeal.defs _ _).mono (fun _ h c => ?_)
    (Cert.ReferenceIdeal.Value.run (F := Ideal) m' ρ')
  obtain ⟨r0, r1, r2, r3, r4, hargs⟩ := h c
  obtain ⟨a0, a1, a2, a3, a4, a5, a6, a7, a8⟩ := hagree c
  refine ⟨r0.trans ?_, r1.trans ?_, r2.trans ?_, r3.trans ?_, r4.trans ?_, hargs⟩
  · rw [Cert.ReferenceIdeal.Read.val_main_v40_eq, Cert.ReferenceIdeal.RefValue.ref_logits, a0, a1, a2, a3, a4, a5, a6, a7, a8]
    rfl
  · rw [Cert.ReferenceIdeal.Read.val_main_v13_eq,
      Cert.ReferenceIdeal.RefValue.ref_c0 _ _ _ (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)),
      a0, a1, a2, a3, a4, a5, a6, a7, a8]
    rfl
  · rw [Cert.ReferenceIdeal.Read.val_main_v24_eq,
      Cert.ReferenceIdeal.RefValue.ref_c1 _ _ _ _ _ (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)),
      a0, a1, a2, a3, a4, a5, a6, a7, a8]
    rfl
  · rw [Cert.ReferenceIdeal.Read.val_main_v35_eq,
      Cert.ReferenceIdeal.RefValue.ref_c2 _ _ _ _ _ _ _ (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)),
      a0, a1, a2, a3, a4, a5, a6, a7, a8]
    rfl
  · rw [Cert.ReferenceIdeal.Read.val_main_v45_eq, Cert.ReferenceIdeal.RefValue.ref_c3, a0, a1, a2, a3, a4, a5, a6, a7, a8]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
